-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S2600000x64 : Shape := ⟨2, ![2600000, 64]⟩
abbrev S26 : Shape := ⟨1, ![26]⟩
abbrev S_ : Shape := ⟨0, ![]⟩
abbrev S1x26 : Shape := ⟨2, ![1, 26]⟩

class Facts : Prop where
  bcast_S_S26 : S_.BroadcastsInDim S26 (![] : Fin 0 → Fin S26.rank)
  bcast_S26_S1x26_1 : S26.BroadcastsInDim S1x26 (![1] : Fin 1 → Fin S1x26.rank)
  bcast_S1x26_S16384x26_0_1 : S1x26.BroadcastsInDim S16384x26 (![0, 1] : Fin 2 → Fin S16384x26.rank)
  bcast_S_S2600000x64 : S_.BroadcastsInDim S2600000x64 (![] : Fin 0 → Fin S2600000x64.rank)
  reducesTo_S2600000x64_S_d0_1 : S2600000x64.ReducesTo [0, 1] S_
  h_S_ : 0 < S_.numel
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S2600000x64 .f32) : IVec S_ 1 :=
  let main_v0 : IVec S26 32 := iotaInDim S26 32 0
  let main_c : IVec S_ 32 := constantI S_ 32 100000#32
  let main_v1 : IVec S26 32 := broadcastInDim S26 ![] bcast_S_S26 main_c
  let main_v2 : IVec S26 32 := muli main_v0 main_v1
  let main_v3 : IVec S1x26 32 := broadcastInDim S1x26 ![1] bcast_S26_S1x26_1 main_v2
  let main_v4 : IVec S16384x26 32 := broadcastInDim S16384x26 ![0, 1] bcast_S1x26_S16384x26_0_1 main_v3
  let main_v5 : IVec S16384x26 32 := addi main_arg0 main_v4
  let main_v6 : FVec F S2600000x64 .f32 := Host.absf main_arg1
  let main_cst : FVec F S_ .f32 := constant S_ .f32 0x7F800000#32
  let main_v7 : FVec F S2600000x64 .f32 := broadcastInDim S2600000x64 ![] bcast_S_S2600000x64 main_cst
  let main_v8 : IVec S2600000x64 1 := cmpf .olt main_v6 main_v7
  let main_c_0 : IVec S_ 1 := constantI S_ 1 1#1
  let main_v9 : IVec S_ 1 := (fun x v => Host.reduce IntOp.andi x v reducesTo_S2600000x64_S_d0_1 h_S_) main_v8 main_c_0
  let main_c_1 : IVec S_ 32 := constantI S_ 32 0#32
  let main_v10 : IVec S16384x26 32 := broadcastInDim S16384x26 ![] bcast_S_S16384x26 main_c_1
  let main_v11 : IVec S16384x26 1 := cmpi .sge main_v5 main_v10
  let main_c_2 : IVec S_ 32 := constantI S_ 32 2600000#32
  let main_v12 : IVec S16384x26 32 := broadcastInDim S16384x26 ![] bcast_S_S16384x26 main_c_2
  let main_v13 : IVec S16384x26 1 := cmpi .slt main_v5 main_v12
  let main_v14 : IVec S16384x26 1 := andi main_v11 main_v13
  let main_c_3 : IVec S_ 1 := constantI S_ 1 1#1
  let main_v15 : IVec S_ 1 := (fun x v => Host.reduce IntOp.andi x v reducesTo_S16384x26_S_d0_1 h_S_) main_v14 main_c_3
  let main_v16 : IVec S_ 1 := andi main_v9 main_v15
  main_v16
-- ==== Kernel.lean ====
abbrev S16384x26 : Shape := ⟨2, ![16384, 26]⟩
abbrev S2600000x64 : Shape := ⟨2, ![2600000, 64]⟩
abbrev S26 : Shape := ⟨1, ![26]⟩
abbrev S_ : Shape := ⟨0, ![]⟩
abbrev S1x26 : Shape := ⟨2, ![1, 26]⟩
abbrev S425984 : Shape := ⟨1, ![425984]⟩
abbrev S425984x64 : Shape := ⟨2, ![425984, 64]⟩
abbrev S512 : Shape := ⟨1, ![512]⟩
abbrev S512x64 : Shape := ⟨2, ![512, 64]⟩
abbrev S1 : Shape := ⟨1, ![1]⟩
abbrev S1x64 : Shape := ⟨2, ![1, 64]⟩
abbrev S64 : Shape := ⟨1, ![64]⟩
abbrev S16384x26x64 : Shape := ⟨3, ![16384, 26, 64]⟩

abbrev nBuf : Space → Nat
  | .hbm => 20
  | .vmem => 2
  | .smem => 2
  | _ => 0

abbrev bufTy : (tb : Table) → Fin (tcTables nBuf tb) → BufTy
  | .hbm, ⟨0, _⟩ => ⟨S16384x26, .i32⟩
  | .hbm, ⟨1, _⟩ => ⟨S2600000x64, .f32⟩
  | .hbm, ⟨2, _⟩ => ⟨S26, .i32⟩
  | .hbm, ⟨3, _⟩ => ⟨S_, .i32⟩
  | .hbm, ⟨4, _⟩ => ⟨S26, .i32⟩
  | .hbm, ⟨5, _⟩ => ⟨S26, .i32⟩
  | .hbm, ⟨6, _⟩ => ⟨S1x26, .i32⟩
  | .hbm, ⟨7, _⟩ => ⟨S16384x26, .i32⟩
  | .hbm, ⟨8, _⟩ => ⟨S16384x26, .i32⟩
  | .hbm, ⟨9, _⟩ => ⟨S425984, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S425984, .i32⟩
  | .hbm, ⟨14, _⟩ => ⟨S425984, .i32⟩
  | .hbm, ⟨15, _⟩ => ⟨S_, .i32⟩
  | .hbm, ⟨16, _⟩ => ⟨S425984, .i32⟩
  | .hbm, ⟨17, _⟩ => ⟨S425984, .i32⟩
  | .hbm, ⟨18, _⟩ => ⟨S425984x64, .f32⟩
  | .hbm, ⟨19, _⟩ => ⟨S16384x26x64, .f32⟩
  | .local _ .vmem, ⟨0, _⟩ => ⟨S512x64, .f32⟩
  | .local _ .vmem, ⟨1, _⟩ => ⟨S512x64, .f32⟩
  | .local _ .smem, ⟨0, _⟩ => ⟨S512, .i32⟩
  | .local _ .smem, ⟨1, _⟩ => ⟨S512, .i32⟩
  | _, _ => ⟨S16384x26, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | _ => false

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 516 → Bool
  | ⟨i, _⟩ => dmaSemScopedAt i

abbrev sig : RefSig :=
  ofTc nBuf bufTy 0 516 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![832], ![false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c0_i32_7 : BitVec 32 := 0#32
  let v5 : BitVec 32 := Scalar.addi v4 c0_i32_7
  let v6 : Index := Scalar.indexCast v5
  ![v6.toNat]
def k0_off2 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c0_i32_7 : BitVec 32 := 0#32
  let v5 : BitVec 32 := Scalar.addi v4 c0_i32_7
  ![v5.toNat]
def k0_off3 (k0_t1 : Fin k0_t1_loop.trips) : Fin 2 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c0_i32_7 : BitVec 32 := 0#32
  let v5 : BitVec 32 := Scalar.addi v4 c0_i32_7
  let c0_i32_8 : BitVec 32 := 0#32
  ![v5.toNat, 0]
def k0_off4 (v7 : BitVec 32) : Fin 2 → Nat :=
  let c0_i32_9 : BitVec 32 := 0#32
  ![v7.toNat, 0]

def k0_chk1 (v7 : BitVec 32) : Prop :=
  (∀ a, (k0_off4 v7) a + S1x64.size a ≤ S2600000x64.size a)
instance k0_chk1.dec : ∀ (v7 : BitVec 32), Decidable (k0_chk1 v7) := fun v7 => decidable_of_iff' _ (Iff.of_eq (k0_chk1.eq_1 v7))
theorem k0_off4_inb : ∀ (v7 : BitVec 32) (k0_hw1 : k0_chk1 v7), ∀ a, (k0_off4 v7) a + S1x64.size a ≤ S2600000x64.size a := fun v7 k0_hw1 => k0_hw1

def k0_off5 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c1_i32_10 : BitVec 32 := 1#32
  let v14 : BitVec 32 := Scalar.addi v4 c1_i32_10
  let v15 : Index := Scalar.indexCast v14
  ![v15.toNat]
def k0_off6 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c1_i32_10 : BitVec 32 := 1#32
  let v14 : BitVec 32 := Scalar.addi v4 c1_i32_10
  ![v14.toNat]
def k0_off7 (k0_t1 : Fin k0_t1_loop.trips) : Fin 2 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c1_i32_10 : BitVec 32 := 1#32
  let v14 : BitVec 32 := Scalar.addi v4 c1_i32_10
  let c0_i32_11 : BitVec 32 := 0#32
  ![v14.toNat, 0]
def k0_off8 (v16 : BitVec 32) : Fin 2 → Nat :=
  let c0_i32_12 : BitVec 32 := 0#32
  ![v16.toNat, 0]

def k0_chk2 (v16 : BitVec 32) : Prop :=
  (∀ a, (k0_off8 v16) a + S1x64.size a ≤ S2600000x64.size a)
instance k0_chk2.dec : ∀ (v16 : BitVec 32), Decidable (k0_chk2 v16) := fun v16 => decidable_of_iff' _ (Iff.of_eq (k0_chk2.eq_1 v16))
theorem k0_off8_inb : ∀ (v16 : BitVec 32) (k0_hw2 : k0_chk2 v16), ∀ a, (k0_off8 v16) a + S1x64.size a ≤ S2600000x64.size a := fun v16 k0_hw2 => k0_hw2

def k0_off9 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c2_i32 : BitVec 32 := 2#32
  let v23 : BitVec 32 := Scalar.addi v4 c2_i32
  let v24 : Index := Scalar.indexCast v23
  ![v24.toNat]
def k0_off10 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c2_i32 : BitVec 32 := 2#32
  let v23 : BitVec 32 := Scalar.addi v4 c2_i32
  ![v23.toNat]
def k0_off11 (k0_t1 : Fin k0_t1_loop.trips) : Fin 2 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c2_i32 : BitVec 32 := 2#32
  let v23 : BitVec 32 := Scalar.addi v4 c2_i32
  let c0_i32_13 : BitVec 32 := 0#32
  ![v23.toNat, 0]
def k0_off12 (v25 : BitVec 32) : Fin 2 → Nat :=
  let c0_i32_14 : BitVec 32 := 0#32
  ![v25.toNat, 0]

def k0_chk3 (v25 : BitVec 32) : Prop :=
  (∀ a, (k0_off12 v25) a + S1x64.size a ≤ S2600000x64.size a)
instance k0_chk3.dec : ∀ (v25 : BitVec 32), Decidable (k0_chk3 v25) := fun v25 => decidable_of_iff' _ (Iff.of_eq (k0_chk3.eq_1 v25))
theorem k0_off12_inb : ∀ (v25 : BitVec 32) (k0_hw3 : k0_chk3 v25), ∀ a, (k0_off12 v25) a + S1x64.size a ≤ S2600000x64.size a := fun v25 k0_hw3 => k0_hw3

def k0_off13 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c3_i32 : BitVec 32 := 3#32
  let v32 : BitVec 32 := Scalar.addi v4 c3_i32
  let v33 : Index := Scalar.indexCast v32
  ![v33.toNat]
def k0_off14 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c3_i32 : BitVec 32 := 3#32
  let v32 : BitVec 32 := Scalar.addi v4 c3_i32
  ![v32.toNat]
def k0_off15 (k0_t1 : Fin k0_t1_loop.trips) : Fin 2 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c3_i32 : BitVec 32 := 3#32
  let v32 : BitVec 32 := Scalar.addi v4 c3_i32
  let c0_i32_15 : BitVec 32 := 0#32
  ![v32.toNat, 0]
def k0_off16 (v34 : BitVec 32) : Fin 2 → Nat :=
  let c0_i32_16 : BitVec 32 := 0#32
  ![v34.toNat, 0]

def k0_chk4 (v34 : BitVec 32) : Prop :=
  (∀ a, (k0_off16 v34) a + S1x64.size a ≤ S2600000x64.size a)
instance k0_chk4.dec : ∀ (v34 : BitVec 32), Decidable (k0_chk4 v34) := fun v34 => decidable_of_iff' _ (Iff.of_eq (k0_chk4.eq_1 v34))
theorem k0_off16_inb : ∀ (v34 : BitVec 32) (k0_hw4 : k0_chk4 v34), ∀ a, (k0_off16 v34) a + S1x64.size a ≤ S2600000x64.size a := fun v34 k0_hw4 => k0_hw4

def k0_off17 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c4_i32 : BitVec 32 := 4#32
  let v41 : BitVec 32 := Scalar.addi v4 c4_i32
  let v42 : Index := Scalar.indexCast v41
  ![v42.toNat]
def k0_off18 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c4_i32 : BitVec 32 := 4#32
  let v41 : BitVec 32 := Scalar.addi v4 c4_i32
  ![v41.toNat]
def k0_off19 (k0_t1 : Fin k0_t1_loop.trips) : Fin 2 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c4_i32 : BitVec 32 := 4#32
  let v41 : BitVec 32 := Scalar.addi v4 c4_i32
  let c0_i32_17 : BitVec 32 := 0#32
  ![v41.toNat, 0]
def k0_off20 (v43 : BitVec 32) : Fin 2 → Nat :=
  let c0_i32_18 : BitVec 32 := 0#32
  ![v43.toNat, 0]

def k0_chk5 (v43 : BitVec 32) : Prop :=
  (∀ a, (k0_off20 v43) a + S1x64.size a ≤ S2600000x64.size a)
instance k0_chk5.dec : ∀ (v43 : BitVec 32), Decidable (k0_chk5 v43) := fun v43 => decidable_of_iff' _ (Iff.of_eq (k0_chk5.eq_1 v43))
theorem k0_off20_inb : ∀ (v43 : BitVec 32) (k0_hw5 : k0_chk5 v43), ∀ a, (k0_off20 v43) a + S1x64.size a ≤ S2600000x64.size a := fun v43 k0_hw5 => k0_hw5

def k0_off21 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c5_i32 : BitVec 32 := 5#32
  let v50 : BitVec 32 := Scalar.addi v4 c5_i32
  let v51 : Index := Scalar.indexCast v50
  ![v51.toNat]
def k0_off22 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c5_i32 : BitVec 32 := 5#32
  let v50 : BitVec 32 := Scalar.addi v4 c5_i32
  ![v50.toNat]
def k0_off23 (k0_t1 : Fin k0_t1_loop.trips) : Fin 2 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c5_i32 : BitVec 32 := 5#32
  let v50 : BitVec 32 := Scalar.addi v4 c5_i32
  let c0_i32_19 : BitVec 32 := 0#32
  ![v50.toNat, 0]
def k0_off24 (v52 : BitVec 32) : Fin 2 → Nat :=
  let c0_i32_20 : BitVec 32 := 0#32
  ![v52.toNat, 0]

def k0_chk6 (v52 : BitVec 32) : Prop :=
  (∀ a, (k0_off24 v52) a + S1x64.size a ≤ S2600000x64.size a)
instance k0_chk6.dec : ∀ (v52 : BitVec 32), Decidable (k0_chk6 v52) := fun v52 => decidable_of_iff' _ (Iff.of_eq (k0_chk6.eq_1 v52))
theorem k0_off24_inb : ∀ (v52 : BitVec 32) (k0_hw6 : k0_chk6 v52), ∀ a, (k0_off24 v52) a + S1x64.size a ≤ S2600000x64.size a := fun v52 k0_hw6 => k0_hw6

def k0_off25 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c6_i32 : BitVec 32 := 6#32
  let v59 : BitVec 32 := Scalar.addi v4 c6_i32
  let v60 : Index := Scalar.indexCast v59
  ![v60.toNat]
def k0_off26 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c6_i32 : BitVec 32 := 6#32
  let v59 : BitVec 32 := Scalar.addi v4 c6_i32
  ![v59.toNat]
def k0_off27 (k0_t1 : Fin k0_t1_loop.trips) : Fin 2 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c6_i32 : BitVec 32 := 6#32
  let v59 : BitVec 32 := Scalar.addi v4 c6_i32
  let c0_i32_21 : BitVec 32 := 0#32
  ![v59.toNat, 0]
def k0_off28 (v61 : BitVec 32) : Fin 2 → Nat :=
  let c0_i32_22 : BitVec 32 := 0#32
  ![v61.toNat, 0]

def k0_chk7 (v61 : BitVec 32) : Prop :=
  (∀ a, (k0_off28 v61) a + S1x64.size a ≤ S2600000x64.size a)
instance k0_chk7.dec : ∀ (v61 : BitVec 32), Decidable (k0_chk7 v61) := fun v61 => decidable_of_iff' _ (Iff.of_eq (k0_chk7.eq_1 v61))
theorem k0_off28_inb : ∀ (v61 : BitVec 32) (k0_hw7 : k0_chk7 v61), ∀ a, (k0_off28 v61) a + S1x64.size a ≤ S2600000x64.size a := fun v61 k0_hw7 => k0_hw7

def k0_off29 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c7_i32 : BitVec 32 := 7#32
  let v68 : BitVec 32 := Scalar.addi v4 c7_i32
  let v69 : Index := Scalar.indexCast v68
  ![v69.toNat]
def k0_off30 (k0_t1 : Fin k0_t1_loop.trips) : Fin 1 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c7_i32 : BitVec 32 := 7#32
  let v68 : BitVec 32 := Scalar.addi v4 c7_i32
  ![v68.toNat]
def k0_off31 (k0_t1 : Fin k0_t1_loop.trips) : Fin 2 → Nat :=
  let c0_i32_6 : BitVec 32 := 0#32
  let c0_i32 : BitVec 32 := 0#32
  let c1_i32 : BitVec 32 := 1#32
  let arg5 : BitVec 32 := Scf.iv c0_i32 c1_i32 k0_t1
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c7_i32 : BitVec 32 := 7#32
  let v68 : BitVec 32 := Scalar.addi v4 c7_i32
  let c0_i32_23 : BitVec 32 := 0#32
  ![v68.toNat, 0]
def k0_off32 (v70 : BitVec 32) : Fin 2 → Nat :=
  let c0_i32_24 : BitVec 32 := 0#32
  ![v70.toNat, 0]

def k0_chk8 (v70 : BitVec 32) : Prop :=
  (∀ a, (k0_off32 v70) a + S1x64.size a ≤ S2600000x64.size a)
instance k0_chk8.dec : ∀ (v70 : BitVec 32), Decidable (k0_chk8 v70) := fun v70 => decidable_of_iff' _ (Iff.of_eq (k0_chk8.eq_1 v70))
theorem k0_off32_inb : ∀ (v70 : BitVec 32) (k0_hw8 : k0_chk8 v70), ∀ a, (k0_off32 v70) a + S1x64.size a ≤ S2600000x64.size a := fun v70 k0_hw8 => k0_hw8

@[reducible] def k0_t2_loop : Scf.Loop 32 :=
  let c0_i32_1 : BitVec 32 := 0#32
  let c64_i32_2 : BitVec 32 := 64#32
  let v1 : BitVec 32 := Scalar.addi c0_i32_1 c64_i32_2
  let c1_i32_3 : BitVec 32 := 1#32
  ⟨c0_i32_1, v1, c1_i32_3⟩
def k0_off33 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c0_i32_7 : BitVec 32 := 0#32
  let v5 : BitVec 32 := Scalar.addi v4 c0_i32_7
  let v6 : Index := Scalar.indexCast v5
  ![v6.toNat]
def k0_off34 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c0_i32_7 : BitVec 32 := 0#32
  let v5 : BitVec 32 := Scalar.addi v4 c0_i32_7
  ![v5.toNat]
def k0_off35 (k0_t2 : Fin k0_t2_loop.trips) : Fin 2 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c0_i32_7 : BitVec 32 := 0#32
  let v5 : BitVec 32 := Scalar.addi v4 c0_i32_7
  let c0_i32_8 : BitVec 32 := 0#32
  ![v5.toNat, 0]
def k0_off36 (v7 : BitVec 32) : Fin 2 → Nat :=
  let c0_i32_9 : BitVec 32 := 0#32
  ![v7.toNat, 0]

def k0_chk9 (v7 : BitVec 32) : Prop :=
  (∀ a, (k0_off36 v7) a + S1x64.size a ≤ S2600000x64.size a)
instance k0_chk9.dec : ∀ (v7 : BitVec 32), Decidable (k0_chk9 v7) := fun v7 => decidable_of_iff' _ (Iff.of_eq (k0_chk9.eq_1 v7))
theorem k0_off36_inb : ∀ (v7 : BitVec 32) (k0_hw9 : k0_chk9 v7), ∀ a, (k0_off36 v7) a + S1x64.size a ≤ S2600000x64.size a := fun v7 k0_hw9 => k0_hw9

def k0_off37 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c1_i32_10 : BitVec 32 := 1#32
  let v14 : BitVec 32 := Scalar.addi v4 c1_i32_10
  let v15 : Index := Scalar.indexCast v14
  ![v15.toNat]
def k0_off38 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c1_i32_10 : BitVec 32 := 1#32
  let v14 : BitVec 32 := Scalar.addi v4 c1_i32_10
  ![v14.toNat]
def k0_off39 (k0_t2 : Fin k0_t2_loop.trips) : Fin 2 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c1_i32_10 : BitVec 32 := 1#32
  let v14 : BitVec 32 := Scalar.addi v4 c1_i32_10
  let c0_i32_11 : BitVec 32 := 0#32
  ![v14.toNat, 0]
def k0_off40 (v16 : BitVec 32) : Fin 2 → Nat :=
  let c0_i32_12 : BitVec 32 := 0#32
  ![v16.toNat, 0]

def k0_chk10 (v16 : BitVec 32) : Prop :=
  (∀ a, (k0_off40 v16) a + S1x64.size a ≤ S2600000x64.size a)
instance k0_chk10.dec : ∀ (v16 : BitVec 32), Decidable (k0_chk10 v16) := fun v16 => decidable_of_iff' _ (Iff.of_eq (k0_chk10.eq_1 v16))
theorem k0_off40_inb : ∀ (v16 : BitVec 32) (k0_hw10 : k0_chk10 v16), ∀ a, (k0_off40 v16) a + S1x64.size a ≤ S2600000x64.size a := fun v16 k0_hw10 => k0_hw10

def k0_off41 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c2_i32 : BitVec 32 := 2#32
  let v23 : BitVec 32 := Scalar.addi v4 c2_i32
  let v24 : Index := Scalar.indexCast v23
  ![v24.toNat]
def k0_off42 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c2_i32 : BitVec 32 := 2#32
  let v23 : BitVec 32 := Scalar.addi v4 c2_i32
  ![v23.toNat]
def k0_off43 (k0_t2 : Fin k0_t2_loop.trips) : Fin 2 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c2_i32 : BitVec 32 := 2#32
  let v23 : BitVec 32 := Scalar.addi v4 c2_i32
  let c0_i32_13 : BitVec 32 := 0#32
  ![v23.toNat, 0]
def k0_off44 (v25 : BitVec 32) : Fin 2 → Nat :=
  let c0_i32_14 : BitVec 32 := 0#32
  ![v25.toNat, 0]

def k0_chk11 (v25 : BitVec 32) : Prop :=
  (∀ a, (k0_off44 v25) a + S1x64.size a ≤ S2600000x64.size a)
instance k0_chk11.dec : ∀ (v25 : BitVec 32), Decidable (k0_chk11 v25) := fun v25 => decidable_of_iff' _ (Iff.of_eq (k0_chk11.eq_1 v25))
theorem k0_off44_inb : ∀ (v25 : BitVec 32) (k0_hw11 : k0_chk11 v25), ∀ a, (k0_off44 v25) a + S1x64.size a ≤ S2600000x64.size a := fun v25 k0_hw11 => k0_hw11

def k0_off45 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c3_i32 : BitVec 32 := 3#32
  let v32 : BitVec 32 := Scalar.addi v4 c3_i32
  let v33 : Index := Scalar.indexCast v32
  ![v33.toNat]
def k0_off46 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c3_i32 : BitVec 32 := 3#32
  let v32 : BitVec 32 := Scalar.addi v4 c3_i32
  ![v32.toNat]
def k0_off47 (k0_t2 : Fin k0_t2_loop.trips) : Fin 2 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c3_i32 : BitVec 32 := 3#32
  let v32 : BitVec 32 := Scalar.addi v4 c3_i32
  let c0_i32_15 : BitVec 32 := 0#32
  ![v32.toNat, 0]
def k0_off48 (v34 : BitVec 32) : Fin 2 → Nat :=
  let c0_i32_16 : BitVec 32 := 0#32
  ![v34.toNat, 0]

def k0_chk12 (v34 : BitVec 32) : Prop :=
  (∀ a, (k0_off48 v34) a + S1x64.size a ≤ S2600000x64.size a)
instance k0_chk12.dec : ∀ (v34 : BitVec 32), Decidable (k0_chk12 v34) := fun v34 => decidable_of_iff' _ (Iff.of_eq (k0_chk12.eq_1 v34))
theorem k0_off48_inb : ∀ (v34 : BitVec 32) (k0_hw12 : k0_chk12 v34), ∀ a, (k0_off48 v34) a + S1x64.size a ≤ S2600000x64.size a := fun v34 k0_hw12 => k0_hw12

def k0_off49 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c4_i32 : BitVec 32 := 4#32
  let v41 : BitVec 32 := Scalar.addi v4 c4_i32
  let v42 : Index := Scalar.indexCast v41
  ![v42.toNat]
def k0_off50 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c4_i32 : BitVec 32 := 4#32
  let v41 : BitVec 32 := Scalar.addi v4 c4_i32
  ![v41.toNat]
def k0_off51 (k0_t2 : Fin k0_t2_loop.trips) : Fin 2 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c4_i32 : BitVec 32 := 4#32
  let v41 : BitVec 32 := Scalar.addi v4 c4_i32
  let c0_i32_17 : BitVec 32 := 0#32
  ![v41.toNat, 0]
def k0_off52 (v43 : BitVec 32) : Fin 2 → Nat :=
  let c0_i32_18 : BitVec 32 := 0#32
  ![v43.toNat, 0]

def k0_chk13 (v43 : BitVec 32) : Prop :=
  (∀ a, (k0_off52 v43) a + S1x64.size a ≤ S2600000x64.size a)
instance k0_chk13.dec : ∀ (v43 : BitVec 32), Decidable (k0_chk13 v43) := fun v43 => decidable_of_iff' _ (Iff.of_eq (k0_chk13.eq_1 v43))
theorem k0_off52_inb : ∀ (v43 : BitVec 32) (k0_hw13 : k0_chk13 v43), ∀ a, (k0_off52 v43) a + S1x64.size a ≤ S2600000x64.size a := fun v43 k0_hw13 => k0_hw13

def k0_off53 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c5_i32 : BitVec 32 := 5#32
  let v50 : BitVec 32 := Scalar.addi v4 c5_i32
  let v51 : Index := Scalar.indexCast v50
  ![v51.toNat]
def k0_off54 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c5_i32 : BitVec 32 := 5#32
  let v50 : BitVec 32 := Scalar.addi v4 c5_i32
  ![v50.toNat]
def k0_off55 (k0_t2 : Fin k0_t2_loop.trips) : Fin 2 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c5_i32 : BitVec 32 := 5#32
  let v50 : BitVec 32 := Scalar.addi v4 c5_i32
  let c0_i32_19 : BitVec 32 := 0#32
  ![v50.toNat, 0]
def k0_off56 (v52 : BitVec 32) : Fin 2 → Nat :=
  let c0_i32_20 : BitVec 32 := 0#32
  ![v52.toNat, 0]

def k0_chk14 (v52 : BitVec 32) : Prop :=
  (∀ a, (k0_off56 v52) a + S1x64.size a ≤ S2600000x64.size a)
instance k0_chk14.dec : ∀ (v52 : BitVec 32), Decidable (k0_chk14 v52) := fun v52 => decidable_of_iff' _ (Iff.of_eq (k0_chk14.eq_1 v52))
theorem k0_off56_inb : ∀ (v52 : BitVec 32) (k0_hw14 : k0_chk14 v52), ∀ a, (k0_off56 v52) a + S1x64.size a ≤ S2600000x64.size a := fun v52 k0_hw14 => k0_hw14

def k0_off57 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c6_i32 : BitVec 32 := 6#32
  let v59 : BitVec 32 := Scalar.addi v4 c6_i32
  let v60 : Index := Scalar.indexCast v59
  ![v60.toNat]
def k0_off58 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c6_i32 : BitVec 32 := 6#32
  let v59 : BitVec 32 := Scalar.addi v4 c6_i32
  ![v59.toNat]
def k0_off59 (k0_t2 : Fin k0_t2_loop.trips) : Fin 2 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c6_i32 : BitVec 32 := 6#32
  let v59 : BitVec 32 := Scalar.addi v4 c6_i32
  let c0_i32_21 : BitVec 32 := 0#32
  ![v59.toNat, 0]
def k0_off60 (v61 : BitVec 32) : Fin 2 → Nat :=
  let c0_i32_22 : BitVec 32 := 0#32
  ![v61.toNat, 0]

def k0_chk15 (v61 : BitVec 32) : Prop :=
  (∀ a, (k0_off60 v61) a + S1x64.size a ≤ S2600000x64.size a)
instance k0_chk15.dec : ∀ (v61 : BitVec 32), Decidable (k0_chk15 v61) := fun v61 => decidable_of_iff' _ (Iff.of_eq (k0_chk15.eq_1 v61))
theorem k0_off60_inb : ∀ (v61 : BitVec 32) (k0_hw15 : k0_chk15 v61), ∀ a, (k0_off60 v61) a + S1x64.size a ≤ S2600000x64.size a := fun v61 k0_hw15 => k0_hw15

def k0_off61 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c7_i32 : BitVec 32 := 7#32
  let v68 : BitVec 32 := Scalar.addi v4 c7_i32
  let v69 : Index := Scalar.indexCast v68
  ![v69.toNat]
def k0_off62 (k0_t2 : Fin k0_t2_loop.trips) : Fin 1 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c7_i32 : BitVec 32 := 7#32
  let v68 : BitVec 32 := Scalar.addi v4 c7_i32
  ![v68.toNat]
def k0_off63 (k0_t2 : Fin k0_t2_loop.trips) : Fin 2 → Nat :=
  let c0_i32_6 : BitVec 32 := 0#32
  let c0_i32_1 : BitVec 32 := 0#32
  let c1_i32_3 : BitVec 32 := 1#32
  let arg5 : BitVec 32 := Scf.iv c0_i32_1 c1_i32_3 k0_t2
  let c1_i32_5 : BitVec 32 := 1#32
  let v2 : BitVec 32 := Scalar.muli arg5 c1_i32_5
  let v3 : BitVec 32 := Scalar.addi c0_i32_6 v2
  let c8_i32 : BitVec 32 := 8#32
  let v4 : BitVec 32 := Scalar.muli v3 c8_i32
  let c7_i32 : BitVec 32 := 7#32
  let v68 : BitVec 32 := Scalar.addi v4 c7_i32
  let c0_i32_23 : BitVec 32 := 0#32
  ![v68.toNat, 0]
def k0_off64 (v70 : BitVec 32) : Fin 2 → Nat :=
  let c0_i32_24 : BitVec 32 := 0#32
  ![v70.toNat, 0]

def k0_chk16 (v70 : BitVec 32) : Prop :=
  (∀ a, (k0_off64 v70) a + S1x64.size a ≤ S2600000x64.size a)
instance k0_chk16.dec : ∀ (v70 : BitVec 32), Decidable (k0_chk16 v70) := fun v70 => decidable_of_iff' _ (Iff.of_eq (k0_chk16.eq_1 v70))
theorem k0_off64_inb : ∀ (v70 : BitVec 32) (k0_hw16 : k0_chk16 v70), ∀ a, (k0_off64 v70) a + S1x64.size a ≤ S2600000x64.size a := fun v70 k0_hw16 => k0_hw16

def cc0_transform_0 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S26 : S_.BroadcastsInDim S26 (![] : Fin 0 → Fin S26.rank)
  bcast_S26_S1x26_1 : S26.BroadcastsInDim S1x26 (![1] : Fin 1 → Fin S1x26.rank)
  bcast_S1x26_S16384x26_0_1 : S1x26.BroadcastsInDim S16384x26 (![0, 1] : Fin 2 → Fin S16384x26.rank)
  shapeCasts_S16384x26_S425984 : S16384x26.ShapeCasts S425984
  bcast_S_S425984 : S_.BroadcastsInDim S425984 (![] : Fin 0 → Fin S425984.rank)
  numel1_S1 : S1.numel = 1
  squeezes_S1_S_ : S1.Squeezes S_
  squeezes_S1x64_S64 : S1x64.Squeezes S64
  shapeCasts_S425984x64_S16384x26x64 : S425984x64.ShapeCasts S16384x26x64
  hcc0_scratch0 : 4 + S512.numel ≤ 516
  hrank0 : 0 < grid0.rank
  k0_t1_ok : k0_t1_loop.OK
  k0_off1_inb : ∀ k0_t1 : Fin k0_t1_loop.trips, ∀ a, (k0_off1 k0_t1) a + S1.size a ≤ S512.size a
  k0_off2_inb : ∀ k0_t1 : Fin k0_t1_loop.trips, ∀ a, (k0_off2 k0_t1) a + S1.size a ≤ S512.size a
  k0_off3_inb : ∀ k0_t1 : Fin k0_t1_loop.trips, ∀ a, (k0_off3 k0_t1) a + S1x64.size a ≤ S512x64.size a
  k0_off5_inb : ∀ k0_t1 : Fin k0_t1_loop.trips, ∀ a, (k0_off5 k0_t1) a + S1.size a ≤ S512.size a
  k0_off6_inb : ∀ k0_t1 : Fin k0_t1_loop.trips, ∀ a, (k0_off6 k0_t1) a + S1.size a ≤ S512.size a
  k0_off7_inb : ∀ k0_t1 : Fin k0_t1_loop.trips, ∀ a, (k0_off7 k0_t1) a + S1x64.size a ≤ S512x64.size a
  k0_off9_inb : ∀ k0_t1 : Fin k0_t1_loop.trips, ∀ a, (k0_off9 k0_t1) a + S1.size a ≤ S512.size a
  k0_off10_inb : ∀ k0_t1 : Fin k0_t1_loop.trips, ∀ a, (k0_off10 k0_t1) a + S1.size a ≤ S512.size a
  k0_off11_inb : ∀ k0_t1 : Fin k0_t1_loop.trips, ∀ a, (k0_off11 k0_t1) a + S1x64.size a ≤ S512x64.size a
  k0_off13_inb : ∀ k0_t1 : Fin k0_t1_loop.trips, ∀ a, (k0_off13 k0_t1) a + S1.size a ≤ S512.size a
  k0_off14_inb : ∀ k0_t1 : Fin k0_t1_loop.trips, ∀ a, (k0_off14 k0_t1) a + S1.size a ≤ S512.size a
  k0_off15_inb : ∀ k0_t1 : Fin k0_t1_loop.trips, ∀ a, (k0_off15 k0_t1) a + S1x64.size a ≤ S512x64.size a
  k0_off17_inb : ∀ k0_t1 : Fin k0_t1_loop.trips, ∀ a, (k0_off17 k0_t1) a + S1.size a ≤ S512.size a
  k0_off18_inb : ∀ k0_t1 : Fin k0_t1_loop.trips, ∀ a, (k0_off18 k0_t1) a + S1.size a ≤ S512.size a
  k0_off19_inb : ∀ k0_t1 : Fin k0_t1_loop.trips, ∀ a, (k0_off19 k0_t1) a + S1x64.size a ≤ S512x64.size a
  k0_off21_inb : ∀ k0_t1 : Fin k0_t1_loop.trips, ∀ a, (k0_off21 k0_t1) a + S1.size a ≤ S512.size a
  k0_off22_inb : ∀ k0_t1 : Fin k0_t1_loop.trips, ∀ a, (k0_off22 k0_t1) a + S1.size a ≤ S512.size a
  k0_off23_inb : ∀ k0_t1 : Fin k0_t1_loop.trips, ∀ a, (k0_off23 k0_t1) a + S1x64.size a ≤ S512x64.size a
  k0_off25_inb : ∀ k0_t1 : Fin k0_t1_loop.trips, ∀ a, (k0_off25 k0_t1) a + S1.size a ≤ S512.size a
  k0_off26_inb : ∀ k0_t1 : Fin k0_t1_loop.trips, ∀ a, (k0_off26 k0_t1) a + S1.size a ≤ S512.size a
  k0_off27_inb : ∀ k0_t1 : Fin k0_t1_loop.trips, ∀ a, (k0_off27 k0_t1) a + S1x64.size a ≤ S512x64.size a
  k0_off29_inb : ∀ k0_t1 : Fin k0_t1_loop.trips, ∀ a, (k0_off29 k0_t1) a + S1.size a ≤ S512.size a
  k0_off30_inb : ∀ k0_t1 : Fin k0_t1_loop.trips, ∀ a, (k0_off30 k0_t1) a + S1.size a ≤ S512.size a
  k0_off31_inb : ∀ k0_t1 : Fin k0_t1_loop.trips, ∀ a, (k0_off31 k0_t1) a + S1x64.size a ≤ S512x64.size a
  k0_t2_ok : k0_t2_loop.OK
  k0_off33_inb : ∀ k0_t2 : Fin k0_t2_loop.trips, ∀ a, (k0_off33 k0_t2) a + S1.size a ≤ S512.size a
  k0_off34_inb : ∀ k0_t2 : Fin k0_t2_loop.trips, ∀ a, (k0_off34 k0_t2) a + S1.size a ≤ S512.size a
  k0_off35_inb : ∀ k0_t2 : Fin k0_t2_loop.trips, ∀ a, (k0_off35 k0_t2) a + S1x64.size a ≤ S512x64.size a
  k0_off37_inb : ∀ k0_t2 : Fin k0_t2_loop.trips, ∀ a, (k0_off37 k0_t2) a + S1.size a ≤ S512.size a
  k0_off38_inb : ∀ k0_t2 : Fin k0_t2_loop.trips, ∀ a, (k0_off38 k0_t2) a + S1.size a ≤ S512.size a
  k0_off39_inb : ∀ k0_t2 : Fin k0_t2_loop.trips, ∀ a, (k0_off39 k0_t2) a + S1x64.size a ≤ S512x64.size a
  k0_off41_inb : ∀ k0_t2 : Fin k0_t2_loop.trips, ∀ a, (k0_off41 k0_t2) a + S1.size a ≤ S512.size a
  k0_off42_inb : ∀ k0_t2 : Fin k0_t2_loop.trips, ∀ a, (k0_off42 k0_t2) a + S1.size a ≤ S512.size a
  k0_off43_inb : ∀ k0_t2 : Fin k0_t2_loop.trips, ∀ a, (k0_off43 k0_t2) a + S1x64.size a ≤ S512x64.size a
  k0_off45_inb : ∀ k0_t2 : Fin k0_t2_loop.trips, ∀ a, (k0_off45 k0_t2) a + S1.size a ≤ S512.size a
  k0_off46_inb : ∀ k0_t2 : Fin k0_t2_loop.trips, ∀ a, (k0_off46 k0_t2) a + S1.size a ≤ S512.size a
  k0_off47_inb : ∀ k0_t2 : Fin k0_t2_loop.trips, ∀ a, (k0_off47 k0_t2) a + S1x64.size a ≤ S512x64.size a
  k0_off49_inb : ∀ k0_t2 : Fin k0_t2_loop.trips, ∀ a, (k0_off49 k0_t2) a + S1.size a ≤ S512.size a
  k0_off50_inb : ∀ k0_t2 : Fin k0_t2_loop.trips, ∀ a, (k0_off50 k0_t2) a + S1.size a ≤ S512.size a
  k0_off51_inb : ∀ k0_t2 : Fin k0_t2_loop.trips, ∀ a, (k0_off51 k0_t2) a + S1x64.size a ≤ S512x64.size a
  k0_off53_inb : ∀ k0_t2 : Fin k0_t2_loop.trips, ∀ a, (k0_off53 k0_t2) a + S1.size a ≤ S512.size a
  k0_off54_inb : ∀ k0_t2 : Fin k0_t2_loop.trips, ∀ a, (k0_off54 k0_t2) a + S1.size a ≤ S512.size a
  k0_off55_inb : ∀ k0_t2 : Fin k0_t2_loop.trips, ∀ a, (k0_off55 k0_t2) a + S1x64.size a ≤ S512x64.size a
  k0_off57_inb : ∀ k0_t2 : Fin k0_t2_loop.trips, ∀ a, (k0_off57 k0_t2) a + S1.size a ≤ S512.size a
  k0_off58_inb : ∀ k0_t2 : Fin k0_t2_loop.trips, ∀ a, (k0_off58 k0_t2) a + S1.size a ≤ S512.size a
  k0_off59_inb : ∀ k0_t2 : Fin k0_t2_loop.trips, ∀ a, (k0_off59 k0_t2) a + S1x64.size a ≤ S512x64.size a
  k0_off61_inb : ∀ k0_t2 : Fin k0_t2_loop.trips, ∀ a, (k0_off61 k0_t2) a + S1.size a ≤ S512.size a
  k0_off62_inb : ∀ k0_t2 : Fin k0_t2_loop.trips, ∀ a, (k0_off62 k0_t2) a + S1.size a ≤ S512.size a
  k0_off63_inb : ∀ k0_t2 : Fin k0_t2_loop.trips, ∀ a, (k0_off63 k0_t2) a + S1x64.size a ≤ S512x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512.size a ≤ S425984.size a
  hwx0_0 : ∀ i : grid0.Coords, EltTy.bits .i32 = 32 ∨ (Rect.block (s := S425984) S512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S512x64.size a ≤ S425984x64.size a
  hwx0_1 : ∀ i : grid0.Coords, EltTy.bits .f32 = 32 ∨ (Rect.block (s := S425984x64) S512x64.size (cc0_transform_2 i) (hinb0_1 i)).WholeWords (EltTy.packing .f32)

variable [Facts₀]

abbrev cc0_scratch0 : DmaSems sig S512 := SemArray.consecutive 4 S512 hcc0_scratch0

abbrev win0_0 : Pipeline.Window sig grid0 :=
  Pipeline.Window.ofSpec (Memref.whole main_v7) S512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x64.size cc0_transform_2 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x26 : Shape := ⟨2, ![16384, 26]⟩
abbrev S2600000x64 : Shape := ⟨2, ![2600000, 64]⟩
abbrev S26 : Shape := ⟨1, ![26]⟩
abbrev S_ : Shape := ⟨0, ![]⟩
abbrev S1x26 : Shape := ⟨2, ![1, 26]⟩
abbrev S16384x26x1 : Shape := ⟨3, ![16384, 26, 1]⟩
abbrev S1 : Shape := ⟨1, ![1]⟩
abbrev S1x1x1 : Shape := ⟨3, ![1, 1, 1]⟩
abbrev S16384x26x64 : Shape := ⟨3, ![16384, 26, 64]⟩

abbrev nBuf : Space → Nat
  | .hbm => 32
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S2600000x64, .f32⟩
  | .hbm, ⟨2, _⟩ => ⟨S26, .i32⟩
  | .hbm, ⟨3, _⟩ => ⟨S_, .i32⟩
  | .hbm, ⟨4, _⟩ => ⟨S26, .i32⟩
  | .hbm, ⟨5, _⟩ => ⟨S26, .i32⟩
  | .hbm, ⟨6, _⟩ => ⟨S1x26, .i32⟩
  | .hbm, ⟨7, _⟩ => ⟨S16384x26, .i32⟩
  | .hbm, ⟨8, _⟩ => ⟨S16384x26, .i32⟩
  | .hbm, ⟨9, _⟩ => ⟨S_, .i32⟩
  | .hbm, ⟨10, _⟩ => ⟨S16384x26, .i32⟩
  | .hbm, ⟨11, _⟩ => ⟨S16384x26, .i1⟩
  | .hbm, ⟨12, _⟩ => ⟨S_, .i32⟩
  | .hbm, ⟨13, _⟩ => ⟨S16384x26, .i32⟩
  | .hbm, ⟨14, _⟩ => ⟨S16384x26, .i32⟩
  | .hbm, ⟨15, _⟩ => ⟨S16384x26, .i32⟩
  | .hbm, ⟨16, _⟩ => ⟨S16384x26x1, .i32⟩
  | .hbm, ⟨17, _⟩ => ⟨S1, .i32⟩
  | .hbm, ⟨18, _⟩ => ⟨S_, .i32⟩
  | .hbm, ⟨19, _⟩ => ⟨S16384x26x1, .i32⟩
  | .hbm, ⟨20, _⟩ => ⟨S16384x26x1, .i1⟩
  | .hbm, ⟨21, _⟩ => ⟨S1x1x1, .i32⟩
  | .hbm, ⟨22, _⟩ => ⟨S16384x26x1, .i32⟩
  | .hbm, ⟨23, _⟩ => ⟨S16384x26x1, .i1⟩
  | .hbm, ⟨24, _⟩ => ⟨S16384x26x1, .i1⟩
  | .hbm, ⟨25, _⟩ => ⟨S_, .i1⟩
  | .hbm, ⟨26, _⟩ => ⟨S16384x26, .i1⟩
  | .hbm, ⟨27, _⟩ => ⟨S16384x26x64, .f32⟩
  | .hbm, ⟨28, _⟩ => ⟨S16384x26x64, .i1⟩
  | .hbm, ⟨29, _⟩ => ⟨S_, .f32⟩
  | .hbm, ⟨30, _⟩ => ⟨S16384x26x64, .f32⟩
  | .hbm, ⟨31, _⟩ => ⟨S16384x26x64, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  bcast_S_S26 : S_.BroadcastsInDim S26 (![] : Fin 0 → Fin S26.rank)
  bcast_S26_S1x26_1 : S26.BroadcastsInDim S1x26 (![1] : Fin 1 → Fin S1x26.rank)
  bcast_S1x26_S16384x26_0_1 : S1x26.BroadcastsInDim S16384x26 (![0, 1] : Fin 2 → Fin S16384x26.rank)
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x26x1 : S_.BroadcastsInDim S16384x26x1 (![] : Fin 0 → Fin S16384x26x1.rank)
  bcast_S1_S1x1x1_2 : S1.BroadcastsInDim S1x1x1 (![2] : Fin 1 → Fin S1x1x1.rank)
  bcast_S1x1x1_S16384x26x1_0_1_2 : S1x1x1.BroadcastsInDim S16384x26x1 (![0, 1, 2] : Fin 3 → Fin S16384x26x1.rank)
  reducesTo_S16384x26x1_S16384x26_d2 : S16384x26x1.ReducesTo [2] S16384x26
  h_S_ : 0 < S_.numel
  bcast_S16384x26_S16384x26x64_0_1 : S16384x26.BroadcastsInDim S16384x26x64 (![0, 1] : Fin 2 → Fin S16384x26x64.rank)
  bcast_S_S16384x26x64 : S_.BroadcastsInDim S16384x26x64 (![] : Fin 0 → Fin S16384x26x64.rank)
  gather_S2600000x64_S16384x26x1_S16384x26x64_2_0_n_n_0_2_164_wf : GatherDims.WF S2600000x64 S16384x26x1 S16384x26x64 [2] [0] [] [0] [] 2 ![1, 64]

variable [Facts₀]

def gather_S2600000x64_S16384x26x1_S16384x26x64_2_0_n_n_0_2_164 : GatherDims S2600000x64 S16384x26x1 S16384x26x64 where
  offsetDims := [2]
  collapsedSliceDims := [0]
  operandBatchingDims := []
  startIndicesBatchingDims := []
  startIndexMap := [0]
  indexVectorDim := 2
  sliceSizes := ![1, 64]
  wf := gather_S2600000x64_S16384x26x1_S16384x26x64_2_0_n_n_0_2_164_wf

class Facts : Prop extends Facts₀ where

variable [Facts]
-- ==== Proof.BCells.lean ====
/-
  The cells of one grid point: 512 rows of the output block, one DMA semaphore and one row copy each, eight to a
  loop trip. Cell r of trip k is row 8k + r; both loops walk the same cells, the first starting each copy, the
  second waiting for it. The rows and semaphores are named here as the program slices them, per loop.
-/
import proofs.«412992_j76828374991717_2_alg».proof.Proof.Gen.Kernel
import proofs.«412992_j76828374991717_2_alg».proof.Proof.Gen.Kernel.Skeleton

noncomputable section

namespace Cert.Kernel.Body

open Cert.Kernel Cert.Kernel.Gen
open Idealize.ShloMosaic Idealize.ShloMosaic.TcCoe

/-- The issuing loop: where cell r of trip k's row starts in the block; -/
def off1row (k : Fin k0_t1_loop.trips) : Fin 8 → Fin 2 → Nat
  | ⟨0, _⟩ => k0_off3 k
  | ⟨1, _⟩ => k0_off7 k
  | ⟨2, _⟩ => k0_off11 k
  | ⟨3, _⟩ => k0_off15 k
  | ⟨4, _⟩ => k0_off19 k
  | ⟨5, _⟩ => k0_off23 k
  | ⟨6, _⟩ => k0_off27 k
  | ⟨7, _⟩ => k0_off31 k
  | ⟨_ + 8, h⟩ => absurd h (Nat.not_lt.2 (Nat.le_add_left _ _))

theorem off1row_inb (k : Fin k0_t1_loop.trips) : ∀ (r : Fin 8) a, off1row k r a + S1x64.size a ≤ S512x64.size a
  | ⟨0, _⟩ => Facts₀.k0_off3_inb k
  | ⟨1, _⟩ => Facts₀.k0_off7_inb k
  | ⟨2, _⟩ => Facts₀.k0_off11_inb k
  | ⟨3, _⟩ => Facts₀.k0_off15_inb k
  | ⟨4, _⟩ => Facts₀.k0_off19_inb k
  | ⟨5, _⟩ => Facts₀.k0_off23_inb k
  | ⟨6, _⟩ => Facts₀.k0_off27_inb k
  | ⟨7, _⟩ => Facts₀.k0_off31_inb k
  | ⟨_ + 8, h⟩ => absurd h (Nat.not_lt.2 (Nat.le_add_left _ _))

/-- and which semaphore is its own. -/
def off1sem (k : Fin k0_t1_loop.trips) : Fin 8 → Fin 1 → Nat
  | ⟨0, _⟩ => k0_off2 k
  | ⟨1, _⟩ => k0_off6 k
  | ⟨2, _⟩ => k0_off10 k
  | ⟨3, _⟩ => k0_off14 k
  | ⟨4, _⟩ => k0_off18 k
  | ⟨5, _⟩ => k0_off22 k
  | ⟨6, _⟩ => k0_off26 k
  | ⟨7, _⟩ => k0_off30 k
  | ⟨_ + 8, h⟩ => absurd h (Nat.not_lt.2 (Nat.le_add_left _ _))

theorem off1sem_inb (k : Fin k0_t1_loop.trips) : ∀ (r : Fin 8) a, off1sem k r a + S1.size a ≤ S512.size a
  | ⟨0, _⟩ => Facts₀.k0_off2_inb k
  | ⟨1, _⟩ => Facts₀.k0_off6_inb k
  | ⟨2, _⟩ => Facts₀.k0_off10_inb k
  | ⟨3, _⟩ => Facts₀.k0_off14_inb k
  | ⟨4, _⟩ => Facts₀.k0_off18_inb k
  | ⟨5, _⟩ => Facts₀.k0_off22_inb k
  | ⟨6, _⟩ => Facts₀.k0_off26_inb k
  | ⟨7, _⟩ => Facts₀.k0_off30_inb k
  | ⟨_ + 8, h⟩ => absurd h (Nat.not_lt.2 (Nat.le_add_left _ _))

/-- The waiting loop: the same row, -/
def off2row (k : Fin k0_t2_loop.trips) : Fin 8 → Fin 2 → Nat
  | ⟨0, _⟩ => k0_off35 k
  | ⟨1, _⟩ => k0_off39 k
  | ⟨2, _⟩ => k0_off43 k
  | ⟨3, _⟩ => k0_off47 k
  | ⟨4, _⟩ => k0_off51 k
  | ⟨5, _⟩ => k0_off55 k
  | ⟨6, _⟩ => k0_off59 k
  | ⟨7, _⟩ => k0_off63 k
  | ⟨_ + 8, h⟩ => absurd h (Nat.not_lt.2 (Nat.le_add_left _ _))

theorem off2row_inb (k : Fin k0_t2_loop.trips) : ∀ (r : Fin 8) a, off2row k r a + S1x64.size a ≤ S512x64.size a
  | ⟨0, _⟩ => Facts₀.k0_off35_inb k
  | ⟨1, _⟩ => Facts₀.k0_off39_inb k
  | ⟨2, _⟩ => Facts₀.k0_off43_inb k
  | ⟨3, _⟩ => Facts₀.k0_off47_inb k
  | ⟨4, _⟩ => Facts₀.k0_off51_inb k
  | ⟨5, _⟩ => Facts₀.k0_off55_inb k
  | ⟨6, _⟩ => Facts₀.k0_off59_inb k
  | ⟨7, _⟩ => Facts₀.k0_off63_inb k
  | ⟨_ + 8, h⟩ => absurd h (Nat.not_lt.2 (Nat.le_add_left _ _))

/-- and the same semaphore, as that loop computes them. -/
def off2sem (k : Fin k0_t2_loop.trips) : Fin 8 → Fin 1 → Nat
  | ⟨0, _⟩ => k0_off34 k
  | ⟨1, _⟩ => k0_off38 k
  | ⟨2, _⟩ => k0_off42 k
  | ⟨3, _⟩ => k0_off46 k
  | ⟨4, _⟩ => k0_off50 k
  | ⟨5, _⟩ => k0_off54 k
  | ⟨6, _⟩ => k0_off58 k
  | ⟨7, _⟩ => k0_off62 k
  | ⟨_ + 8, h⟩ => absurd h (Nat.not_lt.2 (Nat.le_add_left _ _))

theorem off2sem_inb (k : Fin k0_t2_loop.trips) : ∀ (r : Fin 8) a, off2sem k r a + S1.size a ≤ S512.size a
  | ⟨0, _⟩ => Facts₀.k0_off34_inb k
  | ⟨1, _⟩ => Facts₀.k0_off38_inb k
  | ⟨2, _⟩ => Facts₀.k0_off42_inb k
  | ⟨3, _⟩ => Facts₀.k0_off46_inb k
  | ⟨4, _⟩ => Facts₀.k0_off50_inb k
  | ⟨5, _⟩ => Facts₀.k0_off54_inb k
  | ⟨6, _⟩ => Facts₀.k0_off58_inb k
  | ⟨7, _⟩ => Facts₀.k0_off62_inb k
  | ⟨_ + 8, h⟩ => absurd h (Nat.not_lt.2 (Nat.le_add_left _ _))

/-- Cell r of trip k of the issuing loop: the row of the block it fills, -/
def row1 (arg3 : Memref sig .tc .vmem S512x64 .f32) (k : Fin k0_t1_loop.trips) (r : Fin 8) : Memref sig .tc .vmem S1x64 .f32 :=
  arg3.slice (Rect.unit (s := S512x64) (off1row k r) S1x64.size (off1row_inb k r)) (fun _ => rfl)
/-- and its semaphore. -/
def sem1 (arg4 : DmaSems sig S512) (k : Fin k0_t1_loop.trips) (r : Fin 8) : DmaSems sig S_ :=
  (arg4.slice (Rect.unit (s := S512) (off1sem k r) S1.size (off1sem_inb k r))).squeeze S_ Facts₀.squeezes_S1_S_
/-- The same for the waiting loop. -/
def row2 (arg3 : Memref sig .tc .vmem S512x64 .f32) (k : Fin k0_t2_loop.trips) (r : Fin 8) : Memref sig .tc .vmem S1x64 .f32 :=
  arg3.slice (Rect.unit (s := S512x64) (off2row k r) S1x64.size (off2row_inb k r)) (fun _ => rfl)
def sem2 (arg4 : DmaSems sig S512) (k : Fin k0_t2_loop.trips) (r : Fin 8) : DmaSems sig S_ :=
  (arg4.slice (Rect.unit (s := S512) (off2sem k r) S1.size (off2sem_inb k r))).squeeze S_ Facts₀.squeezes_S1_S_

end Cert.Kernel.Body

end
-- ==== Proof.Spec.lean ====
/-
  What the lookup computes, stated once for both programs.

  Lookup (b, s) reads row ids[b, s] + 100000 * s of the unified table (32-bit words, the sum as the programs form it),
  and the result holds that row at [b, s, :]. Both programs agree with this function wherever every such row
  number is a row of the table: the reference's take then neither wraps nor fills, and the kernel's clamp is
  the identity.
-/
import Idealize.ShloMosaic.PureOps
import Idealize.ShloMosaic.Lib.ValueIdx

noncomputable section

namespace Cert.Spec

open Idealize.ShloMosaic Idealize.ShloMosaic.ValueIdx

abbrev SIds : Shape := ⟨2, ![16384, 26]⟩
abbrev STab : Shape := ⟨2, ![2600000, 64]⟩
abbrev SOut : Shape := ⟨3, ![16384, 26, 64]⟩
abbrev S26 : Shape := ⟨1, ![26]⟩
abbrev S0 : Shape := ⟨0, ![]⟩
abbrev S1x26 : Shape := ⟨2, ![1, 26]⟩

/-- The per-slot offsets 100000 * s, laid out over the [16384, 26] ids, as both programs and the precondition
    build them: an iota times a splat, broadcast along the batch axis. The three shape relations are the
    ones each printed program states. -/
def offs (h1 : S0.BroadcastsInDim S26 (![] : Fin 0 → Fin S26.rank))
    (h2 : S26.BroadcastsInDim S1x26 (![1] : Fin 1 → Fin S1x26.rank))
    (h3 : S1x26.BroadcastsInDim SIds (![0, 1] : Fin 2 → Fin SIds.rank)) : IVec SIds 32 :=
  broadcastInDim SIds ![0, 1] h3 (broadcastInDim S1x26 ![1] h2
    (muli (iotaInDim S26 32 0) (broadcastInDim S26 ![] h1 (constantI S0 32 100000#32))))

/-- The row of the unified table each lookup names: the id plus its slot's offset, a 32-bit sum. -/
def gids (h1 : S0.BroadcastsInDim S26 (![] : Fin 0 → Fin S26.rank))
    (h2 : S26.BroadcastsInDim S1x26 (![1] : Fin 1 → Fin S1x26.rank))
    (h3 : S1x26.BroadcastsInDim SIds (![0, 1] : Fin 2 → Fin SIds.rank)) (ids : IVec SIds 32) : IVec SIds 32 :=
  addi ids (offs h1 h2 h3)

/-- Every lookup names a row of the table: read signed, the row number lies in [0, 2600000). -/
def InRange (g : IVec SIds 32) : Prop := ∀ i : SIds.Idx, 0 ≤ (g i).toInt ∧ (g i).toInt < 2600000

/-- A word as a row of the table (total: reduced modulo the table's height, which changes nothing in range). -/
def rowFin (w : BitVec 32) : Fin 2600000 := ⟨w.toNat % 2600000, Nat.mod_lt _ (by decide)⟩

/-- The result: entry [b, s, d] is entry d of the table's row named by lookup (b, s). -/
def G {α : Type} (g : IVec SIds 32) (table : STab.Idx → α) : SOut.Idx → α :=
  fun i => table (ix2 (n0 := 2600000) (n1 := 64) (rowFin (g (ix2 (n0 := 16384) (n1 := 26) (i 0) (i 1)))) (i 2))

/-- In range, a row word's value is its signed reading and is below the table's height. -/
theorem toNat_of_inRange {w : BitVec 32} (h0 : 0 ≤ w.toInt) (h1 : w.toInt < 2600000) :
    w.toNat < 2600000 ∧ (w.toInt = (w.toNat : Int)) := by
  have := BitVec.toInt_eq_toNat_cond w
  have hlt := w.isLt
  split at this <;> omega

theorem rowFin_val_of_lt {w : BitVec 32} (h : w.toNat < 2600000) : (rowFin w).val = w.toNat :=
  Nat.mod_eq_of_lt h

end Cert.Spec

end
-- ==== Proof.BData.lean ====
/-
  The proof data of the gather's one pipeline. After the body at grid point t the ids window's buffer still
  holds its block, and the output window's buffer holds, in row j, the table's row named by id j of that block.
  The body's invariant: its 512 semaphores at zero and the table whole at its launch contents, the same at
  every point (every copy started at a point is waited for there, and the table is only read).
-/
import proofs.«412992_j76828374991717_2_alg».proof.Proof.BCells
import proofs.«412992_j76828374991717_2_alg».proof.Proof.Spec
import proofs.«412992_j76828374991717_2_alg».proof.Proof.Gen.Kernel.Frame
import Idealize.ShloMosaic.Lib.Pipeline.Frame
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own DMA semaphores, one per cell of a grid point: cell r of trip k. -/
abbrev osem : Fin k0_t1_loop.trips × Fin 8 → SemLoc sig := fun kr => SemLoc.dma (sem1 cc0_scratch0 kr.1 kr.2).sem

/-- The operand the body's copies read: the table, left in HBM. -/
def H0 : Finset (Ref sig .tc) := {main_arg1}

/-- Each window's current staging memref at point t, as the pipeline passes it to the body. -/
abbrev ms0_0 (t : Fin cfg0.N) : Memref sig .tc .smem S512 .i32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S512x64 .f32 := win0_1.stage (cfg0.slots t 1)
abbrev hs0_1 (t : Fin cfg0.N) : (ms0_1 t).IsWhole := Facts₀.hstage0_1 ((cfg0.slots t 1).cast Facts₀.nbuf0_1)
/-- The table, whole. -/
abbrev hbM : Memref sig .tc .hbm S2600000x64 .f32 := Memref.whole main_arg1

/-- The gathered block: row j is the table's row named by id j. -/
def gblk (x0 : Vec F S512 .i32) (tab : Vec F S2600000x64 .f32) : Vec F S512x64 .f32 :=
  fun y => tab (ix2 (n0 := 2600000) (n1 := 64) (Cert.Spec.rowFin (x0 (ix1 (n := 512) (y 0)))) (y 1))

/-- The proof data on core c: the arrays as the region finds them; after the body the ids window at its block and
    the output window at the gathered block; the invariant; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => gblk (iblk m c 0 t) (V m c main_arg1)
  Φ _ := Pipeline.ΦD osem spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = gblk (iblk m c 0 t) (V m c main_arg1) := by
  dsimp only [dats]

end Cert.Kernel.Body

end
-- ==== Proof.BTrip1.lean ====
/-
  One trip of the issuing loop: eight cells' row words are read from the ids block and each cell's copy of that
  table row into its row of the output block is started on its own semaphore.
-/
import proofs.«412992_j76828374991717_2_alg».proof.Proof.BCells
import proofs.«412992_j76828374991717_2_alg».proof.Proof.Gen.Kernel.Frame
import proofs.«412992_j76828374991717_2_alg».proof.Proof.Gen.Kernel.Loops
import Idealize.ShloMosaic.Lib.Pipeline.Frame
import Idealize.ShloMosaic.Lib.Transfers
import Idealize.ShloMosaic.Lib.Tactic
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (Pipeline.UD sig nD τ) ℕ

theorem cell_lt1 (k : Fin k0_t1_loop.trips) (r : Fin 8) : 8 * k.val + r.val < 512 := by
  have hk : k.val < 64 := lt_of_lt_of_eq k.isLt (by decide)
  have := r.isLt; omega

namespace Trip1

/-- Row 8k + 0 of the block, as the trip slices it. -/
def cellRow0 (arg3 : Memref sig .tc .vmem S512x64 .f32) (k : Fin k0_t1_loop.trips) : Memref sig .tc .vmem S1x64 .f32 :=
  arg3.slice (Rect.unit (s := S512x64) (k0_off3 k) S1x64.size (k0_off3_inb k)) (fun _ => rfl)
/-- Row 8k + 1 of the block, as the trip slices it. -/
def cellRow1 (arg3 : Memref sig .tc .vmem S512x64 .f32) (k : Fin k0_t1_loop.trips) : Memref sig .tc .vmem S1x64 .f32 :=
  arg3.slice (Rect.unit (s := S512x64) (k0_off7 k) S1x64.size (k0_off7_inb k)) (fun _ => rfl)
/-- Row 8k + 2 of the block, as the trip slices it. -/
def cellRow2 (arg3 : Memref sig .tc .vmem S512x64 .f32) (k : Fin k0_t1_loop.trips) : Memref sig .tc .vmem S1x64 .f32 :=
  arg3.slice (Rect.unit (s := S512x64) (k0_off11 k) S1x64.size (k0_off11_inb k)) (fun _ => rfl)
/-- Row 8k + 3 of the block, as the trip slices it. -/
def cellRow3 (arg3 : Memref sig .tc .vmem S512x64 .f32) (k : Fin k0_t1_loop.trips) : Memref sig .tc .vmem S1x64 .f32 :=
  arg3.slice (Rect.unit (s := S512x64) (k0_off15 k) S1x64.size (k0_off15_inb k)) (fun _ => rfl)
/-- Row 8k + 4 of the block, as the trip slices it. -/
def cellRow4 (arg3 : Memref sig .tc .vmem S512x64 .f32) (k : Fin k0_t1_loop.trips) : Memref sig .tc .vmem S1x64 .f32 :=
  arg3.slice (Rect.unit (s := S512x64) (k0_off19 k) S1x64.size (k0_off19_inb k)) (fun _ => rfl)
/-- Row 8k + 5 of the block, as the trip slices it. -/
def cellRow5 (arg3 : Memref sig .tc .vmem S512x64 .f32) (k : Fin k0_t1_loop.trips) : Memref sig .tc .vmem S1x64 .f32 :=
  arg3.slice (Rect.unit (s := S512x64) (k0_off23 k) S1x64.size (k0_off23_inb k)) (fun _ => rfl)
/-- Row 8k + 6 of the block, as the trip slices it. -/
def cellRow6 (arg3 : Memref sig .tc .vmem S512x64 .f32) (k : Fin k0_t1_loop.trips) : Memref sig .tc .vmem S1x64 .f32 :=
  arg3.slice (Rect.unit (s := S512x64) (k0_off27 k) S1x64.size (k0_off27_inb k)) (fun _ => rfl)
/-- Row 8k + 7 of the block, as the trip slices it. -/
def cellRow7 (arg3 : Memref sig .tc .vmem S512x64 .f32) (k : Fin k0_t1_loop.trips) : Memref sig .tc .vmem S1x64 .f32 :=
  arg3.slice (Rect.unit (s := S512x64) (k0_off31 k) S1x64.size (k0_off31_inb k)) (fun _ => rfl)
/-- Semaphore 8k + 0, as the trip slices it. -/
abbrev cellSem0 (arg4 : DmaSems sig S512) (k : Fin k0_t1_loop.trips) : DmaSems sig S_ :=
  (arg4.slice (Rect.unit (s := S512) (k0_off2 k) S1.size (k0_off2_inb k))).squeeze S_ squeezes_S1_S_
/-- Semaphore 8k + 1, as the trip slices it. -/
abbrev cellSem1 (arg4 : DmaSems sig S512) (k : Fin k0_t1_loop.trips) : DmaSems sig S_ :=
  (arg4.slice (Rect.unit (s := S512) (k0_off6 k) S1.size (k0_off6_inb k))).squeeze S_ squeezes_S1_S_
/-- Semaphore 8k + 2, as the trip slices it. -/
abbrev cellSem2 (arg4 : DmaSems sig S512) (k : Fin k0_t1_loop.trips) : DmaSems sig S_ :=
  (arg4.slice (Rect.unit (s := S512) (k0_off10 k) S1.size (k0_off10_inb k))).squeeze S_ squeezes_S1_S_
/-- Semaphore 8k + 3, as the trip slices it. -/
abbrev cellSem3 (arg4 : DmaSems sig S512) (k : Fin k0_t1_loop.trips) : DmaSems sig S_ :=
  (arg4.slice (Rect.unit (s := S512) (k0_off14 k) S1.size (k0_off14_inb k))).squeeze S_ squeezes_S1_S_
/-- Semaphore 8k + 4, as the trip slices it. -/
abbrev cellSem4 (arg4 : DmaSems sig S512) (k : Fin k0_t1_loop.trips) : DmaSems sig S_ :=
  (arg4.slice (Rect.unit (s := S512) (k0_off18 k) S1.size (k0_off18_inb k))).squeeze S_ squeezes_S1_S_
/-- Semaphore 8k + 5, as the trip slices it. -/
abbrev cellSem5 (arg4 : DmaSems sig S512) (k : Fin k0_t1_loop.trips) : DmaSems sig S_ :=
  (arg4.slice (Rect.unit (s := S512) (k0_off22 k) S1.size (k0_off22_inb k))).squeeze S_ squeezes_S1_S_
/-- Semaphore 8k + 6, as the trip slices it. -/
abbrev cellSem6 (arg4 : DmaSems sig S512) (k : Fin k0_t1_loop.trips) : DmaSems sig S_ :=
  (arg4.slice (Rect.unit (s := S512) (k0_off26 k) S1.size (k0_off26_inb k))).squeeze S_ squeezes_S1_S_
/-- Semaphore 8k + 7, as the trip slices it. -/
abbrev cellSem7 (arg4 : DmaSems sig S512) (k : Fin k0_t1_loop.trips) : DmaSems sig S_ :=
  (arg4.slice (Rect.unit (s := S512) (k0_off30 k) S1.size (k0_off30_inb k))).squeeze S_ squeezes_S1_S_

/-- A conjunction over the eight cells, cell by cell. -/
theorem bigSep_F8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A word read off the ids block at any one-word window is one of its 512 words, so it names a row of the table. -/
theorem word_lt (c : Dev nD) (arg1 : Memref sig .tc .smem S512 .i32) (fx : Buf (Elt F) (arg1.view.loc (c : Thread nD τ)))
    (hx : ∀ n : Fin 512, (arg1.view.read (Elt F) fx (ix1 n) : BitVec 32).toNat < 2600000)
    (off : Fin 1 → Nat) (hoff : ∀ a, off a + S1.size a ≤ S512.size a) (h : 0 < (Rect.unit (s := S512) off S1.size hoff).toLoadRect.shape.numel) :
    (View.readAt (Elt F) arg1.view (Rect.unit (s := S512) off S1.size hoff).toLoadRect fx (Shape.Idx.first h) : BitVec 32).toNat < 2600000 := by
  rw [View.readAt_apply, eq_ix1 ((Rect.unit (s := S512) off S1.size hoff).toLoadRect.idx (Shape.Idx.first h))]
  exact hx _

/-- A word below the table's row count names a one-row window inside the table (cell 0's side condition). -/
theorem chk1_of_lt (w : BitVec 32) (hw : w.toNat < 2600000) : k0_chk1 w := by
  unfold k0_chk1 k0_off4; intro a; fin_cases a <;> simp <;> omega

/-- A word below the table's row count names a one-row window inside the table (cell 1's side condition). -/
theorem chk2_of_lt (w : BitVec 32) (hw : w.toNat < 2600000) : k0_chk2 w := by
  unfold k0_chk2 k0_off8; intro a; fin_cases a <;> simp <;> omega

/-- A word below the table's row count names a one-row window inside the table (cell 2's side condition). -/
theorem chk3_of_lt (w : BitVec 32) (hw : w.toNat < 2600000) : k0_chk3 w := by
  unfold k0_chk3 k0_off12; intro a; fin_cases a <;> simp <;> omega

/-- A word below the table's row count names a one-row window inside the table (cell 3's side condition). -/
theorem chk4_of_lt (w : BitVec 32) (hw : w.toNat < 2600000) : k0_chk4 w := by
  unfold k0_chk4 k0_off16; intro a; fin_cases a <;> simp <;> omega

/-- A word below the table's row count names a one-row window inside the table (cell 4's side condition). -/
theorem chk5_of_lt (w : BitVec 32) (hw : w.toNat < 2600000) : k0_chk5 w := by
  unfold k0_chk5 k0_off20; intro a; fin_cases a <;> simp <;> omega

/-- A word below the table's row count names a one-row window inside the table (cell 5's side condition). -/
theorem chk6_of_lt (w : BitVec 32) (hw : w.toNat < 2600000) : k0_chk6 w := by
  unfold k0_chk6 k0_off24; intro a; fin_cases a <;> simp <;> omega

/-- A word below the table's row count names a one-row window inside the table (cell 6's side condition). -/
theorem chk7_of_lt (w : BitVec 32) (hw : w.toNat < 2600000) : k0_chk7 w := by
  unfold k0_chk7 k0_off28; intro a; fin_cases a <;> simp <;> omega

/-- A word below the table's row count names a one-row window inside the table (cell 7's side condition). -/
theorem chk8_of_lt (w : BitVec 32) (hw : w.toNat < 2600000) : k0_chk8 w := by
  unfold k0_chk8 k0_off32; intro a; fin_cases a <;> simp <;> omega

section RowValue
variable {Val : EltTy → Type} {κ : Kind} {sp : Space} {e : EltTy} {N : Nat}

/-- Column d of a one-row window at row a, its unit axis dropped, is element (a, d) of the array. -/
theorem emb_row (M : Memref sig κ sp ⟨2, ![N, 64]⟩ e) (off : Fin 2 → Nat)
    (hoff : ∀ a, off a + S1x64.size a ≤ (⟨2, ![N, 64]⟩ : Shape).size a)
    (hr : ∀ a, (Rect.unit (s := ⟨2, ![N, 64]⟩) off S1x64.size hoff).stride a = 1) (hq : S1x64.Squeezes S64)
    (a : Fin N) (h0 : off 0 = a.val) (h1 : off 1 = 0) (d : Fin 64) :
    ((M.slice (Rect.unit (s := ⟨2, ![N, 64]⟩) off S1x64.size hoff) hr).squeeze S64 hq).view.emb (ix1 d) = M.view.emb (ix2 a d) := by
  show M.view.emb ((Rect.unit (s := ⟨2, ![N, 64]⟩) off S1x64.size hoff).emb (Shape.reshapeEquiv hq.numel_eq (ix1 d))) = _
  have e1 : Shape.reshapeEquiv hq.numel_eq (ix1 d) = (ix2 (⟨0, Nat.one_pos⟩ : Fin 1) d : S1x64.Idx) :=
    Shape.reshapeEquiv_eq_of_rowMajor _ (by
      rw [Shape.rowMajor_val_two, Shape.rowMajor_val_one]
      show 0 * 64 + d.val = d.val
      rw [Nat.zero_mul, Nat.zero_add])
  rw [e1]
  congr 1
  funext b
  match b with
  | ⟨0, _⟩ => exact Fin.ext (by show off 0 + 1 * 0 = a.val; omega)
  | ⟨1, _⟩ => exact Fin.ext (by show off 1 + 1 * d.val = d.val; omega)

/-- The array read at (a, d) after a payload was written over that window: the payload at d. -/
theorem read_write_row (M : Memref sig κ sp ⟨2, ![N, 64]⟩ e) (off : Fin 2 → Nat)
    (hoff : ∀ a, off a + S1x64.size a ≤ (⟨2, ![N, 64]⟩ : Shape).size a)
    (hr : ∀ a, (Rect.unit (s := ⟨2, ![N, 64]⟩) off S1x64.size hoff).stride a = 1) (hq : S1x64.Squeezes S64)
    (a : Fin N) (h0 : off 0 = a.val) (h1 : off 1 = 0) (d : Fin 64)
    (f : M.view.ty.Contents Val) (w : S64.Idx → Val e) :
    M.view.read Val
        (((M.slice (Rect.unit (s := ⟨2, ![N, 64]⟩) off S1x64.size hoff) hr).squeeze S64 hq).view.write Val f w Finset.univ)
        (ix2 a d) = w (ix1 d) := by
  rw [View.read_apply, ← emb_row M off hoff hr hq a h0 h1 d,
    View.write_emb_of_mem _ _ (Finset.mem_univ _), cast_cast, cast_eq]

/-- The window read at d: the array at (a, d). -/
theorem read_row (M : Memref sig κ sp ⟨2, ![N, 64]⟩ e) (off : Fin 2 → Nat)
    (hoff : ∀ a, off a + S1x64.size a ≤ (⟨2, ![N, 64]⟩ : Shape).size a)
    (hr : ∀ a, (Rect.unit (s := ⟨2, ![N, 64]⟩) off S1x64.size hoff).stride a = 1) (hq : S1x64.Squeezes S64)
    (a : Fin N) (h0 : off 0 = a.val) (h1 : off 1 = 0) (d : Fin 64) (f : M.view.ty.Contents Val) :
    ((M.slice (Rect.unit (s := ⟨2, ![N, 64]⟩) off S1x64.size hoff) hr).squeeze S64 hq).view.read Val f (ix1 d)
      = M.view.read Val f (ix2 a d) := by
  rw [View.read_apply, View.read_apply, emb_row M off hoff hr hq a h0 h1 d]

end RowValue

/-- The value one cell's copy leaves: the block's row n, through the whole block, holds the table's row named by
    word n of the ids, through the whole table. -/
theorem cell_value (c : Dev nD) (arg1 : Memref sig .tc .smem S512 .i32) (arg2 : Memref sig .tc .hbm S2600000x64 .f32)
    (arg3 : Memref sig .tc .vmem S512x64 .f32)
    (fx : Buf (Elt F) (arg1.view.loc (c : Thread nD τ))) (ft : Buf (Elt F) (arg2.view.loc (c : Thread nD τ)))
    (hx : ∀ n : Fin 512, (arg1.view.read (Elt F) fx (ix1 n) : BitVec 32).toNat < 2600000)
    (fd0 : Buf (Elt F) (arg3.view.loc (c : Thread nD τ))) (n : Fin 512)
    (off1 : Fin 1 → Nat) (hoff1 : ∀ a, off1 a + S1.size a ≤ S512.size a)
    (hn1 : 0 < (Rect.unit (s := S512) off1 S1.size hoff1).toLoadRect.shape.numel) (e1 : off1 0 = n.val)
    (off3 : Fin 2 → Nat) (hoff3 : ∀ a, off3 a + S1x64.size a ≤ S512x64.size a)
    (hr3 : ∀ a, (Rect.unit (s := S512x64) off3 S1x64.size hoff3).stride a = 1) (hq3 : S1x64.Squeezes S64)
    (e30 : off3 0 = n.val) (e31 : off3 1 = 0)
    (off4 : Fin 2 → Nat) (hoff4 : ∀ a, off4 a + S1x64.size a ≤ S2600000x64.size a)
    (hr4 : ∀ a, (Rect.unit (s := S2600000x64) off4 S1x64.size hoff4).stride a = 1) (hq4 : S1x64.Squeezes S64)
    (e40 : off4 0 = (View.readAt (Elt F) arg1.view (Rect.unit (s := S512) off1 S1.size hoff1).toLoadRect fx (Shape.Idx.first hn1) : BitVec 32).toNat)
    (e41 : off4 1 = 0) (d : Fin 64) :
    arg3.view.read (Elt F)
        (((arg3.slice (Rect.unit (s := S512x64) off3 S1x64.size hoff3) hr3).squeeze S64 hq3).view.write (Elt F) fd0
          (ReadAs.same.apply (((arg2.slice (Rect.unit (s := S2600000x64) off4 S1x64.size hoff4) hr4).squeeze S64 hq4).view.read (Elt F) ft))
          Finset.univ)
        (ix2 (n0 := 512) (n1 := 64) n d)
      = arg2.view.read (Elt F) ft (ix2 (n0 := 2600000) (n1 := 64) ⟨(arg1.view.read (Elt F) fx (ix1 (n := 512) n) : BitVec 32).toNat, hx n⟩ d) := by
  have hw : View.readAt (Elt F) arg1.view (Rect.unit (s := S512) off1 S1.size hoff1).toLoadRect fx (Shape.Idx.first hn1)
      = arg1.view.read (Elt F) fx (ix1 (n := 512) n) := by
    rw [View.readAt_apply]
    congr 1
    funext b
    match b with
    | ⟨0, _⟩ => exact Fin.ext (by show off1 0 + 1 * 0 = n.val; omega)
  have hlt : (View.readAt (Elt F) arg1.view (Rect.unit (s := S512) off1 S1.size hoff1).toLoadRect fx (Shape.Idx.first hn1) : BitVec 32).toNat < 2600000 := by
    rw [hw]; exact hx n
  rw [read_write_row arg3 off3 hoff3 hr3 hq3 n e30 e31 d]
  show ((arg2.slice (Rect.unit (s := S2600000x64) off4 S1x64.size hoff4) hr4).squeeze S64 hq4).view.read (Elt F) ft (ix1 d) = _
  rw [read_row arg2 off4 hoff4 hr4 hq4 ⟨_, hlt⟩ e40 e41 d]
  congr 2
  exact Fin.ext (congrArg BitVec.toNat hw)

end Trip1

open Trip1

set_option maxHeartbeats 4000000 in
/-- Trip k of the issuing loop: holding the ids block and, per cell, the cell's row of the output block, its
    semaphore at zero and a read share of the table, the trip ends holding the block and, per cell, the copy in
    flight — delivering the row with the table's row named by the cell's id in it (read through the whole
    memrefs: row 8k + r of the block is row ids[8k + r] of the table) and the share's part it lent — beside the
    rest of that share. -/
theorem trip1 (c : Dev nD) (i : grid0.Coords) (arg1 : Memref sig .tc .smem S512 .i32) (harg1 : arg1.IsWhole)
    (arg2 : Memref sig .tc .hbm S2600000x64 .f32) (harg2 : arg2.IsWhole) (arg3 : Memref sig .tc .vmem S512x64 .f32) (harg3 : arg3.IsWhole)
    (arg4 : DmaSems sig S512) (k : Fin k0_t1_loop.trips)
    (fx : Buf (Elt F) (arg1.view.loc (c : Thread nD τ))) (ft : Buf (Elt F) (arg2.view.loc (c : Thread nD τ)))
    (hx : ∀ n : Fin 512, (arg1.view.read (Elt F) fx (ix1 n) : BitVec 32).toNat < 2600000)
    (fd : Fin 8 → Buf (Elt F) (arg3.view.loc (c : Thread nD τ))) (q : Fin 8 → PosShare TreeShare) :
    (iprop((arg1.view.loc (c : Thread nD τ) ↦[arg1.view.set]{fullShare} fx)
      ∗ bigSep Finset.univ (fun r : Fin 8 => iprop((arg3.view.loc (c : Thread nD τ) ↦[(row1 arg3 k r).view.set]{fullShare} fd r)
          ∗ semVal ((c : Thread nD τ), SemLoc.dma (sem1 arg4 k r).sem) 0
          ∗ (arg2.view.loc (c : Thread nD τ) ↦[arg2.view.set]{q r} ft)))) : sProp 𝕄)
      ⊢ wp frame (wpE (defs₀ (F := F)) Variants.none c none) Set.univ (k0_t1_body (F := F) i arg1 harg1 arg2 harg2 arg3 harg3 arg4 k ())
          (fun _ => (iprop((arg1.view.loc (c : Thread nD τ) ↦[arg1.view.set]{fullShare} fx)
            ∗ bigSep Finset.univ (fun r : Fin 8 => iprop(∃ (g : Buf (Elt F) (arg3.view.loc (c : Thread nD τ))) (Ss : Finset (Idx (arg2.view.loc (c : Thread nD τ)))),
                ⌜Ss ⊆ arg2.view.set ∧ ∀ d : Fin 64,
                    arg3.view.read (Elt F) g (ix2 (n0 := 512) (n1 := 64) ⟨8 * k.val + r.val, cell_lt1 k r⟩ d)
                      = arg2.view.read (Elt F) ft (ix2 (n0 := 2600000) (n1 := 64)
                          ⟨(arg1.view.read (Elt F) fx (ix1 (n := 512) ⟨8 * k.val + r.val, cell_lt1 k r⟩) : BitVec 32).toNat, hx _⟩ d)⌝
                ∗ Transfers.Flight countersEmb (c : Thread nD τ) (SemLoc.dma (sem1 arg4 k r).sem) default 128
                    iprop((arg3.view.loc (c : Thread nD τ) ↦[(row1 arg3 k r).view.set]{fullShare} g) ∗ (arg2.view.loc (c : Thread nD τ) ↦[Ss]{q r} ft))
                ∗ (arg2.view.loc (c : Thread nD τ) ↦[arg2.view.set \ Ss]{q r} ft)))) : sProp 𝕄)) := by
  rw [bigSep_F8, bigSep_F8]
  have hc1 := fun off hoff h => chk1_of_lt _ (word_lt (F := F) c arg1 fx hx off hoff h)
  have hc2 := fun off hoff h => chk2_of_lt _ (word_lt (F := F) c arg1 fx hx off hoff h)
  have hc3 := fun off hoff h => chk3_of_lt _ (word_lt (F := F) c arg1 fx hx off hoff h)
  have hc4 := fun off hoff h => chk4_of_lt _ (word_lt (F := F) c arg1 fx hx off hoff h)
  have hc5 := fun off hoff h => chk5_of_lt _ (word_lt (F := F) c arg1 fx hx off hoff h)
  have hc6 := fun off hoff h => chk6_of_lt _ (word_lt (F := F) c arg1 fx hx off hoff h)
  have hc7 := fun off hoff h => chk7_of_lt _ (word_lt (F := F) c arg1 fx hx off hoff h)
  have hc8 := fun off hoff h => chk8_of_lt _ (word_lt (F := F) c arg1 fx hx off hoff h)
  show (iprop((arg1.view.loc (c : Thread nD τ) ↦[arg1.view.set]{fullShare} fx)
      ∗ (((cellRow0 arg3 k).view.loc (c : Thread nD τ) ↦[(cellRow0 arg3 k).view.set]{fullShare} fd 0)
          ∗ semVal ((c : Thread nD τ), SemLoc.dma (cellSem0 arg4 k).sem) 0
          ∗ (arg2.view.loc (c : Thread nD τ) ↦[arg2.view.set]{q 0} ft))
      ∗ (((cellRow1 arg3 k).view.loc (c : Thread nD τ) ↦[(cellRow1 arg3 k).view.set]{fullShare} fd 1)
          ∗ semVal ((c : Thread nD τ), SemLoc.dma (cellSem1 arg4 k).sem) 0
          ∗ (arg2.view.loc (c : Thread nD τ) ↦[arg2.view.set]{q 1} ft))
      ∗ (((cellRow2 arg3 k).view.loc (c : Thread nD τ) ↦[(cellRow2 arg3 k).view.set]{fullShare} fd 2)
          ∗ semVal ((c : Thread nD τ), SemLoc.dma (cellSem2 arg4 k).sem) 0
          ∗ (arg2.view.loc (c : Thread nD τ) ↦[arg2.view.set]{q 2} ft))
      ∗ (((cellRow3 arg3 k).view.loc (c : Thread nD τ) ↦[(cellRow3 arg3 k).view.set]{fullShare} fd 3)
          ∗ semVal ((c : Thread nD τ), SemLoc.dma (cellSem3 arg4 k).sem) 0
          ∗ (arg2.view.loc (c : Thread nD τ) ↦[arg2.view.set]{q 3} ft))
      ∗ (((cellRow4 arg3 k).view.loc (c : Thread nD τ) ↦[(cellRow4 arg3 k).view.set]{fullShare} fd 4)
          ∗ semVal ((c : Thread nD τ), SemLoc.dma (cellSem4 arg4 k).sem) 0
          ∗ (arg2.view.loc (c : Thread nD τ) ↦[arg2.view.set]{q 4} ft))
      ∗ (((cellRow5 arg3 k).view.loc (c : Thread nD τ) ↦[(cellRow5 arg3 k).view.set]{fullShare} fd 5)
          ∗ semVal ((c : Thread nD τ), SemLoc.dma (cellSem5 arg4 k).sem) 0
          ∗ (arg2.view.loc (c : Thread nD τ) ↦[arg2.view.set]{q 5} ft))
      ∗ (((cellRow6 arg3 k).view.loc (c : Thread nD τ) ↦[(cellRow6 arg3 k).view.set]{fullShare} fd 6)
          ∗ semVal ((c : Thread nD τ), SemLoc.dma (cellSem6 arg4 k).sem) 0
          ∗ (arg2.view.loc (c : Thread nD τ) ↦[arg2.view.set]{q 6} ft))
      ∗ (((cellRow7 arg3 k).view.loc (c : Thread nD τ) ↦[(cellRow7 arg3 k).view.set]{fullShare} fd 7)
          ∗ semVal ((c : Thread nD τ), SemLoc.dma (cellSem7 arg4 k).sem) 0
          ∗ (arg2.view.loc (c : Thread nD τ) ↦[arg2.view.set]{q 7} ft))) : sProp 𝕄) ⊢ _
  iintro ⟨HX, ⟨HD0, HS0, HT0⟩, ⟨HD1, HS1, HT1⟩, ⟨HD2, HS2, HT2⟩, ⟨HD3, HS3, HT3⟩, ⟨HD4, HS4, HT4⟩, ⟨HD5, HS5, HT5⟩, ⟨HD6, HS6, HT6⟩, ⟨HD7, HS7, HT7⟩⟩
  unfold k0_t1_body
  simp only [k0_part2_eq_skeleton]; unfold k0_part2_skel
  sl_exec
  sl_step
  iclear HD0 HD1 HD2 HD3 HD4 HD5 HD6 HD7
  simp only [Memref.set_view_squeeze]
  isplitl [HX]
  · iexact HX
  isplitl [HS0 HT0]
  · iexists _, _
    isplitr [HS0 HT0]
    swap
    · isplitl [HS0]
      · iexact HS0
      · iexact HT0
    · ipureintro
      exact ⟨View.set_slice_subset _ _, fun d => cell_value c arg1 arg2 arg3 fx ft hx (fd 0) ⟨8 * k.val + (0 : Fin 8).val, cell_lt1 k 0⟩
        (k0_off1 k) (k0_off1_inb k) _ (by rw [k0_off1_eq]; rfl)
        (k0_off3 k) (k0_off3_inb k) _ _ (by rw [k0_off3_eq]; rfl) (by rw [k0_off3_eq]; rfl)
        (k0_off4 _) _ _ _ rfl rfl d⟩
  isplitl [HS1 HT1]
  · iexists _, _
    isplitr [HS1 HT1]
    swap
    · isplitl [HS1]
      · iexact HS1
      · iexact HT1
    · ipureintro
      exact ⟨View.set_slice_subset _ _, fun d => cell_value c arg1 arg2 arg3 fx ft hx (fd 1) ⟨8 * k.val + (1 : Fin 8).val, cell_lt1 k 1⟩
        (k0_off5 k) (k0_off5_inb k) _ (by rw [k0_off5_eq]; rfl)
        (k0_off7 k) (k0_off7_inb k) _ _ (by rw [k0_off7_eq]; rfl) (by rw [k0_off7_eq]; rfl)
        (k0_off8 _) _ _ _ rfl rfl d⟩
  isplitl [HS2 HT2]
  · iexists _, _
    isplitr [HS2 HT2]
    swap
    · isplitl [HS2]
      · iexact HS2
      · iexact HT2
    · ipureintro
      exact ⟨View.set_slice_subset _ _, fun d => cell_value c arg1 arg2 arg3 fx ft hx (fd 2) ⟨8 * k.val + (2 : Fin 8).val, cell_lt1 k 2⟩
        (k0_off9 k) (k0_off9_inb k) _ (by rw [k0_off9_eq]; rfl)
        (k0_off11 k) (k0_off11_inb k) _ _ (by rw [k0_off11_eq]; rfl) (by rw [k0_off11_eq]; rfl)
        (k0_off12 _) _ _ _ rfl rfl d⟩
  isplitl [HS3 HT3]
  · iexists _, _
    isplitr [HS3 HT3]
    swap
    · isplitl [HS3]
      · iexact HS3
      · iexact HT3
    · ipureintro
      exact ⟨View.set_slice_subset _ _, fun d => cell_value c arg1 arg2 arg3 fx ft hx (fd 3) ⟨8 * k.val + (3 : Fin 8).val, cell_lt1 k 3⟩
        (k0_off13 k) (k0_off13_inb k) _ (by rw [k0_off13_eq]; rfl)
        (k0_off15 k) (k0_off15_inb k) _ _ (by rw [k0_off15_eq]; rfl) (by rw [k0_off15_eq]; rfl)
        (k0_off16 _) _ _ _ rfl rfl d⟩
  isplitl [HS4 HT4]
  · iexists _, _
    isplitr [HS4 HT4]
    swap
    · isplitl [HS4]
      · iexact HS4
      · iexact HT4
    · ipureintro
      exact ⟨View.set_slice_subset _ _, fun d => cell_value c arg1 arg2 arg3 fx ft hx (fd 4) ⟨8 * k.val + (4 : Fin 8).val, cell_lt1 k 4⟩
        (k0_off17 k) (k0_off17_inb k) _ (by rw [k0_off17_eq]; rfl)
        (k0_off19 k) (k0_off19_inb k) _ _ (by rw [k0_off19_eq]; rfl) (by rw [k0_off19_eq]; rfl)
        (k0_off20 _) _ _ _ rfl rfl d⟩
  isplitl [HS5 HT5]
  · iexists _, _
    isplitr [HS5 HT5]
    swap
    · isplitl [HS5]
      · iexact HS5
      · iexact HT5
    · ipureintro
      exact ⟨View.set_slice_subset _ _, fun d => cell_value c arg1 arg2 arg3 fx ft hx (fd 5) ⟨8 * k.val + (5 : Fin 8).val, cell_lt1 k 5⟩
        (k0_off21 k) (k0_off21_inb k) _ (by rw [k0_off21_eq]; rfl)
        (k0_off23 k) (k0_off23_inb k) _ _ (by rw [k0_off23_eq]; rfl) (by rw [k0_off23_eq]; rfl)
        (k0_off24 _) _ _ _ rfl rfl d⟩
  isplitl [HS6 HT6]
  · iexists _, _
    isplitr [HS6 HT6]
    swap
    · isplitl [HS6]
      · iexact HS6
      · iexact HT6
    · ipureintro
      exact ⟨View.set_slice_subset _ _, fun d => cell_value c arg1 arg2 arg3 fx ft hx (fd 6) ⟨8 * k.val + (6 : Fin 8).val, cell_lt1 k 6⟩
        (k0_off25 k) (k0_off25_inb k) _ (by rw [k0_off25_eq]; rfl)
        (k0_off27 k) (k0_off27_inb k) _ _ (by rw [k0_off27_eq]; rfl) (by rw [k0_off27_eq]; rfl)
        (k0_off28 _) _ _ _ rfl rfl d⟩
  · iexists _, _
    isplitr [HS7 HT7]
    swap
    · isplitl [HS7]
      · iexact HS7
      · iexact HT7
    · ipureintro
      exact ⟨View.set_slice_subset _ _, fun d => cell_value c arg1 arg2 arg3 fx ft hx (fd 7) ⟨8 * k.val + (7 : Fin 8).val, cell_lt1 k 7⟩
        (k0_off29 k) (k0_off29_inb k) _ (by rw [k0_off29_eq]; rfl)
        (k0_off31 k) (k0_off31_inb k) _ _ (by rw [k0_off31_eq]; rfl) (by rw [k0_off31_eq]; rfl)
        (k0_off32 _) _ _ _ rfl rfl d⟩

end Cert.Kernel.Body

end
-- ==== Proof.BTrip2.lean ====
/-
  One trip of the waiting loop: eight cells' row words are read again, each cell's copy is waited for on its own
  semaphore, and each wait hands back what its copy delivers and the semaphore at zero.
-/
import proofs.«412992_j76828374991717_2_alg».proof.Proof.BCells
import proofs.«412992_j76828374991717_2_alg».proof.Proof.Gen.Kernel.Frame
import proofs.«412992_j76828374991717_2_alg».proof.Proof.Gen.Kernel.Loops
import Idealize.ShloMosaic.Lib.Pipeline.Frame
import Idealize.ShloMosaic.Lib.Pipeline.Kit
import Idealize.ShloMosaic.Lib.Transfers
import Idealize.ShloMosaic.Lib.Tactic
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (Pipeline.UD sig nD τ) ℕ

/-- A conjunction over eight cells is the eight conjuncts in order. -/
private theorem bigSep8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Trip k of the waiting loop, whatever the eight copies deliver: holding the ids block, the core's record of
    waits and each cell's copy in flight, the trip ends holding the block, a record of waits, and per cell the
    delivery and the semaphore at zero. The ids are rows of the table (the body assumes it of each word it reads). -/
theorem trip2 (c : Dev nD) (i : grid0.Coords) (arg1 : Memref sig .tc .smem S512 .i32) (harg1 : arg1.IsWhole)
    (arg2 : Memref sig .tc .hbm S2600000x64 .f32) (harg2 : arg2.IsWhole) (arg3 : Memref sig .tc .vmem S512x64 .f32) (harg3 : arg3.IsWhole)
    (arg4 : DmaSems sig S512) (k : Fin k0_t2_loop.trips)
    (fx : Buf (Elt F) (arg1.view.loc (c : Thread nD τ))) (ft : Buf (Elt F) (arg2.view.loc (c : Thread nD τ)))
    (hx : ∀ n : Fin 512, (arg1.view.read (Elt F) fx (ix1 n) : BitVec 32).toNat < 2600000)
    (Sd : Fin 8 → Finset (Idx (arg3.view.loc (c : Thread nD τ)))) (Ss : Fin 8 → Finset (Idx (arg2.view.loc (c : Thread nD τ))))
    (g : Fin 8 → Buf (Elt F) (arg3.view.loc (c : Thread nD τ))) (q : Fin 8 → PosShare TreeShare) (W : Waits sig Unit) :
    (iprop((arg1.view.loc (c : Thread nD τ) ↦[arg1.view.set]{fullShare} fx) ∗ owes (c : Thread nD τ) 0 W
      ∗ bigSep Finset.univ (fun r : Fin 8 => Transfers.Flight countersEmb (c : Thread nD τ) (SemLoc.dma (sem2 arg4 k r).sem) default 128
          iprop((arg3.view.loc (c : Thread nD τ) ↦[Sd r]{fullShare} g r) ∗ (arg2.view.loc (c : Thread nD τ) ↦[Ss r]{q r} ft)))) : sProp 𝕄)
      ⊢ wp frame (wpE (defs₀ (F := F)) Variants.none c none) Set.univ (k0_t2_body (F := F) i arg1 harg1 arg2 harg2 arg3 harg3 arg4 k ())
          (fun _ => (iprop((arg1.view.loc (c : Thread nD τ) ↦[arg1.view.set]{fullShare} fx) ∗ (∃ W', owes (c : Thread nD τ) 0 W')
            ∗ bigSep Finset.univ (fun r : Fin 8 => iprop((arg3.view.loc (c : Thread nD τ) ↦[Sd r]{fullShare} g r)
                ∗ (arg2.view.loc (c : Thread nD τ) ↦[Ss r]{q r} ft)
                ∗ semVal ((c : Thread nD τ), SemLoc.dma (sem2 arg4 k r).sem) 0))) : sProp 𝕄)) := by
  -- every word of the ids block is below the table's row count: an index of the block is its one coordinate
  have hrd : ∀ y : S512.Idx, (arg1.view.read (Elt F) fx y : BitVec 32).toNat < 2600000 := fun y => by
    rw [eq_ix1 y]; exact hx _
  -- and a word below the row count names a row inside the table: one row of 64 at offset (w, 0) fits in 2600000 x 64
  have hrow : ∀ w : BitVec 32, w.toNat < 2600000 →
      ∀ a : Fin 2, (![w.toNat, 0] : Fin 2 → Nat) a + S1x64.size a ≤ S2600000x64.size a := by
    intro w hw a; fin_cases a <;> simp [S1x64, S2600000x64] <;> omega
  -- so each of the eight words the trip reads off the block satisfies the condition the body assumes of it
  have h9 : ∀ (R : LoadRect S512) (x : R.shape.Idx), k0_chk9 (View.readAt (Elt F) arg1.view R fx x) :=
    fun R x => hrow _ (hrd _)
  have h10 : ∀ (R : LoadRect S512) (x : R.shape.Idx), k0_chk10 (View.readAt (Elt F) arg1.view R fx x) :=
    fun R x => hrow _ (hrd _)
  have h11 : ∀ (R : LoadRect S512) (x : R.shape.Idx), k0_chk11 (View.readAt (Elt F) arg1.view R fx x) :=
    fun R x => hrow _ (hrd _)
  have h12 : ∀ (R : LoadRect S512) (x : R.shape.Idx), k0_chk12 (View.readAt (Elt F) arg1.view R fx x) :=
    fun R x => hrow _ (hrd _)
  have h13 : ∀ (R : LoadRect S512) (x : R.shape.Idx), k0_chk13 (View.readAt (Elt F) arg1.view R fx x) :=
    fun R x => hrow _ (hrd _)
  have h14 : ∀ (R : LoadRect S512) (x : R.shape.Idx), k0_chk14 (View.readAt (Elt F) arg1.view R fx x) :=
    fun R x => hrow _ (hrd _)
  have h15 : ∀ (R : LoadRect S512) (x : R.shape.Idx), k0_chk15 (View.readAt (Elt F) arg1.view R fx x) :=
    fun R x => hrow _ (hrd _)
  have h16 : ∀ (R : LoadRect S512) (x : R.shape.Idx), k0_chk16 (View.readAt (Elt F) arg1.view R fx x) :=
    fun R x => hrow _ (hrd _)
  -- the eight cells one by one, before and after
  rw [bigSep8, bigSep8]
  iintro ⟨HX, HW, HF0, HF1, HF2, HF3, HF4, HF5, HF6, HF7⟩
  -- the trip: per cell the word is read and is a row, and the wait on the cell's semaphore meets the cell's copy in
  -- flight, which hands over its delivery and leaves the semaphore at zero and the wait on the core's record
  unfold k0_t2_body
  simp only [k0_part4_eq_skeleton]; unfold k0_part4_skel
  sl_exec
  sl_step
  -- what is held is the postcondition's block and cells; the record of waits is the one the eight waits built
  iframe
  iexists _
  iexact HW

end Cert.Kernel.Body

end
-- ==== Proof.BPlumb.lean ====
/-
  Bookkeeping for one grid point's 512 cells. The table's full share is dealt out as one read share per cell (and a
  remainder); the output block is its 512 rows (cell (k, r) owns row 8k + r), split and joined back; what each cell
  holds at some contents can be chosen for all cells at once; and the two loops name one cell's semaphore alike.
-/
import proofs.«412992_j76828374991717_2_alg».proof.Proof.BData
import Idealize.ShloMosaic.Lib.Transfers
import Idealize.ShloMosaic.Lib.Ring
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- A grid point's cells: cell r of trip k. -/
abbrev Cell : Type := Fin k0_t1_loop.trips × Fin 8

theorem cell_lt (kr : Cell) : 8 * kr.1.val + kr.2.val < 512 := by
  have hk : kr.1.val < 64 := lt_of_lt_of_eq kr.1.isLt (by decide)
  have := kr.2.isLt; omega

/-- There are 64 trips. -/
private theorem trips_eq : k0_t1_loop.trips = 64 := by decide

/-- Cells and row numbers below 512 correspond: cell (k, r) is row 8k + r, row j is cell (j / 8, j % 8). -/
def cellEquiv : Cell ≃ Fin 512 where
  toFun kr := ⟨8 * kr.1.val + kr.2.val, cell_lt kr⟩
  invFun j := (⟨j.val / 8, by rw [trips_eq]; omega⟩, ⟨j.val % 8, Nat.mod_lt _ (by decide)⟩)
  left_inv kr := by
    have := kr.2.isLt
    refine Prod.ext (Fin.ext ?_) (Fin.ext ?_)
    · show (8 * kr.1.val + kr.2.val) / 8 = kr.1.val; omega
    · show (8 * kr.1.val + kr.2.val) % 8 = kr.2.val; omega
  right_inv j := by
    refine Fin.ext ?_
    show 8 * (j.val / 8) + j.val % 8 = j.val; omega

/-- The read share of the table dealt to a cell: the token numbered by the cell's row. -/
def tok (kr : Cell) : PosShare TreeShare := Transfers.shareTokN fullShare (8 * kr.1.val + kr.2.val)

/-- The table held whole is a remainder and one read share per cell, and back. -/
theorem table_toks (c : Dev nD) (ft : Buf (Elt F) (hbM.view.loc (c : Thread nD τ))) :
    (hbM.view.loc (c : Thread nD τ) ↦{fullShare} ft : sProp 𝕄)
      ⊣⊢ iprop((hbM.view.loc (c : Thread nD τ) ↦[hbM.view.set]{Transfers.shareDrop fullShare 512} ft)
          ∗ bigSep Finset.univ fun kr : Cell => hbM.view.loc (c : Thread nD τ) ↦[hbM.view.set]{tok kr} ft) := by
  have hset : (hbM.view.set : Finset _) = Finset.univ := (Memref.isWhole_whole main_arg1).set_eq_univ
  have e : bigSep Finset.univ (fun kr : Cell => (hbM.view.loc (c : Thread nD τ) ↦[Finset.univ]{tok kr} ft : sProp 𝕄))
      = bigSep Finset.univ (fun i : Fin 512 =>
          hbM.view.loc (c : Thread nD τ) ↦[Finset.univ]{Transfers.shareTok fullShare 512 i} ft) :=
    (BI.bigSep_univ_equiv cellEquiv (fun i : Fin 512 =>
      (hbM.view.loc (c : Thread nD τ) ↦[Finset.univ]{Transfers.shareTok fullShare 512 i} ft : sProp 𝕄))).symm
  rw [hset, e]
  exact Transfers.pointsTo_toks fullShare 512

/-- Where cell r of trip k's row starts, in closed form. -/
private theorem off1row_eq (k : Fin k0_t1_loop.trips) (r : Fin 8) : off1row k r = ![8 * k.val + r.val, 0] := by
  match r with
  | ⟨0, _⟩ => exact k0_off3_eq k
  | ⟨1, _⟩ => exact k0_off7_eq k
  | ⟨2, _⟩ => exact k0_off11_eq k
  | ⟨3, _⟩ => exact k0_off15_eq k
  | ⟨4, _⟩ => exact k0_off19_eq k
  | ⟨5, _⟩ => exact k0_off23_eq k
  | ⟨6, _⟩ => exact k0_off27_eq k
  | ⟨7, _⟩ => exact k0_off31_eq k

/-- The rectangle of the block that is a cell's row. -/
private abbrev rowRect (kr : Cell) : Rect S512x64 :=
  Rect.unit (s := S512x64) (off1row kr.1 kr.2) S1x64.size (off1row_inb kr.1 kr.2)

/-- An entry of the block lies in cell (k, r)'s row exactly when its row coordinate is 8k + r. -/
private theorem mem_rowRect (kr : Cell) (i : S512x64.Idx) :
    i ∈ (rowRect kr).set ↔ (i 0).val = 8 * kr.1.val + kr.2.val := by
  rw [Rect.mem_set_unit, off1row_eq]
  have h1 : (i 1).val < 64 := (i 1).isLt
  constructor
  · intro h
    have h0 := h (0 : Fin 2)
    change 8 * kr.1.val + kr.2.val ≤ (i 0).val ∧ (i 0).val < 8 * kr.1.val + kr.2.val + 1 at h0
    omega
  · intro h a
    match a with
    | ⟨0, _⟩ =>
      show 8 * kr.1.val + kr.2.val ≤ (i 0).val ∧ (i 0).val < 8 * kr.1.val + kr.2.val + 1
      omega
    | ⟨1, _⟩ =>
      show 0 ≤ (i 1).val ∧ (i 1).val < 0 + 64
      omega

/-- Different cells' rows share no entry. -/
private theorem rowRect_disjoint (kr kr' : Cell) (h : kr ≠ kr') : Disjoint (rowRect kr).set (rowRect kr').set := by
  rw [Finset.disjoint_left]
  intro i hi hi'
  rw [mem_rowRect] at hi hi'
  exact h (cellEquiv.injective (Fin.ext (hi.symm.trans hi')))

/-- Every entry of the block is in the row of the cell its row coordinate names. -/
private theorem mem_rowRect_cell (i : S512x64.Idx) : i ∈ (rowRect (cellEquiv.symm (i 0))).set :=
  (mem_rowRect _ i).mpr (congrArg Fin.val (cellEquiv.apply_symm_apply (i 0))).symm

/-- A cell's row as elements of the block's buffer: its rectangle's entries, placed by the block's view. -/
private abbrev rowSet (arg3 : Memref sig .tc .vmem S512x64 .f32) (kr : Cell) : Finset arg3.view.ty.Idx :=
  (arg3.view.slice (rowRect kr)).set

private theorem rowSet_eq (arg3 : Memref sig .tc .vmem S512x64 .f32) (kr : Cell) :
    rowSet arg3 kr = (rowRect kr).set.map arg3.view.emb := View.set_slice _ _

private theorem rows_disjoint (arg3 : Memref sig .tc .vmem S512x64 .f32) :
    ∀ kr ∈ (Finset.univ : Finset Cell), ∀ kr' ∈ (Finset.univ : Finset Cell), kr ≠ kr' →
      Disjoint (rowSet arg3 kr) (rowSet arg3 kr') := by
  intro kr _ kr' _ h
  rw [rowSet_eq, rowSet_eq, Finset.disjoint_map]
  exact rowRect_disjoint kr kr' h

private theorem rows_cover (arg3 : Memref sig .tc .vmem S512x64 .f32) :
    arg3.view.set = Finset.univ.biUnion (rowSet arg3) := by
  ext j
  rw [Finset.mem_biUnion]
  constructor
  · intro hj
    have hj' : j ∈ Finset.univ.map arg3.view.emb := hj
    obtain ⟨i, -, rfl⟩ := Finset.mem_map.mp hj'
    refine ⟨cellEquiv.symm (i 0), Finset.mem_univ _, ?_⟩
    rw [rowSet_eq]
    exact Finset.mem_map_of_mem _ (mem_rowRect_cell i)
  · rintro ⟨kr, -, hj⟩
    exact View.set_slice_subset _ _ hj

/-- A whole output block is its 512 rows. -/
theorem rows_split (c : Dev nD) (arg3 : Memref sig .tc .vmem S512x64 .f32) (harg3 : arg3.IsWhole)
    (fd : Buf (Elt F) (arg3.view.loc (c : Thread nD τ))) :
    (arg3.view.loc (c : Thread nD τ) ↦[arg3.view.set]{fullShare} fd : sProp 𝕄)
      = bigSep Finset.univ fun kr : Cell => arg3.view.loc (c : Thread nD τ) ↦[(row1 arg3 kr.1 kr.2).view.set]{fullShare} fd := by
  show (arg3.view.loc (c : Thread nD τ) ↦[arg3.view.set]{fullShare} fd : sProp 𝕄)
    = bigSep Finset.univ fun kr : Cell => arg3.view.loc (c : Thread nD τ) ↦[rowSet arg3 kr]{fullShare} fd
  rw [rows_cover arg3]
  exact pointsTo_biUnion _ _ (rows_disjoint arg3)

/-- The 512 rows, each at contents of its own, are the whole block at contents agreeing with each row's on that row. -/
theorem rows_join (c : Dev nD) (arg3 : Memref sig .tc .vmem S512x64 .f32) (harg3 : arg3.IsWhole)
    (g : Cell → Buf (Elt F) (arg3.view.loc (c : Thread nD τ))) :
    bigSep Finset.univ (fun kr : Cell => (arg3.view.loc (c : Thread nD τ) ↦[(row1 arg3 kr.1 kr.2).view.set]{fullShare} g kr : sProp 𝕄))
      ⊢ iprop(∃ gf : Buf (Elt F) (arg3.view.loc (c : Thread nD τ)),
          ⌜∀ kr : Cell, ∀ i ∈ (row1 arg3 kr.1 kr.2).view.set, gf i = g kr i⌝
          ∗ arg3.view.loc (c : Thread nD τ) ↦[arg3.view.set]{fullShare} gf) := by
  show bigSep Finset.univ (fun kr : Cell => (arg3.view.loc (c : Thread nD τ) ↦[rowSet arg3 kr]{fullShare} g kr : sProp 𝕄))
    ⊢ iprop(∃ gf : Buf (Elt F) (arg3.view.loc (c : Thread nD τ)),
        ⌜∀ kr : Cell, ∀ i ∈ rowSet arg3 kr, gf i = g kr i⌝
        ∗ arg3.view.loc (c : Thread nD τ) ↦[arg3.view.set]{fullShare} gf)
  rw [rows_cover arg3]
  refine (pointsTo_biUnion_join Finset.univ (rowSet arg3) g (g (cellEquiv.symm 0)) (rows_disjoint arg3)).trans ?_
  iintro ⟨%gf, %hg, H⟩
  iexists gf
  isplitr
  · ipureintro
    intro kr i hi
    exact hg kr (Finset.mem_univ _) i hi
  · iexact H

/-- Reading the whole block at an entry of row 8k + r sees only that row's contents. -/
theorem read_row (c : Dev nD) (arg3 : Memref sig .tc .vmem S512x64 .f32) (harg3 : arg3.IsWhole)
    (gf g : Buf (Elt F) (arg3.view.loc (c : Thread nD τ))) (kr : Cell)
    (h : ∀ i ∈ (row1 arg3 kr.1 kr.2).view.set, gf i = g i) (d : Fin 64) :
    arg3.view.read (Elt F) gf (ix2 (n0 := 512) (n1 := 64) ⟨8 * kr.1.val + kr.2.val, cell_lt kr⟩ d)
      = arg3.view.read (Elt F) g (ix2 (n0 := 512) (n1 := 64) ⟨8 * kr.1.val + kr.2.val, cell_lt kr⟩ d) := by
  have hmem : arg3.view.emb (ix2 (n0 := 512) (n1 := 64) ⟨8 * kr.1.val + kr.2.val, cell_lt kr⟩ d) ∈ rowSet arg3 kr := by
    rw [rowSet_eq]
    exact Finset.mem_map_of_mem _ ((mem_rowRect kr _).mpr rfl)
  rw [View.read_apply, View.read_apply]
  exact congrArg _ (h _ hmem)

/-- Every row number below 512 is some cell's. -/
theorem cell_of_row (j : Fin 512) : ∃ kr : Cell, 8 * kr.1.val + kr.2.val = j.val :=
  ⟨cellEquiv.symm j, congrArg Fin.val (cellEquiv.apply_symm_apply j)⟩

/-- What each member of a finite family holds at some value, the family holds at one choice of values. -/
theorem bigSep_choice {I : Type} [DecidableEq I] {α : I → Type} [∀ i, Nonempty (α i)] (s : Finset I)
    (Φ : (i : I) → α i → sProp 𝕄) :
    bigSep s (fun i => iprop(∃ a, Φ i a)) ⊢ iprop(∃ a : (i : I) → α i, bigSep s fun i => Φ i (a i)) :=
  BI.bigSep_exists_pi s Φ

/-- The waiting loop names cell r of trip k's semaphore as the issuing loop does. -/
theorem sem12 (arg4 : DmaSems sig S512) (k : Fin k0_t1_loop.trips) (r : Fin 8) : sem1 arg4 k r = sem2 arg4 k r := by
  have h : off1sem k r = off2sem k r := by
    match r with
    | ⟨0, _⟩ => exact (k0_off2_eq k).trans (k0_off34_eq k).symm
    | ⟨1, _⟩ => exact (k0_off6_eq k).trans (k0_off38_eq k).symm
    | ⟨2, _⟩ => exact (k0_off10_eq k).trans (k0_off42_eq k).symm
    | ⟨3, _⟩ => exact (k0_off14_eq k).trans (k0_off46_eq k).symm
    | ⟨4, _⟩ => exact (k0_off18_eq k).trans (k0_off50_eq k).symm
    | ⟨5, _⟩ => exact (k0_off22_eq k).trans (k0_off54_eq k).symm
    | ⟨6, _⟩ => exact (k0_off26_eq k).trans (k0_off58_eq k).symm
    | ⟨7, _⟩ => exact (k0_off30_eq k).trans (k0_off62_eq k).symm
  unfold sem1 sem2
  rw [SemArray.slice_unit_congr arg4 h (off1sem_inb k r) (off2sem_inb k r)]

end Cert.Kernel.Body

end
-- ==== Proof.BBody.lean ====
/-
  The gather's body at one grid point. The first loop starts the 512 row copies, eight a trip; the second waits for
  them, eight a trip. Between the loops every cell's copy is in flight; after the second every row of the block holds
  the table's row named by its id, the semaphores are back at zero and the table is whole again.
-/
import proofs.«412992_j76828374991717_2_alg».proof.Proof.BData
import proofs.«412992_j76828374991717_2_alg».proof.Proof.BTrip1
import proofs.«412992_j76828374991717_2_alg».proof.Proof.BTrip2
import proofs.«412992_j76828374991717_2_alg».proof.Proof.BPlumb
import Idealize.ShloMosaic.Lib.Ring
import Idealize.ShloMosaic.Lib.Transfers
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## Runs of trips -/

/-- The trips from k on are trip k and the trips after it. -/
theorem range_head {N : ℕ} (Φ : Fin N → sProp 𝕄) (k : Fin N) :
    bigSep (Ring.rangeSet N k.val N) Φ = iprop(Φ k ∗ bigSep (Ring.rangeSet N (k.val + 1) N) Φ) :=
  Ring.bigSep_rangeSet_head k.isLt k.isLt

/-- The trips up to and including k are trip k and the trips before it. -/
theorem range_last {N : ℕ} (Φ : Fin N → sProp 𝕄) (k : Fin N) :
    bigSep (Ring.rangeSet N 0 (k.val + 1)) Φ = iprop(Φ k ∗ bigSep (Ring.rangeSet N 0 k.val) Φ) := by
  have h := Ring.bigSep_rangeSet_last (NB := N) (Φ := Φ) (lo := 0) (hi := k.val + 1) (Nat.succ_pos _) (Nat.succ_le_of_lt k.isLt)
  simp only [Nat.add_sub_cancel] at h
  exact h

/-! ## The cells' states -/

section Cells

variable (c : Dev nD) (arg1 : Memref sig .tc .smem S512 .i32) (arg3 : Memref sig .tc .vmem S512x64 .f32)
  (fx : Buf (Elt F) (arg1.view.loc (c : Thread nD τ))) (ft : Buf (Elt F) (hbM.view.loc (c : Thread nD τ)))
  (hx : ∀ n : Fin 512, (arg1.view.read (Elt F) fx (ix1 n) : BitVec 32).toNat < 2600000)

/-- Cell r of trip k before its copy is started: its row of the block at the block's entry contents, its semaphore at
    zero, its read share of the table. -/
abbrev todo (fd0 : Buf (Elt F) (arg3.view.loc (c : Thread nD τ))) (k : Fin k0_t1_loop.trips) (r : Fin 8) : sProp 𝕄 :=
  iprop((arg3.view.loc (c : Thread nD τ) ↦[(row1 arg3 k r).view.set]{fullShare} fd0)
          ∗ semVal ((c : Thread nD τ), SemLoc.dma (sem1 cc0_scratch0 k r).sem) 0
          ∗ (hbM.view.loc (c : Thread nD τ) ↦[hbM.view.set]{tok (k, r)} ft))

/-- The cell while its copy is in flight: the flight delivers the row holding the table's row named by the cell's id
    and the part of the read share it lent; the rest of the share is kept beside it. -/
abbrev issued (k : Fin k0_t1_loop.trips) (r : Fin 8) : sProp 𝕄 :=
  iprop(∃ (g : Buf (Elt F) (arg3.view.loc (c : Thread nD τ))) (Ss : Finset (Idx (hbM.view.loc (c : Thread nD τ)))),
                ⌜Ss ⊆ hbM.view.set ∧ ∀ d : Fin 64,
                    arg3.view.read (Elt F) g (ix2 (n0 := 512) (n1 := 64) ⟨8 * k.val + r.val, cell_lt1 k r⟩ d)
                      = hbM.view.read (Elt F) ft (ix2 (n0 := 2600000) (n1 := 64)
                          ⟨(arg1.view.read (Elt F) fx (ix1 (n := 512) ⟨8 * k.val + r.val, cell_lt1 k r⟩) : BitVec 32).toNat, hx _⟩ d)⌝
                ∗ Transfers.Flight countersEmb (c : Thread nD τ) (SemLoc.dma (sem1 cc0_scratch0 k r).sem) default 128
                    iprop((arg3.view.loc (c : Thread nD τ) ↦[(row1 arg3 k r).view.set]{fullShare} g) ∗ (hbM.view.loc (c : Thread nD τ) ↦[Ss]{tok (k, r)} ft))
                ∗ (hbM.view.loc (c : Thread nD τ) ↦[hbM.view.set \ Ss]{tok (k, r)} ft))

/-- Before trip n of the issuing loop: the ids block, the cells of the trips before n in flight, the others not yet
    started. -/
def inv1 (fd0 : Buf (Elt F) (arg3.view.loc (c : Thread nD τ))) (n : ℕ) (_ : Unit) : sProp 𝕄 :=
  iprop((arg1.view.loc (c : Thread nD τ) ↦[arg1.view.set]{fullShare} fx)
    ∗ bigSep (Ring.rangeSet k0_t1_loop.trips 0 n) (fun k => bigSep Finset.univ (fun r : Fin 8 => issued c arg1 arg3 fx ft hx k r))
    ∗ bigSep (Ring.rangeSet k0_t1_loop.trips n k0_t1_loop.trips) (fun k => bigSep Finset.univ (fun r : Fin 8 => todo c arg3 ft fd0 k r)))

/-- One trip of the issuing loop keeps that. -/
theorem step1 (i : grid0.Coords) (harg1 : arg1.IsWhole) (harg3 : arg3.IsWhole)
    (fd0 : Buf (Elt F) (arg3.view.loc (c : Thread nD τ))) (k : Fin k0_t1_loop.trips) (acc : Unit) :
    inv1 c arg1 arg3 fx ft hx fd0 k.val acc
      ⊢ wp frame (wpE (defs₀ (F := F)) Variants.none c none) Set.univ
          (k0_t1_body (F := F) i arg1 harg1 hbM (Memref.isWhole_whole _) arg3 harg3 cc0_scratch0 k acc)
          (inv1 c arg1 arg3 fx ft hx fd0 (k.val + 1)) := by
  unfold inv1
  rw [range_head _ k]
  simp only [range_last _ k]
  iintro ⟨HX, Hiss, Hk, Hrest⟩
  iapply (wp_wand_r frame (wpE (defs₀ (F := F)) Variants.none c none) Set.univ)
  isplitl [HX Hk]
  · iapply (trip1 c i arg1 harg1 hbM (Memref.isWhole_whole _) arg3 harg3 cc0_scratch0 k fx ft hx (fun _ => fd0) (fun r => tok (k, r)))
    isplitl [HX]; · iexact HX
    iexact Hk
  · iintro %a ⟨HX, Hk⟩
    isplitl [HX]; · iexact HX
    isplitl [Hk Hiss]
    · isplitl [Hk]; · iexact Hk
      iexact Hiss
    iexact Hrest

/-- Cell r of trip k with its copy in flight, what the copy delivers named: its row at G and the part SS of its read
    share. The semaphore is named as the waiting loop names it. -/
abbrev flying (G : Cell → Buf (Elt F) (arg3.view.loc (c : Thread nD τ))) (SS : Cell → Finset (Idx (hbM.view.loc (c : Thread nD τ))))
    (k : Fin k0_t2_loop.trips) (r : Fin 8) : sProp 𝕄 :=
  Transfers.Flight countersEmb (c : Thread nD τ) (SemLoc.dma (sem2 cc0_scratch0 k r).sem) default 128
          iprop((arg3.view.loc (c : Thread nD τ) ↦[(row1 arg3 k r).view.set]{fullShare} G (k, r)) ∗ (hbM.view.loc (c : Thread nD τ) ↦[SS (k, r)]{tok (k, r)} ft))

/-- The cell once its copy has been waited for: the delivery, and the semaphore at zero. -/
abbrev landed (G : Cell → Buf (Elt F) (arg3.view.loc (c : Thread nD τ))) (SS : Cell → Finset (Idx (hbM.view.loc (c : Thread nD τ))))
    (k : Fin k0_t2_loop.trips) (r : Fin 8) : sProp 𝕄 :=
  iprop((arg3.view.loc (c : Thread nD τ) ↦[(row1 arg3 k r).view.set]{fullShare} G (k, r))
                ∗ (hbM.view.loc (c : Thread nD τ) ↦[SS (k, r)]{tok (k, r)} ft)
                ∗ semVal ((c : Thread nD τ), SemLoc.dma (sem2 cc0_scratch0 k r).sem) 0)

/-- Before trip n of the waiting loop: the ids block, the core's record of waits, the cells of the trips before n
    landed, the others still in flight. -/
def inv2 (G : Cell → Buf (Elt F) (arg3.view.loc (c : Thread nD τ))) (SS : Cell → Finset (Idx (hbM.view.loc (c : Thread nD τ))))
    (n : ℕ) (_ : Unit) : sProp 𝕄 :=
  iprop((arg1.view.loc (c : Thread nD τ) ↦[arg1.view.set]{fullShare} fx) ∗ (∃ W', owes (c : Thread nD τ) 0 W')
    ∗ bigSep (Ring.rangeSet k0_t2_loop.trips 0 n) (fun k => bigSep Finset.univ (fun r : Fin 8 => landed c arg3 ft G SS k r))
    ∗ bigSep (Ring.rangeSet k0_t2_loop.trips n k0_t2_loop.trips) (fun k => bigSep Finset.univ (fun r : Fin 8 => flying c arg3 ft G SS k r)))

include hx in
/-- One trip of the waiting loop keeps that. -/
theorem step2 (i : grid0.Coords) (harg1 : arg1.IsWhole) (harg3 : arg3.IsWhole)
    (G : Cell → Buf (Elt F) (arg3.view.loc (c : Thread nD τ))) (SS : Cell → Finset (Idx (hbM.view.loc (c : Thread nD τ))))
    (k : Fin k0_t2_loop.trips) (acc : Unit) :
    inv2 c arg1 arg3 fx ft G SS k.val acc
      ⊢ wp frame (wpE (defs₀ (F := F)) Variants.none c none) Set.univ
          (k0_t2_body (F := F) i arg1 harg1 hbM (Memref.isWhole_whole _) arg3 harg3 cc0_scratch0 k acc)
          (inv2 c arg1 arg3 fx ft G SS (k.val + 1)) := by
  unfold inv2
  rw [range_head _ k]
  simp only [range_last _ k]
  iintro ⟨HX, ⟨%W, HW⟩, Hland, Hk, Hrest⟩
  iapply (wp_wand_r frame (wpE (defs₀ (F := F)) Variants.none c none) Set.univ)
  isplitl [HX HW Hk]
  · iapply (trip2 c i arg1 harg1 hbM (Memref.isWhole_whole _) arg3 harg3 cc0_scratch0 k fx ft hx
      (fun r => (row1 arg3 k r).view.set) (fun r => SS (k, r)) (fun r => G (k, r)) (fun r => tok (k, r)) W)
    isplitl [HX]; · iexact HX
    isplitl [HW]; · iexact HW
    iexact Hk
  · iintro %a ⟨HX, HW, Hk⟩
    isplitl [HX]; · iexact HX
    isplitl [HW]; · iexact HW
    isplitl [Hk Hland]
    · isplitl [Hk]; · iexact Hk
      iexact Hland
    iexact Hrest

/-- The value a delivered row holds: entry d of row 8k + r of the block is entry d of the table's row named by id 8k + r. -/
abbrev rowHolds (kr : Cell) (g : Buf (Elt F) (arg3.view.loc (c : Thread nD τ))) : Prop :=
  ∀ d : Fin 64,
                    arg3.view.read (Elt F) g (ix2 (n0 := 512) (n1 := 64) ⟨8 * kr.1.val + kr.2.val, cell_lt1 kr.1 kr.2⟩ d)
                      = hbM.view.read (Elt F) ft (ix2 (n0 := 2600000) (n1 := 64)
                          ⟨(arg1.view.read (Elt F) fx (ix1 (n := 512) ⟨8 * kr.1.val + kr.2.val, cell_lt1 kr.1 kr.2⟩) : BitVec 32).toNat, hx _⟩ d)

/-- A cell's copy in flight, the semaphore named as the issuing loop names it. -/
abbrev flight1 (kr : Cell) (g : Buf (Elt F) (arg3.view.loc (c : Thread nD τ))) (Ss : Finset (Idx (hbM.view.loc (c : Thread nD τ)))) : sProp 𝕄 :=
  Transfers.Flight countersEmb (c : Thread nD τ) (SemLoc.dma (sem1 cc0_scratch0 kr.1 kr.2).sem) default 128
                    iprop((arg3.view.loc (c : Thread nD τ) ↦[(row1 arg3 kr.1 kr.2).view.set]{fullShare} g) ∗ (hbM.view.loc (c : Thread nD τ) ↦[Ss]{tok kr} ft))

/-- The part of a cell's read share its copy did not borrow. -/
abbrev rest1 (kr : Cell) (Ss : Finset (Idx (hbM.view.loc (c : Thread nD τ)))) : sProp 𝕄 :=
  hbM.view.loc (c : Thread nD τ) ↦[hbM.view.set \ Ss]{tok kr} ft

/-- After the issuing loop every cell's copy is in flight, and what the copies deliver can be named for all cells at
    once. -/
theorem mid (fd0 : Buf (Elt F) (arg3.view.loc (c : Thread nD τ))) :
    inv1 c arg1 arg3 fx ft hx fd0 k0_t1_loop.trips ()
      ⊢ iprop(∃ (G : Cell → Buf (Elt F) (arg3.view.loc (c : Thread nD τ))) (SS : Cell → Finset (Idx (hbM.view.loc (c : Thread nD τ)))),
          ⌜∀ kr : Cell, SS kr ⊆ hbM.view.set ∧ rowHolds c arg1 arg3 fx ft hx kr (G kr)⌝
          ∗ (arg1.view.loc (c : Thread nD τ) ↦[arg1.view.set]{fullShare} fx)
          ∗ bigSep Finset.univ (fun kr : Cell => flight1 c arg3 ft kr (G kr) (SS kr))
          ∗ bigSep Finset.univ (fun kr : Cell => rest1 c ft kr (SS kr))) := by
  unfold inv1
  rw [Ring.rangeSet_univ, Ring.bigSep_rangeSet_empty (le_refl _),
    ← bigSep_univ_prod (fun kr : Cell => issued c arg1 arg3 fx ft hx kr.1 kr.2)]
  iintro ⟨HX, Hiss, -⟩
  ihave H := (bigSep_exists_pi (Finset.univ : Finset Cell)
    (fun (kr : Cell) (g : Buf (Elt F) (arg3.view.loc (c : Thread nD τ))) =>
      (iprop(∃ Ss : Finset (Idx (hbM.view.loc (c : Thread nD τ))),
        ⌜Ss ⊆ hbM.view.set ∧ rowHolds c arg1 arg3 fx ft hx kr g⌝ ∗ flight1 c arg3 ft kr g Ss ∗ rest1 c ft kr Ss) : sProp 𝕄))) $$ Hiss
  icases H with ⟨%G, H⟩
  ihave H := (bigSep_exists_pi (Finset.univ : Finset Cell)
    (fun (kr : Cell) (Ss : Finset (Idx (hbM.view.loc (c : Thread nD τ)))) =>
      (iprop(⌜Ss ⊆ hbM.view.set ∧ rowHolds c arg1 arg3 fx ft hx kr (G kr)⌝ ∗ flight1 c arg3 ft kr (G kr) Ss ∗ rest1 c ft kr Ss) : sProp 𝕄))) $$ H
  icases H with ⟨%SS, H⟩
  ihave H := (bigSep_pure_sep (Finset.univ : Finset Cell)
    (fun kr : Cell => SS kr ⊆ hbM.view.set ∧ rowHolds c arg1 arg3 fx ft hx kr (G kr))
    (fun kr : Cell => (iprop(flight1 c arg3 ft kr (G kr) (SS kr) ∗ rest1 c ft kr (SS kr)) : sProp 𝕄))) $$ H
  icases H with ⟨%hP, H⟩
  have e : bigSep (Finset.univ : Finset Cell) (fun kr : Cell => (iprop(flight1 c arg3 ft kr (G kr) (SS kr) ∗ rest1 c ft kr (SS kr)) : sProp 𝕄))
      = iprop(bigSep (Finset.univ : Finset Cell) (fun kr : Cell => flight1 c arg3 ft kr (G kr) (SS kr))
          ∗ bigSep (Finset.univ : Finset Cell) (fun kr : Cell => rest1 c ft kr (SS kr))) := bigSep_sep _ _ _
  ihave H := (Entails.of_eq e) $$ H
  icases H with ⟨HF, HR⟩
  iexists G, SS
  isplitr
  · ipureintro; exact fun kr => hP kr (Finset.mem_univ _)
  isplitl [HX]; · iexact HX
  isplitl [HF]; · iexact HF
  iexact HR

/-- After the waiting loop: the ids block, a record of waits, the whole output block at contents that agree with each
    cell's delivered row on that row, every semaphore at zero, and every cell's read share of the table whole again. -/
theorem fin (harg3 : arg3.IsWhole)
    (G : Cell → Buf (Elt F) (arg3.view.loc (c : Thread nD τ))) (SS : Cell → Finset (Idx (hbM.view.loc (c : Thread nD τ))))
    (hP : ∀ kr : Cell, SS kr ⊆ hbM.view.set) :
    iprop(inv2 c arg1 arg3 fx ft G SS k0_t2_loop.trips () ∗ bigSep Finset.univ (fun kr : Cell => rest1 c ft kr (SS kr)))
      ⊢ iprop((arg1.view.loc (c : Thread nD τ) ↦[arg1.view.set]{fullShare} fx) ∗ (∃ W', owes (c : Thread nD τ) 0 W')
          ∗ (∃ gf : Buf (Elt F) (arg3.view.loc (c : Thread nD τ)),
              ⌜∀ kr : Cell, ∀ i ∈ (row1 arg3 kr.1 kr.2).view.set, gf i = G kr i⌝
              ∗ arg3.view.loc (c : Thread nD τ) ↦[arg3.view.set]{fullShare} gf)
          ∗ bigSep Finset.univ (fun kr : Cell => semVal ((c : Thread nD τ), osem kr) 0)
          ∗ bigSep Finset.univ (fun kr : Cell => hbM.view.loc (c : Thread nD τ) ↦[hbM.view.set]{tok kr} ft)) := by
  unfold inv2
  rw [Ring.rangeSet_univ, Ring.bigSep_rangeSet_empty (le_refl _),
    ← bigSep_univ_prod (fun kr : Cell => landed c arg3 ft G SS kr.1 kr.2)]
  iintro ⟨⟨HX, HW, Hl, -⟩, HR⟩
  have e1 : bigSep (Finset.univ : Finset Cell) (fun kr : Cell => landed c arg3 ft G SS kr.1 kr.2)
      = iprop(bigSep (Finset.univ : Finset Cell) (fun kr : Cell => (arg3.view.loc (c : Thread nD τ) ↦[(row1 arg3 kr.1 kr.2).view.set]{fullShare} G kr : sProp 𝕄))
          ∗ bigSep (Finset.univ : Finset Cell) (fun kr : Cell => (iprop((hbM.view.loc (c : Thread nD τ) ↦[SS kr]{tok kr} ft)
              ∗ semVal ((c : Thread nD τ), SemLoc.dma (sem2 cc0_scratch0 kr.1 kr.2).sem) 0) : sProp 𝕄))) := bigSep_sep _ _ _
  have e2 : bigSep (Finset.univ : Finset Cell) (fun kr : Cell => (iprop((hbM.view.loc (c : Thread nD τ) ↦[SS kr]{tok kr} ft)
              ∗ semVal ((c : Thread nD τ), SemLoc.dma (sem2 cc0_scratch0 kr.1 kr.2).sem) 0) : sProp 𝕄))
      = iprop(bigSep (Finset.univ : Finset Cell) (fun kr : Cell => (hbM.view.loc (c : Thread nD τ) ↦[SS kr]{tok kr} ft : sProp 𝕄))
          ∗ bigSep (Finset.univ : Finset Cell) (fun kr : Cell => (semVal ((c : Thread nD τ), SemLoc.dma (sem2 cc0_scratch0 kr.1 kr.2).sem) 0 : sProp 𝕄))) := bigSep_sep _ _ _
  have e3 : iprop(bigSep (Finset.univ : Finset Cell) (fun kr : Cell => (hbM.view.loc (c : Thread nD τ) ↦[SS kr]{tok kr} ft : sProp 𝕄))
          ∗ bigSep (Finset.univ : Finset Cell) (fun kr : Cell => rest1 c ft kr (SS kr)))
      = bigSep (Finset.univ : Finset Cell) (fun kr : Cell => (iprop((hbM.view.loc (c : Thread nD τ) ↦[SS kr]{tok kr} ft) ∗ rest1 c ft kr (SS kr)) : sProp 𝕄)) :=
    (bigSep_sep _ _ _).symm
  have e4 : bigSep (Finset.univ : Finset Cell) (fun kr : Cell => (semVal ((c : Thread nD τ), SemLoc.dma (sem2 cc0_scratch0 kr.1 kr.2).sem) 0 : sProp 𝕄))
      = bigSep (Finset.univ : Finset Cell) (fun kr : Cell => semVal ((c : Thread nD τ), osem kr) 0) :=
    bigSep_congr fun kr _ => by rw [← sem12]
  ihave Hl := (Entails.of_eq e1) $$ Hl
  icases Hl with ⟨HA, HBC⟩
  ihave HBC := (Entails.of_eq e2) $$ HBC
  icases HBC with ⟨HB, HC⟩
  isplitl [HX]; · iexact HX
  isplitl [HW]; · iexact HW
  isplitl [HA]; · iapply (rows_join c arg3 harg3 G) $$ HA
  isplitl [HC]; · iapply (Entails.of_eq e4) $$ HC
  ihave H := (Entails.of_eq e3) $$ [HB HR]
  · isplitl [HB]; · iexact HB
    iexact HR
  have e5 : bigSep (Finset.univ : Finset Cell) (fun kr : Cell => (iprop((hbM.view.loc (c : Thread nD τ) ↦[SS kr]{tok kr} ft) ∗ rest1 c ft kr (SS kr)) : sProp 𝕄))
      ⊢ bigSep (Finset.univ : Finset Cell) (fun kr : Cell => (hbM.view.loc (c : Thread nD τ) ↦[hbM.view.set]{tok kr} ft : sProp 𝕄)) :=
    bigSep_mono fun kr _ => (pointsTo_split_subset (hP kr)).2
  iapply e5 $$ H

end Cells

/-! ## The whole body -/

/-- The block the cells leave, read whole: row j is the table's row named by id j. -/
theorem block_value (c : Dev nD) (arg1 : Memref sig .tc .smem S512 .i32) (arg3 : Memref sig .tc .vmem S512x64 .f32) (harg3 : arg3.IsWhole)
    (fx : Buf (Elt F) (arg1.view.loc (c : Thread nD τ))) (ft : Buf (Elt F) (hbM.view.loc (c : Thread nD τ)))
    (hx : ∀ n : Fin 512, (arg1.view.read (Elt F) fx (ix1 n) : BitVec 32).toNat < 2600000)
    (G : Cell → Buf (Elt F) (arg3.view.loc (c : Thread nD τ))) (gf : Buf (Elt F) (arg3.view.loc (c : Thread nD τ)))
    (hgf : ∀ kr : Cell, ∀ i ∈ (row1 arg3 kr.1 kr.2).view.set, gf i = G kr i)
    (hG : ∀ kr : Cell, rowHolds c arg1 arg3 fx ft hx kr (G kr)) :
    arg3.view.read (Elt F) gf = gblk (arg1.view.read (Elt F) fx) (hbM.view.read (Elt F) ft) := by
  funext y
  obtain ⟨p, q, rfl⟩ : ∃ (p : Fin 512) (q : Fin 64), y = ix2 p q := ⟨y 0, y 1, eq_ix2 y⟩
  obtain ⟨kr, hkr⟩ := cell_of_row p
  obtain rfl : p = ⟨8 * kr.1.val + kr.2.val, cell_lt kr⟩ := Fin.ext hkr.symm
  rw [read_row c arg3 harg3 gf (G kr) kr (hgf kr) q]
  refine (hG kr q).trans ?_
  unfold gblk
  refine congrArg (hbM.view.read (Elt F) ft) (congrArg (fun a => ix2 (n0 := 2600000) (n1 := 64) a q) (Fin.ext ?_))
  exact (Cert.Spec.rowFin_val_of_lt (hx _)).symm

/-- The body at one grid point. Holding the ids block (every id a row of the table), the output block at anything, its
    512 semaphores at zero, the table whole and the core's record of waits, it runs to the end holding the ids block as
    it was, the output block at the gathered rows, the semaphores at zero, the table whole, and a record of waits. -/
theorem kernelRun (c : Dev nD) (i : grid0.Coords) (arg1 : Memref sig .tc .smem S512 .i32) (harg1 : arg1.IsWhole)
    (arg3 : Memref sig .tc .vmem S512x64 .f32) (harg3 : arg3.IsWhole)
    (x0 : Vec F S512 .i32) (hx0 : ∀ n : Fin 512, (x0 (ix1 n) : BitVec 32).toNat < 2600000)
    (ft : Buf (Elt F) (hbM.view.loc (c : Thread nD τ))) (W : Waits sig Unit) (K : PUnit → sProp 𝕄) :
    (iprop(owns (c : Thread nD τ) arg1 fullShare x0 ∗ (∃ d, owns (c : Thread nD τ) arg3 fullShare d)
        ∗ (bigSep Finset.univ fun kr : Cell => semVal ((c : Thread nD τ), osem kr) 0)
        ∗ (hbM.view.loc (c : Thread nD τ) ↦{fullShare} ft) ∗ owes (c : Thread nD τ) 0 W
        ∗ (iprop(owns (c : Thread nD τ) arg1 fullShare x0 ∗ owns (c : Thread nD τ) arg3 fullShare (gblk x0 (hbM.view.read (Elt F) ft))
            ∗ (bigSep Finset.univ fun kr : Cell => semVal ((c : Thread nD τ), osem kr) 0)
            ∗ (hbM.view.loc (c : Thread nD τ) ↦{fullShare} ft) ∗ (∃ W', owes (c : Thread nD τ) 0 W')) -∗ K ⟨⟩)) : sProp 𝕄)
      ⊢ wp frame (wpE (defs₀ (F := F)) Variants.none c none) Set.univ
          (cc0__gather_kernel (F := F) i arg1 harg1 hbM (Memref.isWhole_whole _) arg3 harg3 cc0_scratch0) K := by
  simp only [cc0__gather_kernel_eq_skeleton]; unfold cc0__gather_kernel_skel
  unfold owns
  iintro ⟨⟨%fx, %hfx, HX⟩, ⟨%d, %fd0, -, HD⟩, Hsem, HT, HW, HK⟩
  have hx : ∀ n : Fin 512, (arg1.view.read (Elt F) fx (ix1 n) : BitVec 32).toNat < 2600000 := by rw [hfx]; exact hx0
  -- the block as its rows, the table as read shares: one of each per cell
  ihave HD := (Entails.of_eq (rows_split c arg3 harg3 fd0)) $$ HD
  ihave HT := (table_toks c ft).1 $$ HT
  icases HT with ⟨Hdrop, Htoks⟩
  have ea : bigSep (Finset.univ : Finset Cell) (fun kr : Cell => (iprop(semVal ((c : Thread nD τ), osem kr) 0
          ∗ (hbM.view.loc (c : Thread nD τ) ↦[hbM.view.set]{tok kr} ft)) : sProp 𝕄))
      = iprop(bigSep (Finset.univ : Finset Cell) (fun kr : Cell => (semVal ((c : Thread nD τ), osem kr) 0 : sProp 𝕄))
          ∗ bigSep (Finset.univ : Finset Cell) (fun kr : Cell => (hbM.view.loc (c : Thread nD τ) ↦[hbM.view.set]{tok kr} ft : sProp 𝕄))) := bigSep_sep _ _ _
  have eb : bigSep (Finset.univ : Finset Cell) (fun kr : Cell => todo c arg3 ft fd0 kr.1 kr.2)
      = iprop(bigSep (Finset.univ : Finset Cell) (fun kr : Cell => (arg3.view.loc (c : Thread nD τ) ↦[(row1 arg3 kr.1 kr.2).view.set]{fullShare} fd0 : sProp 𝕄))
          ∗ bigSep (Finset.univ : Finset Cell) (fun kr : Cell => (iprop(semVal ((c : Thread nD τ), osem kr) 0
              ∗ (hbM.view.loc (c : Thread nD τ) ↦[hbM.view.set]{tok kr} ft)) : sProp 𝕄))) := bigSep_sep _ _ _
  have ec : bigSep (Finset.univ : Finset Cell) (fun kr : Cell => todo c arg3 ft fd0 kr.1 kr.2)
      = bigSep Finset.univ (fun k : Fin k0_t1_loop.trips => bigSep Finset.univ (fun r : Fin 8 => todo c arg3 ft fd0 k r)) :=
    bigSep_univ_prod (fun kr : Cell => todo c arg3 ft fd0 kr.1 kr.2)
  ihave H1 := (Entails.of_eq ea.symm) $$ [Hsem Htoks]
  · isplitl [Hsem]; · iexact Hsem
    iexact Htoks
  ihave H2 := (Entails.of_eq eb.symm) $$ [HD H1]
  · isplitl [HD]; · iexact HD
    iexact H1
  ihave Htodo := (Entails.of_eq ec) $$ H2
  -- the issuing loop
  iapply (Scf.wp_for_bind frame (wpE (defs₀ (F := F)) Variants.none c none) Set.univ k0_t1_loop.lb k0_t1_loop.ub k0_t1_loop.st
    Facts₀.k0_t1_ok () (k0_t1_body (F := F) i arg1 harg1 hbM (Memref.isWhole_whole _) arg3 harg3 cc0_scratch0)
    (inv1 c arg1 arg3 fx ft hx fd0) (fun k acc => step1 c arg1 arg3 fx ft hx i harg1 harg3 fd0 k acc)) $$ [HX Htodo]
  · unfold inv1
    rw [Ring.bigSep_rangeSet_empty (le_refl _), Ring.rangeSet_univ]
    isplitl [HX]; · iexact HX
    isplitr; · iempintro
    iexact Htodo
  iintro %acc HI
  ihave HM := (mid c arg1 arg3 fx ft hx fd0) $$ HI
  icases HM with ⟨%G, %SS, %hP, HX, HF, HR⟩
  -- the flights, named as the waiting loop names their semaphores
  have e1 : bigSep (Finset.univ : Finset Cell) (fun kr : Cell => flight1 c arg3 ft kr (G kr) (SS kr))
      = bigSep Finset.univ (fun k : Fin k0_t2_loop.trips => bigSep Finset.univ (fun r : Fin 8 => flying c arg3 ft G SS k r)) := by
    rw [← bigSep_univ_prod (fun kr : Cell => flying c arg3 ft G SS kr.1 kr.2)]
    exact bigSep_congr fun kr _ => by unfold flight1 flying; rw [sem12]
  ihave HF := (Entails.of_eq e1) $$ HF
  -- the waiting loop
  iapply (Scf.wp_for_bind frame (wpE (defs₀ (F := F)) Variants.none c none) Set.univ k0_t2_loop.lb k0_t2_loop.ub k0_t2_loop.st
    Facts₀.k0_t2_ok () (k0_t2_body (F := F) i arg1 harg1 hbM (Memref.isWhole_whole _) arg3 harg3 cc0_scratch0)
    (inv2 c arg1 arg3 fx ft G SS) (fun k acc => step2 c arg1 arg3 fx ft hx i harg1 harg3 G SS k acc)) $$ [HX HW HF]
  · unfold inv2
    rw [Ring.bigSep_rangeSet_empty (le_refl _), Ring.rangeSet_univ]
    isplitl [HX]; · iexact HX
    isplitl [HW]; · iexists W; iexact HW
    isplitr; · iempintro
    iexact HF
  iintro %acc2 HI
  ihave HE := (fin c arg1 arg3 fx ft harg3 G SS (fun kr => (hP kr).1)) $$ [HI HR]
  · isplitl [HI]; · iexact HI
    iexact HR
  icases HE with ⟨HX, HW, ⟨%gf, %hgf, HD⟩, Hsem, Htoks⟩
  rw [wp_pure]
  imodintro
  iapply HK
  isplitl [HX]
  · iexists fx; isplitr; · ipureintro; exact hfx
    iexact HX
  isplitl [HD]
  · iexists gf; isplitr
    · ipureintro
      rw [← hfx]
      exact block_value c arg1 arg3 harg3 fx ft hx G gf hgf (fun kr => (hP kr).2)
    iexact HD
  isplitl [Hsem]; · iexact Hsem
  isplitl [Hdrop Htoks]
  · iapply (table_toks c ft).2
    isplitl [Hdrop]; · iexact Hdrop
    iexact Htoks
  iexact HW

end Cert.Kernel.Body

end
-- ==== Proof.BHost.lean ====
/-
  The ids the kernel is handed. @main adds each slot's offset to the ids, flattens them, and clamps every word into
  [0, 2599999] before the region; so whatever the inputs, every word of every ids block is a row of the table, and
  where the unclamped word already is one, the clamp leaves it alone.
-/
import proofs.«412992_j76828374991717_2_alg».proof.Proof.BData
import Idealize.ShloMosaic.Lib.StableHlo.Run
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The clamp on one word -/

/-- A word clamped into [0, 2599999], read signed, lies there. -/
theorem clamp_bounds (x : BitVec 32) :
    0 ≤ (IntOp.minsi 2599999#32 (IntOp.maxsi 0#32 x)).toInt
      ∧ (IntOp.minsi 2599999#32 (IntOp.maxsi 0#32 x)).toInt < 2600000 := by
  have hc : (2599999#32).toInt = 2599999 := by decide
  have hz : (0#32).toInt = 0 := by decide
  unfold IntOp.minsi IntOp.maxsi
  by_cases h1 : x.slt 0#32 = true
  · rw [if_pos h1]
    have h2 : ¬ (2599999#32).slt 0#32 = true := by decide
    rw [if_neg h2, hz]; omega
  · rw [if_neg h1]
    have h1' : ¬ x.toInt < (0#32).toInt := fun h => h1 (BitVec.slt_iff_toInt_lt.mpr h)
    by_cases h2 : (2599999#32).slt x = true
    · rw [if_pos h2, hc]; omega
    · rw [if_neg h2]
      have h2' : ¬ (2599999#32).toInt < x.toInt := fun h => h2 (BitVec.slt_iff_toInt_lt.mpr h)
      omega

/-- A word already in [0, 2600000) is left alone by the clamp. -/
theorem clamp_id (x : BitVec 32) (h0 : 0 ≤ x.toInt) (h1 : x.toInt < 2600000) :
    IntOp.minsi 2599999#32 (IntOp.maxsi 0#32 x) = x := by
  have hc : (2599999#32).toInt = 2599999 := by decide
  have hz : (0#32).toInt = 0 := by decide
  unfold IntOp.minsi IntOp.maxsi
  have a1 : ¬ x.slt 0#32 = true := fun h => by have := BitVec.slt_iff_toInt_lt.mp h; omega
  rw [if_neg a1]
  have a2 : ¬ (2599999#32).slt x = true := fun h => by have := BitVec.slt_iff_toInt_lt.mp h; omega
  rw [if_neg a2]

/-! ## The ids array the region finds -/

/-- The array the ids window stages, as the host operations before the region leave it: the row words (each id
    plus its slot's offset), flattened to one axis, each clamped into [0, 2599999]. -/
theorem v7_eq (c : Dev nD) :
    (V m c main_v7 : S425984.Idx → BitVec 32)
      = minsi (broadcastInDim S425984 ![] Gen.bcast_S_S425984 (constantI S_ 32 2599999#32))
          (maxsi (broadcastInDim S425984 ![] Gen.bcast_S_S425984 (constantI S_ 32 0#32))
            (shapeCast S425984 (Cert.Spec.gids Gen.bcast_S_S26 Gen.bcast_S26_S1x26_1 Gen.bcast_S1x26_S16384x26_0_1
              (V m c main_arg0)) Gen.shapeCasts_S16384x26_S425984)) := by
  dsimp only [Gen.V, Gen.V0]
  simp only [Gen.hostOps0, Gen.hostOps0_1, List.flatten_cons, List.flatten_nil, List.append_nil, List.cons_append,
    List.nil_append]
  after_results
  rfl

/-- Where every lookup's row word is in range, word 26 b + s of the ids array is the row word of lookup (b, s): the
    clamp leaves it alone, and the flattening puts lookup (b, s) at position 26 b + s. -/
theorem v7_apply (c : Dev nD)
    (hr : Cert.Spec.InRange (Cert.Spec.gids Gen.bcast_S_S26 Gen.bcast_S26_S1x26_1 Gen.bcast_S1x26_S16384x26_0_1 (m ((c.tc : Thread nD τ).loc main_arg0))))
    (n : Fin 425984) (b : Fin 16384) (s : Fin 26) (hn : n.val = 26 * b.val + s.val) :
    (V m c main_v7 : S425984.Idx → BitVec 32) (ix1 (n := 425984) n)
      = Cert.Spec.gids Gen.bcast_S_S26 Gen.bcast_S26_S1x26_1 Gen.bcast_S1x26_S16384x26_0_1 (m ((c.tc : Thread nD τ).loc main_arg0))
          (ix2 (n0 := 16384) (n1 := 26) b s) := by
  rw [v7_eq, V_main_arg0]
  show IntOp.minsi 2599999#32 (IntOp.maxsi 0#32 (shapeCast S425984 _ Gen.shapeCasts_S16384x26_S425984
    (ix1 (n := 425984) n))) = _
  rw [shapeCast_apply _ _ (ix1 (n := 425984) n) (ix2 (n0 := 16384) (n1 := 26) b s)
    (by rw [Shape.rowMajor_val_two, Shape.rowMajor_val_one]
        show b.val * 26 + s.val = n.val
        omega)]
  exact clamp_id _ (hr _).1 (hr _).2

/-! ## A block's word in the array -/

/-- Point t stages block t of the ids array. -/
theorem idx0 : ∀ t : Fin cfg0.N, win0_0.index t (0 : Fin 1) = t.val :=
  (by decide +kernel : ∀ t : Fin grid0.N, win0_0.index t (0 : Fin 1) = t.val)

/-- Word y of the ids block at point t is word 512 t + y of the array. -/
theorem iblk0_apply (c : Dev nD) (t : Fin cfg0.N) (y : S512.Idx) (k : S425984.Idx)
    (hk : (k 0).val = 512 * t.val + (y 0).val) :
    (iblk m c 0 t : Vec F S512 .i32) y = (V m c main_v7 : S425984.Idx → BitVec 32) k := by
  unfold iblk
  rw [View.read_apply]
  show V m c main_v7 _ = V m c main_v7 k
  congr 1
  funext a
  apply Fin.ext
  match a with
  | ⟨0, _⟩ =>
    show win0_0.index t (0 : Fin 1) * 512 + 1 * (y 0).val = (k 0).val
    rw [idx0 t, hk]; omega

/-! ## The two facts about a block's words -/

/-- Every word of every ids block names a row of the table (the host clamp), for any inputs. -/
theorem ids_lt (c : Dev nD) (t : Fin cfg0.N) (j : Fin 512) :
    ((iblk m c 0 t : Vec F S512 .i32) (ix1 (n := 512) j) : BitVec 32).toNat < 2600000 := by
  have ht : t.val < 832 := lt_of_lt_of_eq t.isLt N_0
  have e := iblk0_apply m c t (ix1 (n := 512) j) (ix1 (n := 425984) ⟨512 * t.val + j.val, by omega⟩) rfl
  rw [e, v7_eq]
  exact (Cert.Spec.toNat_of_inRange (clamp_bounds _).1 (clamp_bounds _).2).1

/-- Where every lookup's row word is in range, word j of block t is the row word of lookup number 512 t + j (lookup n
    is batch n / 26, slot n % 26). -/
theorem ids_eq (c : Dev nD)
    (hr : Cert.Spec.InRange (Cert.Spec.gids Gen.bcast_S_S26 Gen.bcast_S26_S1x26_1 Gen.bcast_S1x26_S16384x26_0_1 (m ((c.tc : Thread nD τ).loc main_arg0))))
    (t : Fin cfg0.N) (j : Fin 512) (hn : (512 * t.val + j.val) / 26 < 16384) :
    ((iblk m c 0 t : Vec F S512 .i32) (ix1 (n := 512) j) : BitVec 32)
      = Cert.Spec.gids Gen.bcast_S_S26 Gen.bcast_S26_S1x26_1 Gen.bcast_S1x26_S16384x26_0_1 (m ((c.tc : Thread nD τ).loc main_arg0))
          (ix2 (n0 := 16384) (n1 := 26) ⟨(512 * t.val + j.val) / 26, hn⟩ ⟨(512 * t.val + j.val) % 26, Nat.mod_lt _ (by decide)⟩) := by
  have ht : t.val < 832 := lt_of_lt_of_eq t.isLt N_0
  exact (iblk0_apply m c t (ix1 (n := 512) j) (ix1 (n := 425984) ⟨512 * t.val + j.val, by omega⟩) rfl).trans
    (v7_apply m c hr ⟨512 * t.val + j.val, by omega⟩ ⟨(512 * t.val + j.val) / 26, hn⟩
      ⟨(512 * t.val + j.val) % 26, Nat.mod_lt _ (by decide)⟩
      (by show 512 * t.val + j.val = 26 * ((512 * t.val + j.val) / 26) + (512 * t.val + j.val) % 26; omega))

end Cert.Kernel.Body

end
-- ==== Proof.BLaunch.lean ====
/-
  The launch of the gather's pipeline: its 512 own semaphores are scoped, distinct and no window's; @main around the
  region at the algebra with transfer counters; the body's invariant conjunct by conjunct; the frame run from the
  body obligation; and the frame claim's post from the run's.
-/
import proofs.«412992_j76828374991717_2_alg».proof.Proof.BData
import proofs.«412992_j76828374991717_2_alg».proof.Proof.Gen.Kernel.Launch
import proofs.«412992_j76828374991717_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- Cell r of trip k has the pool's semaphore 4 + 8k + r: the array starts at cell 4 and cell r of trip k is its entry
    8k + r. -/
private theorem sem1_val : ∀ (k : Fin k0_t1_loop.trips) (r : Fin 8),
    (sem1 cc0_scratch0 k r).sem.val = 4 + 8 * k.val + r.val := by
  decide +kernel

/-- Every DMA semaphore of the TensorCore's pool is scoped. -/
private theorem dma_scoped : ∀ n : DmaSem sig, (SemLoc.dma n : SemLoc sig).isScoped .tc = true := by decide +kernel

/-- The windows' staging semaphores are the pool's first four. -/
private theorem win_sem_lt : ∀ (w : Fin 2) (s : Fin (spec0 w).nbuf), ((spec0 w).sem s).val < 4 := by decide

/-- The kernel's 512 semaphores are scoped, pairwise distinct, and none is a window's staging semaphore. -/
theorem ownSemFacts : Pipeline.OwnSemFacts spec0 osem := by
  refine ⟨fun kr => dma_scoped _, ?_, ?_⟩
  · -- 8k + r determines k and r, r being below 8
    rintro ⟨k, r⟩ ⟨k', r'⟩ h
    have hv : (sem1 cc0_scratch0 k r).sem.val = (sem1 cc0_scratch0 k' r').sem.val :=
      congrArg Fin.val (SemLoc.dma.inj h)
    rw [sem1_val, sem1_val] at hv
    have hr := r.isLt
    have hr' := r'.isLt
    have hk : k = k' := Fin.ext (by omega)
    have hrr : r = r' := Fin.ext (by omega)
    rw [hk, hrr]
  · -- a window's semaphore is below 4, the kernel's are from 4 on
    intro kr w s h
    have hv : (sem1 cc0_scratch0 kr.1 kr.2).sem.val = ((spec0 w).sem s).val := congrArg Fin.val (SemLoc.dma.inj h)
    rw [sem1_val] at hv
    have := win_sem_lt w s
    omega

/-- The table is unscoped and no window's array. -/
theorem H0_sub : H0 ⊆ Pipeline.restRefs sig spec0 := by
  intro b hb
  rw [H0, Finset.mem_singleton] at hb
  subst hb
  exact Pipeline.mem_restRefs_of main_arg1 (by decide) (by decide)

/-- @main around the region, at the algebra with transfer counters: the host lines before it, the region, the reshape
    after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) := by
  exact Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- The body's invariant, conjunct by conjunct: no scoped buffer besides the staging buffers, the generator register at
    some state, the 512 semaphores at zero, the table whole at its contents at the region's entry. -/
theorem PhiD_eq (c : Dev nD) :
    (Pipeline.ΦD osem spec0 H0 (V m) c : sProp 𝕄)
      = iprop((BI.emp : sProp 𝕄) ∗ (∃ r, prngReg c r)
          ∗ (bigSep Finset.univ fun kr : Fin k0_t1_loop.trips × Fin 8 => semVal ((c : Thread nD τ), osem kr) 0)
          ∗ (hbM.view.loc (c : Thread nD τ) ↦{fullShare} V m c main_arg1)) := by
  -- no scoped buffer besides the staging buffers; the moved operands are the table alone
  rw [Pipeline.ΦD_eq, scopedRest0_eq, H0, BI.bigSep_singleton]
  rfl

/-- The reshape after the region touches the output array and its own result, not the table. -/
private theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut Pipeline.Prefetch.none spec0 H0 op
    ((List.forall_iff_forall_mem.mp hostOps1_sub) op hop) (fun k => k.elim0) ?_
  intro b hb
  rw [H0, Finset.mem_singleton] at hb
  subst hb
  simp only [hostOps1, List.mem_cons, List.mem_nil_iff, or_false] at hop
  subst hop
  rw [StableHlo.reshape_bufs]
  simp only [Finset.mem_insert, Finset.mem_singleton, not_or]
  exact ⟨StableHlo.devRef_ne_of_ne (by decide), StableHlo.devRef_ne_of_ne (by decide)⟩

/-- The frame run: from the body obligation, every weakly fair execution of @main terminates with every array of the
    pipeline at what the proof data compute and every other unscoped buffer at the region-entry contents pushed
    through the reshape after the region. -/
theorem run_main (hbody : ∀ c, BodyObligation (dats (F := F) m 0 c) (defs₀ (F := F)) Variants.none () Set.univ) :
    θ_run defs (onTc (τ := τ) (main (F := F))) (s₀ m ρ)
      (Pipeline.FramePost cfgs (dats m) 0 (Pipeline.afterTail₀ cfgs (dats m) 0 (V0 m) [hostOps1])) := by
  exact Pipeline.θ_run_frame_dma_around cfgs (dats m) (0 : Fin 1) launch0 osem defs₀ Variants.none ownSemFacts H0 H0_sub m ρ main
    (hbody := fun c => (hbody c).loose) (hshare := fun c => (dats m 0 c).share_full fun _ => rfl)
    (howed := fun _ _ => rfl) (V₀ := V0 m) (opss := [hostOps1]) (hsub := tail_sub) (hfresh := sfx_fresh)
    (hkeep := sfx_keeps) (hmain := hmainD m Variants.none) (hA := A_eq m)
    (hin := fun _ => .rfl) (hout := fun _ => .rfl)

/-- The reshape after the region writes neither argument array, and neither is an array of the pipeline: each ends at
    its region-entry contents, which are its launch contents. -/
theorem tail_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.reshape_writes,
        Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem tail_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.Forall, StableHlo.reshape_writes,
        Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- The frame claim's post from the frame run's: the two argument arrays end as launched. -/
theorem frame_of_run
    (h : θ_run defs (onTc (τ := τ) (main (F := F))) (s₀ m ρ)
      (Pipeline.FramePost cfgs (dats m) 0 (Pipeline.afterTail₀ cfgs (dats m) 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
  exact (θ_run defs _ _).mono (fun _ h c =>
    ⟨((h c).2 main_arg0 (Pipeline.mem_restRefs_of main_arg0 (by decide) (by decide))).trans (tail_arg0 m c),
      ((h c).2 main_arg1 (Pipeline.mem_restRefs_of main_arg1 (by decide) (by decide))).trans (tail_arg1 m c)⟩) h

end Cert.Kernel.Body

end
-- ==== Proof.BFrame.lean ====
/-
  The gather's frame. At every grid point the pipeline hands the body the ids window's block and the output window's
  buffer; the body's run (the two loops) returns the block untouched and the buffer at the gathered rows, its
  semaphores at zero and the table whole: the body obligation. The launch then gives the run of @main, and the run
  gives the frame claim: the two argument arrays end as launched.
-/
import proofs.«412992_j76828374991717_2_alg».proof.Proof.BBody
import proofs.«412992_j76828374991717_2_alg».proof.Proof.BHost
import proofs.«412992_j76828374991717_2_alg».proof.Proof.BLaunch

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The ids window's current buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the invariant hands it its semaphores at zero and the table, the ids window holds its block
    (every id a row of the table: the host clamp), and the run returns everything as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl, after0_0, after0_1]
  rw [show (dats m 0 c).Φ t.castSucc = Pipeline.ΦD osem spec0 H0 (V m) c from rfl, PhiD_eq]
  unfold Dat.owesAt Pipeline.owesWithin
  rw [show (dats m 0 c).owed t.castSucc = 0 from rfl, show (dats m 0 c).owed t.succ = 0 from rfl]
  iintro ⟨⟨-, Hg, Hsem, HT⟩, ⟨%W, -, HW⟩, ⟨%d0, H0⟩, ⟨%d1, H1⟩⟩
  iapply (kernelRun c (grid0.coords t) (ms0_0 t) (hs0_0 t) (ms0_1 t) (hs0_1 t) (iblk m c 0 t) (ids_lt m c t) (V m c main_arg1) W _)
  isplitl [H0]; · iexact H0
  isplitl [H1]; · iexists _; iexact H1
  isplitl [Hsem]; · iexact Hsem
  isplitl [HT]; · iexact HT
  isplitl [HW]; · iexact HW
  iintro ⟨H0, H1, Hsem, HT, ⟨%W', HW'⟩⟩
  isplitl [Hg Hsem HT]
  · isplitr; · iempintro
    isplitl [Hg]; · iexact Hg
    isplitl [Hsem]; · iexact Hsem
    iexact HT
  isplitl [HW']
  · iexists W'; isplitr; · ipureintro; exact fun _ _ => Or.inl trivial
    iexact HW'
  isplitl [H0]; · iexact H0
  simp only [hbM, Memref.view_whole, View.read_whole]
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- The run of @main: it terminates, nothing faults, and the final state is the frame run's post. -/
theorem run : θ_run defs (onTc (τ := τ) (main (F := F))) (s₀ m ρ)
    (Pipeline.FramePost cfgs (dats m) 0 (Pipeline.afterTail₀ cfgs (dats m) 0 (V0 m) [hostOps1])) :=
  run_main m ρ (body_obligation m)

/-- The frame: the two argument arrays end as launched, for any memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (run m ρ)

end Cert.Kernel.Body

end
-- ==== Proof.KCells.lean ====
/-
  The cells of one grid point: 512 rows of the output block, one DMA semaphore and one row copy each, eight to a
  loop trip. Cell r of trip k is row 8k + r; both loops walk the same cells, the first starting each copy, the
  second waiting for it. The rows and semaphores are named here as the program slices them, per loop.
-/
import proofs.«412992_j76828374991717_2_alg».proof.Proof.Gen.KernelIdeal
import proofs.«412992_j76828374991717_2_alg».proof.Proof.Gen.KernelIdeal.Skeleton

noncomputable section

namespace Cert.KernelIdeal.Body

open Cert.KernelIdeal Cert.KernelIdeal.Gen
open Idealize.ShloMosaic Idealize.ShloMosaic.TcCoe

/-- The issuing loop: where cell r of trip k's row starts in the block; -/
def off1row (k : Fin k0_t1_loop.trips) : Fin 8 → Fin 2 → Nat
  | ⟨0, _⟩ => k0_off3 k
  | ⟨1, _⟩ => k0_off7 k
  | ⟨2, _⟩ => k0_off11 k
  | ⟨3, _⟩ => k0_off15 k
  | ⟨4, _⟩ => k0_off19 k
  | ⟨5, _⟩ => k0_off23 k
  | ⟨6, _⟩ => k0_off27 k
  | ⟨7, _⟩ => k0_off31 k
  | ⟨_ + 8, h⟩ => absurd h (Nat.not_lt.2 (Nat.le_add_left _ _))

theorem off1row_inb (k : Fin k0_t1_loop.trips) : ∀ (r : Fin 8) a, off1row k r a + S1x64.size a ≤ S512x64.size a
  | ⟨0, _⟩ => Facts₀.k0_off3_inb k
  | ⟨1, _⟩ => Facts₀.k0_off7_inb k
  | ⟨2, _⟩ => Facts₀.k0_off11_inb k
  | ⟨3, _⟩ => Facts₀.k0_off15_inb k
  | ⟨4, _⟩ => Facts₀.k0_off19_inb k
  | ⟨5, _⟩ => Facts₀.k0_off23_inb k
  | ⟨6, _⟩ => Facts₀.k0_off27_inb k
  | ⟨7, _⟩ => Facts₀.k0_off31_inb k
  | ⟨_ + 8, h⟩ => absurd h (Nat.not_lt.2 (Nat.le_add_left _ _))

/-- and which semaphore is its own. -/
def off1sem (k : Fin k0_t1_loop.trips) : Fin 8 → Fin 1 → Nat
  | ⟨0, _⟩ => k0_off2 k
  | ⟨1, _⟩ => k0_off6 k
  | ⟨2, _⟩ => k0_off10 k
  | ⟨3, _⟩ => k0_off14 k
  | ⟨4, _⟩ => k0_off18 k
  | ⟨5, _⟩ => k0_off22 k
  | ⟨6, _⟩ => k0_off26 k
  | ⟨7, _⟩ => k0_off30 k
  | ⟨_ + 8, h⟩ => absurd h (Nat.not_lt.2 (Nat.le_add_left _ _))

theorem off1sem_inb (k : Fin k0_t1_loop.trips) : ∀ (r : Fin 8) a, off1sem k r a + S1.size a ≤ S512.size a
  | ⟨0, _⟩ => Facts₀.k0_off2_inb k
  | ⟨1, _⟩ => Facts₀.k0_off6_inb k
  | ⟨2, _⟩ => Facts₀.k0_off10_inb k
  | ⟨3, _⟩ => Facts₀.k0_off14_inb k
  | ⟨4, _⟩ => Facts₀.k0_off18_inb k
  | ⟨5, _⟩ => Facts₀.k0_off22_inb k
  | ⟨6, _⟩ => Facts₀.k0_off26_inb k
  | ⟨7, _⟩ => Facts₀.k0_off30_inb k
  | ⟨_ + 8, h⟩ => absurd h (Nat.not_lt.2 (Nat.le_add_left _ _))

/-- The waiting loop: the same row, -/
def off2row (k : Fin k0_t2_loop.trips) : Fin 8 → Fin 2 → Nat
  | ⟨0, _⟩ => k0_off35 k
  | ⟨1, _⟩ => k0_off39 k
  | ⟨2, _⟩ => k0_off43 k
  | ⟨3, _⟩ => k0_off47 k
  | ⟨4, _⟩ => k0_off51 k
  | ⟨5, _⟩ => k0_off55 k
  | ⟨6, _⟩ => k0_off59 k
  | ⟨7, _⟩ => k0_off63 k
  | ⟨_ + 8, h⟩ => absurd h (Nat.not_lt.2 (Nat.le_add_left _ _))

theorem off2row_inb (k : Fin k0_t2_loop.trips) : ∀ (r : Fin 8) a, off2row k r a + S1x64.size a ≤ S512x64.size a
  | ⟨0, _⟩ => Facts₀.k0_off35_inb k
  | ⟨1, _⟩ => Facts₀.k0_off39_inb k
  | ⟨2, _⟩ => Facts₀.k0_off43_inb k
  | ⟨3, _⟩ => Facts₀.k0_off47_inb k
  | ⟨4, _⟩ => Facts₀.k0_off51_inb k
  | ⟨5, _⟩ => Facts₀.k0_off55_inb k
  | ⟨6, _⟩ => Facts₀.k0_off59_inb k
  | ⟨7, _⟩ => Facts₀.k0_off63_inb k
  | ⟨_ + 8, h⟩ => absurd h (Nat.not_lt.2 (Nat.le_add_left _ _))

/-- and the same semaphore, as that loop computes them. -/
def off2sem (k : Fin k0_t2_loop.trips) : Fin 8 → Fin 1 → Nat
  | ⟨0, _⟩ => k0_off34 k
  | ⟨1, _⟩ => k0_off38 k
  | ⟨2, _⟩ => k0_off42 k
  | ⟨3, _⟩ => k0_off46 k
  | ⟨4, _⟩ => k0_off50 k
  | ⟨5, _⟩ => k0_off54 k
  | ⟨6, _⟩ => k0_off58 k
  | ⟨7, _⟩ => k0_off62 k
  | ⟨_ + 8, h⟩ => absurd h (Nat.not_lt.2 (Nat.le_add_left _ _))

theorem off2sem_inb (k : Fin k0_t2_loop.trips) : ∀ (r : Fin 8) a, off2sem k r a + S1.size a ≤ S512.size a
  | ⟨0, _⟩ => Facts₀.k0_off34_inb k
  | ⟨1, _⟩ => Facts₀.k0_off38_inb k
  | ⟨2, _⟩ => Facts₀.k0_off42_inb k
  | ⟨3, _⟩ => Facts₀.k0_off46_inb k
  | ⟨4, _⟩ => Facts₀.k0_off50_inb k
  | ⟨5, _⟩ => Facts₀.k0_off54_inb k
  | ⟨6, _⟩ => Facts₀.k0_off58_inb k
  | ⟨7, _⟩ => Facts₀.k0_off62_inb k
  | ⟨_ + 8, h⟩ => absurd h (Nat.not_lt.2 (Nat.le_add_left _ _))

/-- Cell r of trip k of the issuing loop: the row of the block it fills, -/
def row1 (arg3 : Memref sig .tc .vmem S512x64 .f32) (k : Fin k0_t1_loop.trips) (r : Fin 8) : Memref sig .tc .vmem S1x64 .f32 :=
  arg3.slice (Rect.unit (s := S512x64) (off1row k r) S1x64.size (off1row_inb k r)) (fun _ => rfl)
/-- and its semaphore. -/
def sem1 (arg4 : DmaSems sig S512) (k : Fin k0_t1_loop.trips) (r : Fin 8) : DmaSems sig S_ :=
  (arg4.slice (Rect.unit (s := S512) (off1sem k r) S1.size (off1sem_inb k r))).squeeze S_ Facts₀.squeezes_S1_S_
/-- The same for the waiting loop. -/
def row2 (arg3 : Memref sig .tc .vmem S512x64 .f32) (k : Fin k0_t2_loop.trips) (r : Fin 8) : Memref sig .tc .vmem S1x64 .f32 :=
  arg3.slice (Rect.unit (s := S512x64) (off2row k r) S1x64.size (off2row_inb k r)) (fun _ => rfl)
def sem2 (arg4 : DmaSems sig S512) (k : Fin k0_t2_loop.trips) (r : Fin 8) : DmaSems sig S_ :=
  (arg4.slice (Rect.unit (s := S512) (off2sem k r) S1.size (off2sem_inb k r))).squeeze S_ Facts₀.squeezes_S1_S_

end Cert.KernelIdeal.Body

end
-- ==== Proof.KData.lean ====
/-
  The proof data of the gather's one pipeline. After the body at grid point t the ids window's buffer still
  holds its block, and the output window's buffer holds, in row j, the table's row named by id j of that block.
  The body's invariant: its 512 semaphores at zero and the table whole at its launch contents, the same at
  every point (every copy started at a point is waited for there, and the table is only read).
-/
import proofs.«412992_j76828374991717_2_alg».proof.Proof.KCells
import proofs.«412992_j76828374991717_2_alg».proof.Proof.Spec
import proofs.«412992_j76828374991717_2_alg».proof.Proof.Gen.KernelIdeal.Frame
import Idealize.ShloMosaic.Lib.Pipeline.Frame
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own DMA semaphores, one per cell of a grid point: cell r of trip k. -/
abbrev osem : Fin k0_t1_loop.trips × Fin 8 → SemLoc sig := fun kr => SemLoc.dma (sem1 cc0_scratch0 kr.1 kr.2).sem

/-- The operand the body's copies read: the table, left in HBM. -/
def H0 : Finset (Ref sig .tc) := {main_arg1}

/-- Each window's current staging memref at point t, as the pipeline passes it to the body. -/
abbrev ms0_0 (t : Fin cfg0.N) : Memref sig .tc .smem S512 .i32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S512x64 .f32 := win0_1.stage (cfg0.slots t 1)
abbrev hs0_1 (t : Fin cfg0.N) : (ms0_1 t).IsWhole := Facts₀.hstage0_1 ((cfg0.slots t 1).cast Facts₀.nbuf0_1)
/-- The table, whole. -/
abbrev hbM : Memref sig .tc .hbm S2600000x64 .f32 := Memref.whole main_arg1

/-- The gathered block: row j is the table's row named by id j. -/
def gblk (x0 : Vec F S512 .i32) (tab : Vec F S2600000x64 .f32) : Vec F S512x64 .f32 :=
  fun y => tab (ix2 (n0 := 2600000) (n1 := 64) (Cert.Spec.rowFin (x0 (ix1 (n := 512) (y 0)))) (y 1))

/-- The proof data on core c: the arrays as the region finds them; after the body the ids window at its block and
    the output window at the gathered block; the invariant; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => gblk (iblk m c 0 t) (V m c main_arg1)
  Φ _ := Pipeline.ΦD osem spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = gblk (iblk m c 0 t) (V m c main_arg1) := by
  dsimp only [dats]

end Cert.KernelIdeal.Body

end
-- ==== Proof.Trip1.lean ====
/-
  One trip of the issuing loop: eight cells' row words are read from the ids block and each cell's copy of that
  table row into its row of the output block is started on its own semaphore.
-/
import proofs.«412992_j76828374991717_2_alg».proof.Proof.KCells
import proofs.«412992_j76828374991717_2_alg».proof.Proof.Gen.KernelIdeal.Frame
import proofs.«412992_j76828374991717_2_alg».proof.Proof.Gen.KernelIdeal.Loops
import Idealize.ShloMosaic.Lib.Pipeline.Frame
import Idealize.ShloMosaic.Lib.Transfers
import Idealize.ShloMosaic.Lib.Tactic
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (Pipeline.UD sig nD τ) ℕ

theorem cell_lt1 (k : Fin k0_t1_loop.trips) (r : Fin 8) : 8 * k.val + r.val < 512 := by
  have hk : k.val < 64 := lt_of_lt_of_eq k.isLt (by decide)
  have := r.isLt; omega

namespace Trip1

/-- Row 8k + 0 of the block, as the trip slices it. -/
def cellRow0 (arg3 : Memref sig .tc .vmem S512x64 .f32) (k : Fin k0_t1_loop.trips) : Memref sig .tc .vmem S1x64 .f32 :=
  arg3.slice (Rect.unit (s := S512x64) (k0_off3 k) S1x64.size (k0_off3_inb k)) (fun _ => rfl)
/-- Row 8k + 1 of the block, as the trip slices it. -/
def cellRow1 (arg3 : Memref sig .tc .vmem S512x64 .f32) (k : Fin k0_t1_loop.trips) : Memref sig .tc .vmem S1x64 .f32 :=
  arg3.slice (Rect.unit (s := S512x64) (k0_off7 k) S1x64.size (k0_off7_inb k)) (fun _ => rfl)
/-- Row 8k + 2 of the block, as the trip slices it. -/
def cellRow2 (arg3 : Memref sig .tc .vmem S512x64 .f32) (k : Fin k0_t1_loop.trips) : Memref sig .tc .vmem S1x64 .f32 :=
  arg3.slice (Rect.unit (s := S512x64) (k0_off11 k) S1x64.size (k0_off11_inb k)) (fun _ => rfl)
/-- Row 8k + 3 of the block, as the trip slices it. -/
def cellRow3 (arg3 : Memref sig .tc .vmem S512x64 .f32) (k : Fin k0_t1_loop.trips) : Memref sig .tc .vmem S1x64 .f32 :=
  arg3.slice (Rect.unit (s := S512x64) (k0_off15 k) S1x64.size (k0_off15_inb k)) (fun _ => rfl)
/-- Row 8k + 4 of the block, as the trip slices it. -/
def cellRow4 (arg3 : Memref sig .tc .vmem S512x64 .f32) (k : Fin k0_t1_loop.trips) : Memref sig .tc .vmem S1x64 .f32 :=
  arg3.slice (Rect.unit (s := S512x64) (k0_off19 k) S1x64.size (k0_off19_inb k)) (fun _ => rfl)
/-- Row 8k + 5 of the block, as the trip slices it. -/
def cellRow5 (arg3 : Memref sig .tc .vmem S512x64 .f32) (k : Fin k0_t1_loop.trips) : Memref sig .tc .vmem S1x64 .f32 :=
  arg3.slice (Rect.unit (s := S512x64) (k0_off23 k) S1x64.size (k0_off23_inb k)) (fun _ => rfl)
/-- Row 8k + 6 of the block, as the trip slices it. -/
def cellRow6 (arg3 : Memref sig .tc .vmem S512x64 .f32) (k : Fin k0_t1_loop.trips) : Memref sig .tc .vmem S1x64 .f32 :=
  arg3.slice (Rect.unit (s := S512x64) (k0_off27 k) S1x64.size (k0_off27_inb k)) (fun _ => rfl)
/-- Row 8k + 7 of the block, as the trip slices it. -/
def cellRow7 (arg3 : Memref sig .tc .vmem S512x64 .f32) (k : Fin k0_t1_loop.trips) : Memref sig .tc .vmem S1x64 .f32 :=
  arg3.slice (Rect.unit (s := S512x64) (k0_off31 k) S1x64.size (k0_off31_inb k)) (fun _ => rfl)
/-- Semaphore 8k + 0, as the trip slices it. -/
abbrev cellSem0 (arg4 : DmaSems sig S512) (k : Fin k0_t1_loop.trips) : DmaSems sig S_ :=
  (arg4.slice (Rect.unit (s := S512) (k0_off2 k) S1.size (k0_off2_inb k))).squeeze S_ squeezes_S1_S_
/-- Semaphore 8k + 1, as the trip slices it. -/
abbrev cellSem1 (arg4 : DmaSems sig S512) (k : Fin k0_t1_loop.trips) : DmaSems sig S_ :=
  (arg4.slice (Rect.unit (s := S512) (k0_off6 k) S1.size (k0_off6_inb k))).squeeze S_ squeezes_S1_S_
/-- Semaphore 8k + 2, as the trip slices it. -/
abbrev cellSem2 (arg4 : DmaSems sig S512) (k : Fin k0_t1_loop.trips) : DmaSems sig S_ :=
  (arg4.slice (Rect.unit (s := S512) (k0_off10 k) S1.size (k0_off10_inb k))).squeeze S_ squeezes_S1_S_
/-- Semaphore 8k + 3, as the trip slices it. -/
abbrev cellSem3 (arg4 : DmaSems sig S512) (k : Fin k0_t1_loop.trips) : DmaSems sig S_ :=
  (arg4.slice (Rect.unit (s := S512) (k0_off14 k) S1.size (k0_off14_inb k))).squeeze S_ squeezes_S1_S_
/-- Semaphore 8k + 4, as the trip slices it. -/
abbrev cellSem4 (arg4 : DmaSems sig S512) (k : Fin k0_t1_loop.trips) : DmaSems sig S_ :=
  (arg4.slice (Rect.unit (s := S512) (k0_off18 k) S1.size (k0_off18_inb k))).squeeze S_ squeezes_S1_S_
/-- Semaphore 8k + 5, as the trip slices it. -/
abbrev cellSem5 (arg4 : DmaSems sig S512) (k : Fin k0_t1_loop.trips) : DmaSems sig S_ :=
  (arg4.slice (Rect.unit (s := S512) (k0_off22 k) S1.size (k0_off22_inb k))).squeeze S_ squeezes_S1_S_
/-- Semaphore 8k + 6, as the trip slices it. -/
abbrev cellSem6 (arg4 : DmaSems sig S512) (k : Fin k0_t1_loop.trips) : DmaSems sig S_ :=
  (arg4.slice (Rect.unit (s := S512) (k0_off26 k) S1.size (k0_off26_inb k))).squeeze S_ squeezes_S1_S_
/-- Semaphore 8k + 7, as the trip slices it. -/
abbrev cellSem7 (arg4 : DmaSems sig S512) (k : Fin k0_t1_loop.trips) : DmaSems sig S_ :=
  (arg4.slice (Rect.unit (s := S512) (k0_off30 k) S1.size (k0_off30_inb k))).squeeze S_ squeezes_S1_S_

/-- A conjunction over the eight cells, cell by cell. -/
theorem bigSep_F8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A word read off the ids block at any one-word window is one of its 512 words, so it names a row of the table. -/
theorem word_lt (c : Dev nD) (arg1 : Memref sig .tc .smem S512 .i32) (fx : Buf (Elt F) (arg1.view.loc (c : Thread nD τ)))
    (hx : ∀ n : Fin 512, (arg1.view.read (Elt F) fx (ix1 n) : BitVec 32).toNat < 2600000)
    (off : Fin 1 → Nat) (hoff : ∀ a, off a + S1.size a ≤ S512.size a) (h : 0 < (Rect.unit (s := S512) off S1.size hoff).toLoadRect.shape.numel) :
    (View.readAt (Elt F) arg1.view (Rect.unit (s := S512) off S1.size hoff).toLoadRect fx (Shape.Idx.first h) : BitVec 32).toNat < 2600000 := by
  rw [View.readAt_apply, eq_ix1 ((Rect.unit (s := S512) off S1.size hoff).toLoadRect.idx (Shape.Idx.first h))]
  exact hx _

/-- A word below the table's row count names a one-row window inside the table (cell 0's side condition). -/
theorem chk1_of_lt (w : BitVec 32) (hw : w.toNat < 2600000) : k0_chk1 w := by
  unfold k0_chk1 k0_off4; intro a; fin_cases a <;> simp <;> omega

/-- A word below the table's row count names a one-row window inside the table (cell 1's side condition). -/
theorem chk2_of_lt (w : BitVec 32) (hw : w.toNat < 2600000) : k0_chk2 w := by
  unfold k0_chk2 k0_off8; intro a; fin_cases a <;> simp <;> omega

/-- A word below the table's row count names a one-row window inside the table (cell 2's side condition). -/
theorem chk3_of_lt (w : BitVec 32) (hw : w.toNat < 2600000) : k0_chk3 w := by
  unfold k0_chk3 k0_off12; intro a; fin_cases a <;> simp <;> omega

/-- A word below the table's row count names a one-row window inside the table (cell 3's side condition). -/
theorem chk4_of_lt (w : BitVec 32) (hw : w.toNat < 2600000) : k0_chk4 w := by
  unfold k0_chk4 k0_off16; intro a; fin_cases a <;> simp <;> omega

/-- A word below the table's row count names a one-row window inside the table (cell 4's side condition). -/
theorem chk5_of_lt (w : BitVec 32) (hw : w.toNat < 2600000) : k0_chk5 w := by
  unfold k0_chk5 k0_off20; intro a; fin_cases a <;> simp <;> omega

/-- A word below the table's row count names a one-row window inside the table (cell 5's side condition). -/
theorem chk6_of_lt (w : BitVec 32) (hw : w.toNat < 2600000) : k0_chk6 w := by
  unfold k0_chk6 k0_off24; intro a; fin_cases a <;> simp <;> omega

/-- A word below the table's row count names a one-row window inside the table (cell 6's side condition). -/
theorem chk7_of_lt (w : BitVec 32) (hw : w.toNat < 2600000) : k0_chk7 w := by
  unfold k0_chk7 k0_off28; intro a; fin_cases a <;> simp <;> omega

/-- A word below the table's row count names a one-row window inside the table (cell 7's side condition). -/
theorem chk8_of_lt (w : BitVec 32) (hw : w.toNat < 2600000) : k0_chk8 w := by
  unfold k0_chk8 k0_off32; intro a; fin_cases a <;> simp <;> omega

section RowValue
variable {Val : EltTy → Type} {κ : Kind} {sp : Space} {e : EltTy} {N : Nat}

/-- Column d of a one-row window at row a, its unit axis dropped, is element (a, d) of the array. -/
theorem emb_row (M : Memref sig κ sp ⟨2, ![N, 64]⟩ e) (off : Fin 2 → Nat)
    (hoff : ∀ a, off a + S1x64.size a ≤ (⟨2, ![N, 64]⟩ : Shape).size a)
    (hr : ∀ a, (Rect.unit (s := ⟨2, ![N, 64]⟩) off S1x64.size hoff).stride a = 1) (hq : S1x64.Squeezes S64)
    (a : Fin N) (h0 : off 0 = a.val) (h1 : off 1 = 0) (d : Fin 64) :
    ((M.slice (Rect.unit (s := ⟨2, ![N, 64]⟩) off S1x64.size hoff) hr).squeeze S64 hq).view.emb (ix1 d) = M.view.emb (ix2 a d) := by
  show M.view.emb ((Rect.unit (s := ⟨2, ![N, 64]⟩) off S1x64.size hoff).emb (Shape.reshapeEquiv hq.numel_eq (ix1 d))) = _
  have e1 : Shape.reshapeEquiv hq.numel_eq (ix1 d) = (ix2 (⟨0, Nat.one_pos⟩ : Fin 1) d : S1x64.Idx) :=
    Shape.reshapeEquiv_eq_of_rowMajor _ (by
      rw [Shape.rowMajor_val_two, Shape.rowMajor_val_one]
      show 0 * 64 + d.val = d.val
      rw [Nat.zero_mul, Nat.zero_add])
  rw [e1]
  congr 1
  funext b
  match b with
  | ⟨0, _⟩ => exact Fin.ext (by show off 0 + 1 * 0 = a.val; omega)
  | ⟨1, _⟩ => exact Fin.ext (by show off 1 + 1 * d.val = d.val; omega)

/-- The array read at (a, d) after a payload was written over that window: the payload at d. -/
theorem read_write_row (M : Memref sig κ sp ⟨2, ![N, 64]⟩ e) (off : Fin 2 → Nat)
    (hoff : ∀ a, off a + S1x64.size a ≤ (⟨2, ![N, 64]⟩ : Shape).size a)
    (hr : ∀ a, (Rect.unit (s := ⟨2, ![N, 64]⟩) off S1x64.size hoff).stride a = 1) (hq : S1x64.Squeezes S64)
    (a : Fin N) (h0 : off 0 = a.val) (h1 : off 1 = 0) (d : Fin 64)
    (f : M.view.ty.Contents Val) (w : S64.Idx → Val e) :
    M.view.read Val
        (((M.slice (Rect.unit (s := ⟨2, ![N, 64]⟩) off S1x64.size hoff) hr).squeeze S64 hq).view.write Val f w Finset.univ)
        (ix2 a d) = w (ix1 d) := by
  rw [View.read_apply, ← emb_row M off hoff hr hq a h0 h1 d,
    View.write_emb_of_mem _ _ (Finset.mem_univ _), cast_cast, cast_eq]

/-- The window read at d: the array at (a, d). -/
theorem read_row (M : Memref sig κ sp ⟨2, ![N, 64]⟩ e) (off : Fin 2 → Nat)
    (hoff : ∀ a, off a + S1x64.size a ≤ (⟨2, ![N, 64]⟩ : Shape).size a)
    (hr : ∀ a, (Rect.unit (s := ⟨2, ![N, 64]⟩) off S1x64.size hoff).stride a = 1) (hq : S1x64.Squeezes S64)
    (a : Fin N) (h0 : off 0 = a.val) (h1 : off 1 = 0) (d : Fin 64) (f : M.view.ty.Contents Val) :
    ((M.slice (Rect.unit (s := ⟨2, ![N, 64]⟩) off S1x64.size hoff) hr).squeeze S64 hq).view.read Val f (ix1 d)
      = M.view.read Val f (ix2 a d) := by
  rw [View.read_apply, View.read_apply, emb_row M off hoff hr hq a h0 h1 d]

end RowValue

/-- The value one cell's copy leaves: the block's row n, through the whole block, holds the table's row named by
    word n of the ids, through the whole table. -/
theorem cell_value (c : Dev nD) (arg1 : Memref sig .tc .smem S512 .i32) (arg2 : Memref sig .tc .hbm S2600000x64 .f32)
    (arg3 : Memref sig .tc .vmem S512x64 .f32)
    (fx : Buf (Elt F) (arg1.view.loc (c : Thread nD τ))) (ft : Buf (Elt F) (arg2.view.loc (c : Thread nD τ)))
    (hx : ∀ n : Fin 512, (arg1.view.read (Elt F) fx (ix1 n) : BitVec 32).toNat < 2600000)
    (fd0 : Buf (Elt F) (arg3.view.loc (c : Thread nD τ))) (n : Fin 512)
    (off1 : Fin 1 → Nat) (hoff1 : ∀ a, off1 a + S1.size a ≤ S512.size a)
    (hn1 : 0 < (Rect.unit (s := S512) off1 S1.size hoff1).toLoadRect.shape.numel) (e1 : off1 0 = n.val)
    (off3 : Fin 2 → Nat) (hoff3 : ∀ a, off3 a + S1x64.size a ≤ S512x64.size a)
    (hr3 : ∀ a, (Rect.unit (s := S512x64) off3 S1x64.size hoff3).stride a = 1) (hq3 : S1x64.Squeezes S64)
    (e30 : off3 0 = n.val) (e31 : off3 1 = 0)
    (off4 : Fin 2 → Nat) (hoff4 : ∀ a, off4 a + S1x64.size a ≤ S2600000x64.size a)
    (hr4 : ∀ a, (Rect.unit (s := S2600000x64) off4 S1x64.size hoff4).stride a = 1) (hq4 : S1x64.Squeezes S64)
    (e40 : off4 0 = (View.readAt (Elt F) arg1.view (Rect.unit (s := S512) off1 S1.size hoff1).toLoadRect fx (Shape.Idx.first hn1) : BitVec 32).toNat)
    (e41 : off4 1 = 0) (d : Fin 64) :
    arg3.view.read (Elt F)
        (((arg3.slice (Rect.unit (s := S512x64) off3 S1x64.size hoff3) hr3).squeeze S64 hq3).view.write (Elt F) fd0
          (ReadAs.same.apply (((arg2.slice (Rect.unit (s := S2600000x64) off4 S1x64.size hoff4) hr4).squeeze S64 hq4).view.read (Elt F) ft))
          Finset.univ)
        (ix2 (n0 := 512) (n1 := 64) n d)
      = arg2.view.read (Elt F) ft (ix2 (n0 := 2600000) (n1 := 64) ⟨(arg1.view.read (Elt F) fx (ix1 (n := 512) n) : BitVec 32).toNat, hx n⟩ d) := by
  have hw : View.readAt (Elt F) arg1.view (Rect.unit (s := S512) off1 S1.size hoff1).toLoadRect fx (Shape.Idx.first hn1)
      = arg1.view.read (Elt F) fx (ix1 (n := 512) n) := by
    rw [View.readAt_apply]
    congr 1
    funext b
    match b with
    | ⟨0, _⟩ => exact Fin.ext (by show off1 0 + 1 * 0 = n.val; omega)
  have hlt : (View.readAt (Elt F) arg1.view (Rect.unit (s := S512) off1 S1.size hoff1).toLoadRect fx (Shape.Idx.first hn1) : BitVec 32).toNat < 2600000 := by
    rw [hw]; exact hx n
  rw [read_write_row arg3 off3 hoff3 hr3 hq3 n e30 e31 d]
  show ((arg2.slice (Rect.unit (s := S2600000x64) off4 S1x64.size hoff4) hr4).squeeze S64 hq4).view.read (Elt F) ft (ix1 d) = _
  rw [read_row arg2 off4 hoff4 hr4 hq4 ⟨_, hlt⟩ e40 e41 d]
  congr 2
  exact Fin.ext (congrArg BitVec.toNat hw)

end Trip1

open Trip1

set_option maxHeartbeats 4000000 in
/-- Trip k of the issuing loop: holding the ids block and, per cell, the cell's row of the output block, its
    semaphore at zero and a read share of the table, the trip ends holding the block and, per cell, the copy in
    flight — delivering the row with the table's row named by the cell's id in it (read through the whole
    memrefs: row 8k + r of the block is row ids[8k + r] of the table) and the share's part it lent — beside the
    rest of that share. -/
theorem trip1 (c : Dev nD) (i : grid0.Coords) (arg1 : Memref sig .tc .smem S512 .i32) (harg1 : arg1.IsWhole)
    (arg2 : Memref sig .tc .hbm S2600000x64 .f32) (harg2 : arg2.IsWhole) (arg3 : Memref sig .tc .vmem S512x64 .f32) (harg3 : arg3.IsWhole)
    (arg4 : DmaSems sig S512) (k : Fin k0_t1_loop.trips)
    (fx : Buf (Elt F) (arg1.view.loc (c : Thread nD τ))) (ft : Buf (Elt F) (arg2.view.loc (c : Thread nD τ)))
    (hx : ∀ n : Fin 512, (arg1.view.read (Elt F) fx (ix1 n) : BitVec 32).toNat < 2600000)
    (fd : Fin 8 → Buf (Elt F) (arg3.view.loc (c : Thread nD τ))) (q : Fin 8 → PosShare TreeShare) :
    (iprop((arg1.view.loc (c : Thread nD τ) ↦[arg1.view.set]{fullShare} fx)
      ∗ bigSep Finset.univ (fun r : Fin 8 => iprop((arg3.view.loc (c : Thread nD τ) ↦[(row1 arg3 k r).view.set]{fullShare} fd r)
          ∗ semVal ((c : Thread nD τ), SemLoc.dma (sem1 arg4 k r).sem) 0
          ∗ (arg2.view.loc (c : Thread nD τ) ↦[arg2.view.set]{q r} ft)))) : sProp 𝕄)
      ⊢ wp frame (wpE (defs₀ (F := F)) Variants.none c none) Set.univ (k0_t1_body (F := F) i arg1 harg1 arg2 harg2 arg3 harg3 arg4 k ())
          (fun _ => (iprop((arg1.view.loc (c : Thread nD τ) ↦[arg1.view.set]{fullShare} fx)
            ∗ bigSep Finset.univ (fun r : Fin 8 => iprop(∃ (g : Buf (Elt F) (arg3.view.loc (c : Thread nD τ))) (Ss : Finset (Idx (arg2.view.loc (c : Thread nD τ)))),
                ⌜Ss ⊆ arg2.view.set ∧ ∀ d : Fin 64,
                    arg3.view.read (Elt F) g (ix2 (n0 := 512) (n1 := 64) ⟨8 * k.val + r.val, cell_lt1 k r⟩ d)
                      = arg2.view.read (Elt F) ft (ix2 (n0 := 2600000) (n1 := 64)
                          ⟨(arg1.view.read (Elt F) fx (ix1 (n := 512) ⟨8 * k.val + r.val, cell_lt1 k r⟩) : BitVec 32).toNat, hx _⟩ d)⌝
                ∗ Transfers.Flight countersEmb (c : Thread nD τ) (SemLoc.dma (sem1 arg4 k r).sem) default 128
                    iprop((arg3.view.loc (c : Thread nD τ) ↦[(row1 arg3 k r).view.set]{fullShare} g) ∗ (arg2.view.loc (c : Thread nD τ) ↦[Ss]{q r} ft))
                ∗ (arg2.view.loc (c : Thread nD τ) ↦[arg2.view.set \ Ss]{q r} ft)))) : sProp 𝕄)) := by
  rw [bigSep_F8, bigSep_F8]
  have hc1 := fun off hoff h => chk1_of_lt _ (word_lt (F := F) c arg1 fx hx off hoff h)
  have hc2 := fun off hoff h => chk2_of_lt _ (word_lt (F := F) c arg1 fx hx off hoff h)
  have hc3 := fun off hoff h => chk3_of_lt _ (word_lt (F := F) c arg1 fx hx off hoff h)
  have hc4 := fun off hoff h => chk4_of_lt _ (word_lt (F := F) c arg1 fx hx off hoff h)
  have hc5 := fun off hoff h => chk5_of_lt _ (word_lt (F := F) c arg1 fx hx off hoff h)
  have hc6 := fun off hoff h => chk6_of_lt _ (word_lt (F := F) c arg1 fx hx off hoff h)
  have hc7 := fun off hoff h => chk7_of_lt _ (word_lt (F := F) c arg1 fx hx off hoff h)
  have hc8 := fun off hoff h => chk8_of_lt _ (word_lt (F := F) c arg1 fx hx off hoff h)
  show (iprop((arg1.view.loc (c : Thread nD τ) ↦[arg1.view.set]{fullShare} fx)
      ∗ (((cellRow0 arg3 k).view.loc (c : Thread nD τ) ↦[(cellRow0 arg3 k).view.set]{fullShare} fd 0)
          ∗ semVal ((c : Thread nD τ), SemLoc.dma (cellSem0 arg4 k).sem) 0
          ∗ (arg2.view.loc (c : Thread nD τ) ↦[arg2.view.set]{q 0} ft))
      ∗ (((cellRow1 arg3 k).view.loc (c : Thread nD τ) ↦[(cellRow1 arg3 k).view.set]{fullShare} fd 1)
          ∗ semVal ((c : Thread nD τ), SemLoc.dma (cellSem1 arg4 k).sem) 0
          ∗ (arg2.view.loc (c : Thread nD τ) ↦[arg2.view.set]{q 1} ft))
      ∗ (((cellRow2 arg3 k).view.loc (c : Thread nD τ) ↦[(cellRow2 arg3 k).view.set]{fullShare} fd 2)
          ∗ semVal ((c : Thread nD τ), SemLoc.dma (cellSem2 arg4 k).sem) 0
          ∗ (arg2.view.loc (c : Thread nD τ) ↦[arg2.view.set]{q 2} ft))
      ∗ (((cellRow3 arg3 k).view.loc (c : Thread nD τ) ↦[(cellRow3 arg3 k).view.set]{fullShare} fd 3)
          ∗ semVal ((c : Thread nD τ), SemLoc.dma (cellSem3 arg4 k).sem) 0
          ∗ (arg2.view.loc (c : Thread nD τ) ↦[arg2.view.set]{q 3} ft))
      ∗ (((cellRow4 arg3 k).view.loc (c : Thread nD τ) ↦[(cellRow4 arg3 k).view.set]{fullShare} fd 4)
          ∗ semVal ((c : Thread nD τ), SemLoc.dma (cellSem4 arg4 k).sem) 0
          ∗ (arg2.view.loc (c : Thread nD τ) ↦[arg2.view.set]{q 4} ft))
      ∗ (((cellRow5 arg3 k).view.loc (c : Thread nD τ) ↦[(cellRow5 arg3 k).view.set]{fullShare} fd 5)
          ∗ semVal ((c : Thread nD τ), SemLoc.dma (cellSem5 arg4 k).sem) 0
          ∗ (arg2.view.loc (c : Thread nD τ) ↦[arg2.view.set]{q 5} ft))
      ∗ (((cellRow6 arg3 k).view.loc (c : Thread nD τ) ↦[(cellRow6 arg3 k).view.set]{fullShare} fd 6)
          ∗ semVal ((c : Thread nD τ), SemLoc.dma (cellSem6 arg4 k).sem) 0
          ∗ (arg2.view.loc (c : Thread nD τ) ↦[arg2.view.set]{q 6} ft))
      ∗ (((cellRow7 arg3 k).view.loc (c : Thread nD τ) ↦[(cellRow7 arg3 k).view.set]{fullShare} fd 7)
          ∗ semVal ((c : Thread nD τ), SemLoc.dma (cellSem7 arg4 k).sem) 0
          ∗ (arg2.view.loc (c : Thread nD τ) ↦[arg2.view.set]{q 7} ft))) : sProp 𝕄) ⊢ _
  iintro ⟨HX, ⟨HD0, HS0, HT0⟩, ⟨HD1, HS1, HT1⟩, ⟨HD2, HS2, HT2⟩, ⟨HD3, HS3, HT3⟩, ⟨HD4, HS4, HT4⟩, ⟨HD5, HS5, HT5⟩, ⟨HD6, HS6, HT6⟩, ⟨HD7, HS7, HT7⟩⟩
  unfold k0_t1_body
  simp only [k0_part2_eq_skeleton]; unfold k0_part2_skel
  sl_exec
  sl_step
  iclear HD0 HD1 HD2 HD3 HD4 HD5 HD6 HD7
  simp only [Memref.set_view_squeeze]
  isplitl [HX]
  · iexact HX
  isplitl [HS0 HT0]
  · iexists _, _
    isplitr [HS0 HT0]
    swap
    · isplitl [HS0]
      · iexact HS0
      · iexact HT0
    · ipureintro
      exact ⟨View.set_slice_subset _ _, fun d => cell_value c arg1 arg2 arg3 fx ft hx (fd 0) ⟨8 * k.val + (0 : Fin 8).val, cell_lt1 k 0⟩
        (k0_off1 k) (k0_off1_inb k) _ (by rw [k0_off1_eq]; rfl)
        (k0_off3 k) (k0_off3_inb k) _ _ (by rw [k0_off3_eq]; rfl) (by rw [k0_off3_eq]; rfl)
        (k0_off4 _) _ _ _ rfl rfl d⟩
  isplitl [HS1 HT1]
  · iexists _, _
    isplitr [HS1 HT1]
    swap
    · isplitl [HS1]
      · iexact HS1
      · iexact HT1
    · ipureintro
      exact ⟨View.set_slice_subset _ _, fun d => cell_value c arg1 arg2 arg3 fx ft hx (fd 1) ⟨8 * k.val + (1 : Fin 8).val, cell_lt1 k 1⟩
        (k0_off5 k) (k0_off5_inb k) _ (by rw [k0_off5_eq]; rfl)
        (k0_off7 k) (k0_off7_inb k) _ _ (by rw [k0_off7_eq]; rfl) (by rw [k0_off7_eq]; rfl)
        (k0_off8 _) _ _ _ rfl rfl d⟩
  isplitl [HS2 HT2]
  · iexists _, _
    isplitr [HS2 HT2]
    swap
    · isplitl [HS2]
      · iexact HS2
      · iexact HT2
    · ipureintro
      exact ⟨View.set_slice_subset _ _, fun d => cell_value c arg1 arg2 arg3 fx ft hx (fd 2) ⟨8 * k.val + (2 : Fin 8).val, cell_lt1 k 2⟩
        (k0_off9 k) (k0_off9_inb k) _ (by rw [k0_off9_eq]; rfl)
        (k0_off11 k) (k0_off11_inb k) _ _ (by rw [k0_off11_eq]; rfl) (by rw [k0_off11_eq]; rfl)
        (k0_off12 _) _ _ _ rfl rfl d⟩
  isplitl [HS3 HT3]
  · iexists _, _
    isplitr [HS3 HT3]
    swap
    · isplitl [HS3]
      · iexact HS3
      · iexact HT3
    · ipureintro
      exact ⟨View.set_slice_subset _ _, fun d => cell_value c arg1 arg2 arg3 fx ft hx (fd 3) ⟨8 * k.val + (3 : Fin 8).val, cell_lt1 k 3⟩
        (k0_off13 k) (k0_off13_inb k) _ (by rw [k0_off13_eq]; rfl)
        (k0_off15 k) (k0_off15_inb k) _ _ (by rw [k0_off15_eq]; rfl) (by rw [k0_off15_eq]; rfl)
        (k0_off16 _) _ _ _ rfl rfl d⟩
  isplitl [HS4 HT4]
  · iexists _, _
    isplitr [HS4 HT4]
    swap
    · isplitl [HS4]
      · iexact HS4
      · iexact HT4
    · ipureintro
      exact ⟨View.set_slice_subset _ _, fun d => cell_value c arg1 arg2 arg3 fx ft hx (fd 4) ⟨8 * k.val + (4 : Fin 8).val, cell_lt1 k 4⟩
        (k0_off17 k) (k0_off17_inb k) _ (by rw [k0_off17_eq]; rfl)
        (k0_off19 k) (k0_off19_inb k) _ _ (by rw [k0_off19_eq]; rfl) (by rw [k0_off19_eq]; rfl)
        (k0_off20 _) _ _ _ rfl rfl d⟩
  isplitl [HS5 HT5]
  · iexists _, _
    isplitr [HS5 HT5]
    swap
    · isplitl [HS5]
      · iexact HS5
      · iexact HT5
    · ipureintro
      exact ⟨View.set_slice_subset _ _, fun d => cell_value c arg1 arg2 arg3 fx ft hx (fd 5) ⟨8 * k.val + (5 : Fin 8).val, cell_lt1 k 5⟩
        (k0_off21 k) (k0_off21_inb k) _ (by rw [k0_off21_eq]; rfl)
        (k0_off23 k) (k0_off23_inb k) _ _ (by rw [k0_off23_eq]; rfl) (by rw [k0_off23_eq]; rfl)
        (k0_off24 _) _ _ _ rfl rfl d⟩
  isplitl [HS6 HT6]
  · iexists _, _
    isplitr [HS6 HT6]
    swap
    · isplitl [HS6]
      · iexact HS6
      · iexact HT6
    · ipureintro
      exact ⟨View.set_slice_subset _ _, fun d => cell_value c arg1 arg2 arg3 fx ft hx (fd 6) ⟨8 * k.val + (6 : Fin 8).val, cell_lt1 k 6⟩
        (k0_off25 k) (k0_off25_inb k) _ (by rw [k0_off25_eq]; rfl)
        (k0_off27 k) (k0_off27_inb k) _ _ (by rw [k0_off27_eq]; rfl) (by rw [k0_off27_eq]; rfl)
        (k0_off28 _) _ _ _ rfl rfl d⟩
  · iexists _, _
    isplitr [HS7 HT7]
    swap
    · isplitl [HS7]
      · iexact HS7
      · iexact HT7
    · ipureintro
      exact ⟨View.set_slice_subset _ _, fun d => cell_value c arg1 arg2 arg3 fx ft hx (fd 7) ⟨8 * k.val + (7 : Fin 8).val, cell_lt1 k 7⟩
        (k0_off29 k) (k0_off29_inb k) _ (by rw [k0_off29_eq]; rfl)
        (k0_off31 k) (k0_off31_inb k) _ _ (by rw [k0_off31_eq]; rfl) (by rw [k0_off31_eq]; rfl)
        (k0_off32 _) _ _ _ rfl rfl d⟩

end Cert.KernelIdeal.Body

end
-- ==== Proof.Trip2.lean ====
/-
  One trip of the waiting loop: eight cells' row words are read again, each cell's copy is waited for on its own
  semaphore, and each wait hands back what its copy delivers and the semaphore at zero.
-/
import proofs.«412992_j76828374991717_2_alg».proof.Proof.KCells
import proofs.«412992_j76828374991717_2_alg».proof.Proof.Gen.KernelIdeal.Frame
import proofs.«412992_j76828374991717_2_alg».proof.Proof.Gen.KernelIdeal.Loops
import Idealize.ShloMosaic.Lib.Pipeline.Frame
import Idealize.ShloMosaic.Lib.Pipeline.Kit
import Idealize.ShloMosaic.Lib.Transfers
import Idealize.ShloMosaic.Lib.Tactic
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (Pipeline.UD sig nD τ) ℕ

/-- A conjunction over eight cells is the eight conjuncts in order. -/
private theorem bigSep8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Trip k of the waiting loop, whatever the eight copies deliver: holding the ids block, the core's record of
    waits and each cell's copy in flight, the trip ends holding the block, a record of waits, and per cell the
    delivery and the semaphore at zero. The ids are rows of the table (the body assumes it of each word it reads). -/
theorem trip2 (c : Dev nD) (i : grid0.Coords) (arg1 : Memref sig .tc .smem S512 .i32) (harg1 : arg1.IsWhole)
    (arg2 : Memref sig .tc .hbm S2600000x64 .f32) (harg2 : arg2.IsWhole) (arg3 : Memref sig .tc .vmem S512x64 .f32) (harg3 : arg3.IsWhole)
    (arg4 : DmaSems sig S512) (k : Fin k0_t2_loop.trips)
    (fx : Buf (Elt F) (arg1.view.loc (c : Thread nD τ))) (ft : Buf (Elt F) (arg2.view.loc (c : Thread nD τ)))
    (hx : ∀ n : Fin 512, (arg1.view.read (Elt F) fx (ix1 n) : BitVec 32).toNat < 2600000)
    (Sd : Fin 8 → Finset (Idx (arg3.view.loc (c : Thread nD τ)))) (Ss : Fin 8 → Finset (Idx (arg2.view.loc (c : Thread nD τ))))
    (g : Fin 8 → Buf (Elt F) (arg3.view.loc (c : Thread nD τ))) (q : Fin 8 → PosShare TreeShare) (W : Waits sig Unit) :
    (iprop((arg1.view.loc (c : Thread nD τ) ↦[arg1.view.set]{fullShare} fx) ∗ owes (c : Thread nD τ) 0 W
      ∗ bigSep Finset.univ (fun r : Fin 8 => Transfers.Flight countersEmb (c : Thread nD τ) (SemLoc.dma (sem2 arg4 k r).sem) default 128
          iprop((arg3.view.loc (c : Thread nD τ) ↦[Sd r]{fullShare} g r) ∗ (arg2.view.loc (c : Thread nD τ) ↦[Ss r]{q r} ft)))) : sProp 𝕄)
      ⊢ wp frame (wpE (defs₀ (F := F)) Variants.none c none) Set.univ (k0_t2_body (F := F) i arg1 harg1 arg2 harg2 arg3 harg3 arg4 k ())
          (fun _ => (iprop((arg1.view.loc (c : Thread nD τ) ↦[arg1.view.set]{fullShare} fx) ∗ (∃ W', owes (c : Thread nD τ) 0 W')
            ∗ bigSep Finset.univ (fun r : Fin 8 => iprop((arg3.view.loc (c : Thread nD τ) ↦[Sd r]{fullShare} g r)
                ∗ (arg2.view.loc (c : Thread nD τ) ↦[Ss r]{q r} ft)
                ∗ semVal ((c : Thread nD τ), SemLoc.dma (sem2 arg4 k r).sem) 0))) : sProp 𝕄)) := by
  -- every word of the ids block is below the table's row count: an index of the block is its one coordinate
  have hrd : ∀ y : S512.Idx, (arg1.view.read (Elt F) fx y : BitVec 32).toNat < 2600000 := fun y => by
    rw [eq_ix1 y]; exact hx _
  -- and a word below the row count names a row inside the table: one row of 64 at offset (w, 0) fits in 2600000 x 64
  have hrow : ∀ w : BitVec 32, w.toNat < 2600000 →
      ∀ a : Fin 2, (![w.toNat, 0] : Fin 2 → Nat) a + S1x64.size a ≤ S2600000x64.size a := by
    intro w hw a; fin_cases a <;> simp [S1x64, S2600000x64] <;> omega
  -- so each of the eight words the trip reads off the block satisfies the condition the body assumes of it
  have h9 : ∀ (R : LoadRect S512) (x : R.shape.Idx), k0_chk9 (View.readAt (Elt F) arg1.view R fx x) :=
    fun R x => hrow _ (hrd _)
  have h10 : ∀ (R : LoadRect S512) (x : R.shape.Idx), k0_chk10 (View.readAt (Elt F) arg1.view R fx x) :=
    fun R x => hrow _ (hrd _)
  have h11 : ∀ (R : LoadRect S512) (x : R.shape.Idx), k0_chk11 (View.readAt (Elt F) arg1.view R fx x) :=
    fun R x => hrow _ (hrd _)
  have h12 : ∀ (R : LoadRect S512) (x : R.shape.Idx), k0_chk12 (View.readAt (Elt F) arg1.view R fx x) :=
    fun R x => hrow _ (hrd _)
  have h13 : ∀ (R : LoadRect S512) (x : R.shape.Idx), k0_chk13 (View.readAt (Elt F) arg1.view R fx x) :=
    fun R x => hrow _ (hrd _)
  have h14 : ∀ (R : LoadRect S512) (x : R.shape.Idx), k0_chk14 (View.readAt (Elt F) arg1.view R fx x) :=
    fun R x => hrow _ (hrd _)
  have h15 : ∀ (R : LoadRect S512) (x : R.shape.Idx), k0_chk15 (View.readAt (Elt F) arg1.view R fx x) :=
    fun R x => hrow _ (hrd _)
  have h16 : ∀ (R : LoadRect S512) (x : R.shape.Idx), k0_chk16 (View.readAt (Elt F) arg1.view R fx x) :=
    fun R x => hrow _ (hrd _)
  -- the eight cells one by one, before and after
  rw [bigSep8, bigSep8]
  iintro ⟨HX, HW, HF0, HF1, HF2, HF3, HF4, HF5, HF6, HF7⟩
  -- the trip: per cell the word is read and is a row, and the wait on the cell's semaphore meets the cell's copy in
  -- flight, which hands over its delivery and leaves the semaphore at zero and the wait on the core's record
  unfold k0_t2_body
  simp only [k0_part4_eq_skeleton]; unfold k0_part4_skel
  sl_exec
  sl_step
  -- what is held is the postcondition's block and cells; the record of waits is the one the eight waits built
  iframe
  iexists _
  iexact HW

end Cert.KernelIdeal.Body

end
-- ==== Proof.KPlumb.lean ====
/-
  Bookkeeping for one grid point's 512 cells. The table's full share is dealt out as one read share per cell (and a
  remainder); the output block is its 512 rows (cell (k, r) owns row 8k + r), split and joined back; what each cell
  holds at some contents can be chosen for all cells at once; and the two loops name one cell's semaphore alike.
-/
import proofs.«412992_j76828374991717_2_alg».proof.Proof.KData
import Idealize.ShloMosaic.Lib.Transfers
import Idealize.ShloMosaic.Lib.Ring
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- A grid point's cells: cell r of trip k. -/
abbrev Cell : Type := Fin k0_t1_loop.trips × Fin 8

theorem cell_lt (kr : Cell) : 8 * kr.1.val + kr.2.val < 512 := by
  have hk : kr.1.val < 64 := lt_of_lt_of_eq kr.1.isLt (by decide)
  have := kr.2.isLt; omega

/-- There are 64 trips. -/
private theorem trips_eq : k0_t1_loop.trips = 64 := by decide

/-- Cells and row numbers below 512 correspond: cell (k, r) is row 8k + r, row j is cell (j / 8, j % 8). -/
def cellEquiv : Cell ≃ Fin 512 where
  toFun kr := ⟨8 * kr.1.val + kr.2.val, cell_lt kr⟩
  invFun j := (⟨j.val / 8, by rw [trips_eq]; omega⟩, ⟨j.val % 8, Nat.mod_lt _ (by decide)⟩)
  left_inv kr := by
    have := kr.2.isLt
    refine Prod.ext (Fin.ext ?_) (Fin.ext ?_)
    · show (8 * kr.1.val + kr.2.val) / 8 = kr.1.val; omega
    · show (8 * kr.1.val + kr.2.val) % 8 = kr.2.val; omega
  right_inv j := by
    refine Fin.ext ?_
    show 8 * (j.val / 8) + j.val % 8 = j.val; omega

/-- The read share of the table dealt to a cell: the token numbered by the cell's row. -/
def tok (kr : Cell) : PosShare TreeShare := Transfers.shareTokN fullShare (8 * kr.1.val + kr.2.val)

/-- The table held whole is a remainder and one read share per cell, and back. -/
theorem table_toks (c : Dev nD) (ft : Buf (Elt F) (hbM.view.loc (c : Thread nD τ))) :
    (hbM.view.loc (c : Thread nD τ) ↦{fullShare} ft : sProp 𝕄)
      ⊣⊢ iprop((hbM.view.loc (c : Thread nD τ) ↦[hbM.view.set]{Transfers.shareDrop fullShare 512} ft)
          ∗ bigSep Finset.univ fun kr : Cell => hbM.view.loc (c : Thread nD τ) ↦[hbM.view.set]{tok kr} ft) := by
  have hset : (hbM.view.set : Finset _) = Finset.univ := (Memref.isWhole_whole main_arg1).set_eq_univ
  have e : bigSep Finset.univ (fun kr : Cell => (hbM.view.loc (c : Thread nD τ) ↦[Finset.univ]{tok kr} ft : sProp 𝕄))
      = bigSep Finset.univ (fun i : Fin 512 =>
          hbM.view.loc (c : Thread nD τ) ↦[Finset.univ]{Transfers.shareTok fullShare 512 i} ft) :=
    (BI.bigSep_univ_equiv cellEquiv (fun i : Fin 512 =>
      (hbM.view.loc (c : Thread nD τ) ↦[Finset.univ]{Transfers.shareTok fullShare 512 i} ft : sProp 𝕄))).symm
  rw [hset, e]
  exact Transfers.pointsTo_toks fullShare 512

/-- Where cell r of trip k's row starts, in closed form. -/
private theorem off1row_eq (k : Fin k0_t1_loop.trips) (r : Fin 8) : off1row k r = ![8 * k.val + r.val, 0] := by
  match r with
  | ⟨0, _⟩ => exact k0_off3_eq k
  | ⟨1, _⟩ => exact k0_off7_eq k
  | ⟨2, _⟩ => exact k0_off11_eq k
  | ⟨3, _⟩ => exact k0_off15_eq k
  | ⟨4, _⟩ => exact k0_off19_eq k
  | ⟨5, _⟩ => exact k0_off23_eq k
  | ⟨6, _⟩ => exact k0_off27_eq k
  | ⟨7, _⟩ => exact k0_off31_eq k

/-- The rectangle of the block that is a cell's row. -/
private abbrev rowRect (kr : Cell) : Rect S512x64 :=
  Rect.unit (s := S512x64) (off1row kr.1 kr.2) S1x64.size (off1row_inb kr.1 kr.2)

/-- An entry of the block lies in cell (k, r)'s row exactly when its row coordinate is 8k + r. -/
private theorem mem_rowRect (kr : Cell) (i : S512x64.Idx) :
    i ∈ (rowRect kr).set ↔ (i 0).val = 8 * kr.1.val + kr.2.val := by
  rw [Rect.mem_set_unit, off1row_eq]
  have h1 : (i 1).val < 64 := (i 1).isLt
  constructor
  · intro h
    have h0 := h (0 : Fin 2)
    change 8 * kr.1.val + kr.2.val ≤ (i 0).val ∧ (i 0).val < 8 * kr.1.val + kr.2.val + 1 at h0
    omega
  · intro h a
    match a with
    | ⟨0, _⟩ =>
      show 8 * kr.1.val + kr.2.val ≤ (i 0).val ∧ (i 0).val < 8 * kr.1.val + kr.2.val + 1
      omega
    | ⟨1, _⟩ =>
      show 0 ≤ (i 1).val ∧ (i 1).val < 0 + 64
      omega

/-- Different cells' rows share no entry. -/
private theorem rowRect_disjoint (kr kr' : Cell) (h : kr ≠ kr') : Disjoint (rowRect kr).set (rowRect kr').set := by
  rw [Finset.disjoint_left]
  intro i hi hi'
  rw [mem_rowRect] at hi hi'
  exact h (cellEquiv.injective (Fin.ext (hi.symm.trans hi')))

/-- Every entry of the block is in the row of the cell its row coordinate names. -/
private theorem mem_rowRect_cell (i : S512x64.Idx) : i ∈ (rowRect (cellEquiv.symm (i 0))).set :=
  (mem_rowRect _ i).mpr (congrArg Fin.val (cellEquiv.apply_symm_apply (i 0))).symm

/-- A cell's row as elements of the block's buffer: its rectangle's entries, placed by the block's view. -/
private abbrev rowSet (arg3 : Memref sig .tc .vmem S512x64 .f32) (kr : Cell) : Finset arg3.view.ty.Idx :=
  (arg3.view.slice (rowRect kr)).set

private theorem rowSet_eq (arg3 : Memref sig .tc .vmem S512x64 .f32) (kr : Cell) :
    rowSet arg3 kr = (rowRect kr).set.map arg3.view.emb := View.set_slice _ _

private theorem rows_disjoint (arg3 : Memref sig .tc .vmem S512x64 .f32) :
    ∀ kr ∈ (Finset.univ : Finset Cell), ∀ kr' ∈ (Finset.univ : Finset Cell), kr ≠ kr' →
      Disjoint (rowSet arg3 kr) (rowSet arg3 kr') := by
  intro kr _ kr' _ h
  rw [rowSet_eq, rowSet_eq, Finset.disjoint_map]
  exact rowRect_disjoint kr kr' h

private theorem rows_cover (arg3 : Memref sig .tc .vmem S512x64 .f32) :
    arg3.view.set = Finset.univ.biUnion (rowSet arg3) := by
  ext j
  rw [Finset.mem_biUnion]
  constructor
  · intro hj
    have hj' : j ∈ Finset.univ.map arg3.view.emb := hj
    obtain ⟨i, -, rfl⟩ := Finset.mem_map.mp hj'
    refine ⟨cellEquiv.symm (i 0), Finset.mem_univ _, ?_⟩
    rw [rowSet_eq]
    exact Finset.mem_map_of_mem _ (mem_rowRect_cell i)
  · rintro ⟨kr, -, hj⟩
    exact View.set_slice_subset _ _ hj

/-- A whole output block is its 512 rows. -/
theorem rows_split (c : Dev nD) (arg3 : Memref sig .tc .vmem S512x64 .f32) (harg3 : arg3.IsWhole)
    (fd : Buf (Elt F) (arg3.view.loc (c : Thread nD τ))) :
    (arg3.view.loc (c : Thread nD τ) ↦[arg3.view.set]{fullShare} fd : sProp 𝕄)
      = bigSep Finset.univ fun kr : Cell => arg3.view.loc (c : Thread nD τ) ↦[(row1 arg3 kr.1 kr.2).view.set]{fullShare} fd := by
  show (arg3.view.loc (c : Thread nD τ) ↦[arg3.view.set]{fullShare} fd : sProp 𝕄)
    = bigSep Finset.univ fun kr : Cell => arg3.view.loc (c : Thread nD τ) ↦[rowSet arg3 kr]{fullShare} fd
  rw [rows_cover arg3]
  exact pointsTo_biUnion _ _ (rows_disjoint arg3)

/-- The 512 rows, each at contents of its own, are the whole block at contents agreeing with each row's on that row. -/
theorem rows_join (c : Dev nD) (arg3 : Memref sig .tc .vmem S512x64 .f32) (harg3 : arg3.IsWhole)
    (g : Cell → Buf (Elt F) (arg3.view.loc (c : Thread nD τ))) :
    bigSep Finset.univ (fun kr : Cell => (arg3.view.loc (c : Thread nD τ) ↦[(row1 arg3 kr.1 kr.2).view.set]{fullShare} g kr : sProp 𝕄))
      ⊢ iprop(∃ gf : Buf (Elt F) (arg3.view.loc (c : Thread nD τ)),
          ⌜∀ kr : Cell, ∀ i ∈ (row1 arg3 kr.1 kr.2).view.set, gf i = g kr i⌝
          ∗ arg3.view.loc (c : Thread nD τ) ↦[arg3.view.set]{fullShare} gf) := by
  show bigSep Finset.univ (fun kr : Cell => (arg3.view.loc (c : Thread nD τ) ↦[rowSet arg3 kr]{fullShare} g kr : sProp 𝕄))
    ⊢ iprop(∃ gf : Buf (Elt F) (arg3.view.loc (c : Thread nD τ)),
        ⌜∀ kr : Cell, ∀ i ∈ rowSet arg3 kr, gf i = g kr i⌝
        ∗ arg3.view.loc (c : Thread nD τ) ↦[arg3.view.set]{fullShare} gf)
  rw [rows_cover arg3]
  refine (pointsTo_biUnion_join Finset.univ (rowSet arg3) g (g (cellEquiv.symm 0)) (rows_disjoint arg3)).trans ?_
  iintro ⟨%gf, %hg, H⟩
  iexists gf
  isplitr
  · ipureintro
    intro kr i hi
    exact hg kr (Finset.mem_univ _) i hi
  · iexact H

/-- Reading the whole block at an entry of row 8k + r sees only that row's contents. -/
theorem read_row (c : Dev nD) (arg3 : Memref sig .tc .vmem S512x64 .f32) (harg3 : arg3.IsWhole)
    (gf g : Buf (Elt F) (arg3.view.loc (c : Thread nD τ))) (kr : Cell)
    (h : ∀ i ∈ (row1 arg3 kr.1 kr.2).view.set, gf i = g i) (d : Fin 64) :
    arg3.view.read (Elt F) gf (ix2 (n0 := 512) (n1 := 64) ⟨8 * kr.1.val + kr.2.val, cell_lt kr⟩ d)
      = arg3.view.read (Elt F) g (ix2 (n0 := 512) (n1 := 64) ⟨8 * kr.1.val + kr.2.val, cell_lt kr⟩ d) := by
  have hmem : arg3.view.emb (ix2 (n0 := 512) (n1 := 64) ⟨8 * kr.1.val + kr.2.val, cell_lt kr⟩ d) ∈ rowSet arg3 kr := by
    rw [rowSet_eq]
    exact Finset.mem_map_of_mem _ ((mem_rowRect kr _).mpr rfl)
  rw [View.read_apply, View.read_apply]
  exact congrArg _ (h _ hmem)

/-- Every row number below 512 is some cell's. -/
theorem cell_of_row (j : Fin 512) : ∃ kr : Cell, 8 * kr.1.val + kr.2.val = j.val :=
  ⟨cellEquiv.symm j, congrArg Fin.val (cellEquiv.apply_symm_apply j)⟩

/-- What each member of a finite family holds at some value, the family holds at one choice of values. -/
theorem bigSep_choice {I : Type} [DecidableEq I] {α : I → Type} [∀ i, Nonempty (α i)] (s : Finset I)
    (Φ : (i : I) → α i → sProp 𝕄) :
    bigSep s (fun i => iprop(∃ a, Φ i a)) ⊢ iprop(∃ a : (i : I) → α i, bigSep s fun i => Φ i (a i)) :=
  BI.bigSep_exists_pi s Φ

/-- The waiting loop names cell r of trip k's semaphore as the issuing loop does. -/
theorem sem12 (arg4 : DmaSems sig S512) (k : Fin k0_t1_loop.trips) (r : Fin 8) : sem1 arg4 k r = sem2 arg4 k r := by
  have h : off1sem k r = off2sem k r := by
    match r with
    | ⟨0, _⟩ => exact (k0_off2_eq k).trans (k0_off34_eq k).symm
    | ⟨1, _⟩ => exact (k0_off6_eq k).trans (k0_off38_eq k).symm
    | ⟨2, _⟩ => exact (k0_off10_eq k).trans (k0_off42_eq k).symm
    | ⟨3, _⟩ => exact (k0_off14_eq k).trans (k0_off46_eq k).symm
    | ⟨4, _⟩ => exact (k0_off18_eq k).trans (k0_off50_eq k).symm
    | ⟨5, _⟩ => exact (k0_off22_eq k).trans (k0_off54_eq k).symm
    | ⟨6, _⟩ => exact (k0_off26_eq k).trans (k0_off58_eq k).symm
    | ⟨7, _⟩ => exact (k0_off30_eq k).trans (k0_off62_eq k).symm
  unfold sem1 sem2
  rw [SemArray.slice_unit_congr arg4 h (off1sem_inb k r) (off2sem_inb k r)]

end Cert.KernelIdeal.Body

end
-- ==== Proof.KBody.lean ====
/-
  The gather's body at one grid point. The first loop starts the 512 row copies, eight a trip; the second waits for
  them, eight a trip. Between the loops every cell's copy is in flight; after the second every row of the block holds
  the table's row named by its id, the semaphores are back at zero and the table is whole again.
-/
import proofs.«412992_j76828374991717_2_alg».proof.Proof.KData
import proofs.«412992_j76828374991717_2_alg».proof.Proof.Trip1
import proofs.«412992_j76828374991717_2_alg».proof.Proof.Trip2
import proofs.«412992_j76828374991717_2_alg».proof.Proof.KPlumb
import Idealize.ShloMosaic.Lib.Ring
import Idealize.ShloMosaic.Lib.Transfers
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## Runs of trips -/

/-- The trips from k on are trip k and the trips after it. -/
theorem range_head {N : ℕ} (Φ : Fin N → sProp 𝕄) (k : Fin N) :
    bigSep (Ring.rangeSet N k.val N) Φ = iprop(Φ k ∗ bigSep (Ring.rangeSet N (k.val + 1) N) Φ) :=
  Ring.bigSep_rangeSet_head k.isLt k.isLt

/-- The trips up to and including k are trip k and the trips before it. -/
theorem range_last {N : ℕ} (Φ : Fin N → sProp 𝕄) (k : Fin N) :
    bigSep (Ring.rangeSet N 0 (k.val + 1)) Φ = iprop(Φ k ∗ bigSep (Ring.rangeSet N 0 k.val) Φ) := by
  have h := Ring.bigSep_rangeSet_last (NB := N) (Φ := Φ) (lo := 0) (hi := k.val + 1) (Nat.succ_pos _) (Nat.succ_le_of_lt k.isLt)
  simp only [Nat.add_sub_cancel] at h
  exact h

/-! ## The cells' states -/

section Cells

variable (c : Dev nD) (arg1 : Memref sig .tc .smem S512 .i32) (arg3 : Memref sig .tc .vmem S512x64 .f32)
  (fx : Buf (Elt F) (arg1.view.loc (c : Thread nD τ))) (ft : Buf (Elt F) (hbM.view.loc (c : Thread nD τ)))
  (hx : ∀ n : Fin 512, (arg1.view.read (Elt F) fx (ix1 n) : BitVec 32).toNat < 2600000)

/-- Cell r of trip k before its copy is started: its row of the block at the block's entry contents, its semaphore at
    zero, its read share of the table. -/
abbrev todo (fd0 : Buf (Elt F) (arg3.view.loc (c : Thread nD τ))) (k : Fin k0_t1_loop.trips) (r : Fin 8) : sProp 𝕄 :=
  iprop((arg3.view.loc (c : Thread nD τ) ↦[(row1 arg3 k r).view.set]{fullShare} fd0)
          ∗ semVal ((c : Thread nD τ), SemLoc.dma (sem1 cc0_scratch0 k r).sem) 0
          ∗ (hbM.view.loc (c : Thread nD τ) ↦[hbM.view.set]{tok (k, r)} ft))

/-- The cell while its copy is in flight: the flight delivers the row holding the table's row named by the cell's id
    and the part of the read share it lent; the rest of the share is kept beside it. -/
abbrev issued (k : Fin k0_t1_loop.trips) (r : Fin 8) : sProp 𝕄 :=
  iprop(∃ (g : Buf (Elt F) (arg3.view.loc (c : Thread nD τ))) (Ss : Finset (Idx (hbM.view.loc (c : Thread nD τ)))),
                ⌜Ss ⊆ hbM.view.set ∧ ∀ d : Fin 64,
                    arg3.view.read (Elt F) g (ix2 (n0 := 512) (n1 := 64) ⟨8 * k.val + r.val, cell_lt1 k r⟩ d)
                      = hbM.view.read (Elt F) ft (ix2 (n0 := 2600000) (n1 := 64)
                          ⟨(arg1.view.read (Elt F) fx (ix1 (n := 512) ⟨8 * k.val + r.val, cell_lt1 k r⟩) : BitVec 32).toNat, hx _⟩ d)⌝
                ∗ Transfers.Flight countersEmb (c : Thread nD τ) (SemLoc.dma (sem1 cc0_scratch0 k r).sem) default 128
                    iprop((arg3.view.loc (c : Thread nD τ) ↦[(row1 arg3 k r).view.set]{fullShare} g) ∗ (hbM.view.loc (c : Thread nD τ) ↦[Ss]{tok (k, r)} ft))
                ∗ (hbM.view.loc (c : Thread nD τ) ↦[hbM.view.set \ Ss]{tok (k, r)} ft))

/-- Before trip n of the issuing loop: the ids block, the cells of the trips before n in flight, the others not yet
    started. -/
def inv1 (fd0 : Buf (Elt F) (arg3.view.loc (c : Thread nD τ))) (n : ℕ) (_ : Unit) : sProp 𝕄 :=
  iprop((arg1.view.loc (c : Thread nD τ) ↦[arg1.view.set]{fullShare} fx)
    ∗ bigSep (Ring.rangeSet k0_t1_loop.trips 0 n) (fun k => bigSep Finset.univ (fun r : Fin 8 => issued c arg1 arg3 fx ft hx k r))
    ∗ bigSep (Ring.rangeSet k0_t1_loop.trips n k0_t1_loop.trips) (fun k => bigSep Finset.univ (fun r : Fin 8 => todo c arg3 ft fd0 k r)))

/-- One trip of the issuing loop keeps that. -/
theorem step1 (i : grid0.Coords) (harg1 : arg1.IsWhole) (harg3 : arg3.IsWhole)
    (fd0 : Buf (Elt F) (arg3.view.loc (c : Thread nD τ))) (k : Fin k0_t1_loop.trips) (acc : Unit) :
    inv1 c arg1 arg3 fx ft hx fd0 k.val acc
      ⊢ wp frame (wpE (defs₀ (F := F)) Variants.none c none) Set.univ
          (k0_t1_body (F := F) i arg1 harg1 hbM (Memref.isWhole_whole _) arg3 harg3 cc0_scratch0 k acc)
          (inv1 c arg1 arg3 fx ft hx fd0 (k.val + 1)) := by
  unfold inv1
  rw [range_head _ k]
  simp only [range_last _ k]
  iintro ⟨HX, Hiss, Hk, Hrest⟩
  iapply (wp_wand_r frame (wpE (defs₀ (F := F)) Variants.none c none) Set.univ)
  isplitl [HX Hk]
  · iapply (trip1 c i arg1 harg1 hbM (Memref.isWhole_whole _) arg3 harg3 cc0_scratch0 k fx ft hx (fun _ => fd0) (fun r => tok (k, r)))
    isplitl [HX]; · iexact HX
    iexact Hk
  · iintro %a ⟨HX, Hk⟩
    isplitl [HX]; · iexact HX
    isplitl [Hk Hiss]
    · isplitl [Hk]; · iexact Hk
      iexact Hiss
    iexact Hrest

/-- Cell r of trip k with its copy in flight, what the copy delivers named: its row at G and the part SS of its read
    share. The semaphore is named as the waiting loop names it. -/
abbrev flying (G : Cell → Buf (Elt F) (arg3.view.loc (c : Thread nD τ))) (SS : Cell → Finset (Idx (hbM.view.loc (c : Thread nD τ))))
    (k : Fin k0_t2_loop.trips) (r : Fin 8) : sProp 𝕄 :=
  Transfers.Flight countersEmb (c : Thread nD τ) (SemLoc.dma (sem2 cc0_scratch0 k r).sem) default 128
          iprop((arg3.view.loc (c : Thread nD τ) ↦[(row1 arg3 k r).view.set]{fullShare} G (k, r)) ∗ (hbM.view.loc (c : Thread nD τ) ↦[SS (k, r)]{tok (k, r)} ft))

/-- The cell once its copy has been waited for: the delivery, and the semaphore at zero. -/
abbrev landed (G : Cell → Buf (Elt F) (arg3.view.loc (c : Thread nD τ))) (SS : Cell → Finset (Idx (hbM.view.loc (c : Thread nD τ))))
    (k : Fin k0_t2_loop.trips) (r : Fin 8) : sProp 𝕄 :=
  iprop((arg3.view.loc (c : Thread nD τ) ↦[(row1 arg3 k r).view.set]{fullShare} G (k, r))
                ∗ (hbM.view.loc (c : Thread nD τ) ↦[SS (k, r)]{tok (k, r)} ft)
                ∗ semVal ((c : Thread nD τ), SemLoc.dma (sem2 cc0_scratch0 k r).sem) 0)

/-- Before trip n of the waiting loop: the ids block, the core's record of waits, the cells of the trips before n
    landed, the others still in flight. -/
def inv2 (G : Cell → Buf (Elt F) (arg3.view.loc (c : Thread nD τ))) (SS : Cell → Finset (Idx (hbM.view.loc (c : Thread nD τ))))
    (n : ℕ) (_ : Unit) : sProp 𝕄 :=
  iprop((arg1.view.loc (c : Thread nD τ) ↦[arg1.view.set]{fullShare} fx) ∗ (∃ W', owes (c : Thread nD τ) 0 W')
    ∗ bigSep (Ring.rangeSet k0_t2_loop.trips 0 n) (fun k => bigSep Finset.univ (fun r : Fin 8 => landed c arg3 ft G SS k r))
    ∗ bigSep (Ring.rangeSet k0_t2_loop.trips n k0_t2_loop.trips) (fun k => bigSep Finset.univ (fun r : Fin 8 => flying c arg3 ft G SS k r)))

include hx in
/-- One trip of the waiting loop keeps that. -/
theorem step2 (i : grid0.Coords) (harg1 : arg1.IsWhole) (harg3 : arg3.IsWhole)
    (G : Cell → Buf (Elt F) (arg3.view.loc (c : Thread nD τ))) (SS : Cell → Finset (Idx (hbM.view.loc (c : Thread nD τ))))
    (k : Fin k0_t2_loop.trips) (acc : Unit) :
    inv2 c arg1 arg3 fx ft G SS k.val acc
      ⊢ wp frame (wpE (defs₀ (F := F)) Variants.none c none) Set.univ
          (k0_t2_body (F := F) i arg1 harg1 hbM (Memref.isWhole_whole _) arg3 harg3 cc0_scratch0 k acc)
          (inv2 c arg1 arg3 fx ft G SS (k.val + 1)) := by
  unfold inv2
  rw [range_head _ k]
  simp only [range_last _ k]
  iintro ⟨HX, ⟨%W, HW⟩, Hland, Hk, Hrest⟩
  iapply (wp_wand_r frame (wpE (defs₀ (F := F)) Variants.none c none) Set.univ)
  isplitl [HX HW Hk]
  · iapply (trip2 c i arg1 harg1 hbM (Memref.isWhole_whole _) arg3 harg3 cc0_scratch0 k fx ft hx
      (fun r => (row1 arg3 k r).view.set) (fun r => SS (k, r)) (fun r => G (k, r)) (fun r => tok (k, r)) W)
    isplitl [HX]; · iexact HX
    isplitl [HW]; · iexact HW
    iexact Hk
  · iintro %a ⟨HX, HW, Hk⟩
    isplitl [HX]; · iexact HX
    isplitl [HW]; · iexact HW
    isplitl [Hk Hland]
    · isplitl [Hk]; · iexact Hk
      iexact Hland
    iexact Hrest

/-- The value a delivered row holds: entry d of row 8k + r of the block is entry d of the table's row named by id 8k + r. -/
abbrev rowHolds (kr : Cell) (g : Buf (Elt F) (arg3.view.loc (c : Thread nD τ))) : Prop :=
  ∀ d : Fin 64,
                    arg3.view.read (Elt F) g (ix2 (n0 := 512) (n1 := 64) ⟨8 * kr.1.val + kr.2.val, cell_lt1 kr.1 kr.2⟩ d)
                      = hbM.view.read (Elt F) ft (ix2 (n0 := 2600000) (n1 := 64)
                          ⟨(arg1.view.read (Elt F) fx (ix1 (n := 512) ⟨8 * kr.1.val + kr.2.val, cell_lt1 kr.1 kr.2⟩) : BitVec 32).toNat, hx _⟩ d)

/-- A cell's copy in flight, the semaphore named as the issuing loop names it. -/
abbrev flight1 (kr : Cell) (g : Buf (Elt F) (arg3.view.loc (c : Thread nD τ))) (Ss : Finset (Idx (hbM.view.loc (c : Thread nD τ)))) : sProp 𝕄 :=
  Transfers.Flight countersEmb (c : Thread nD τ) (SemLoc.dma (sem1 cc0_scratch0 kr.1 kr.2).sem) default 128
                    iprop((arg3.view.loc (c : Thread nD τ) ↦[(row1 arg3 kr.1 kr.2).view.set]{fullShare} g) ∗ (hbM.view.loc (c : Thread nD τ) ↦[Ss]{tok kr} ft))

/-- The part of a cell's read share its copy did not borrow. -/
abbrev rest1 (kr : Cell) (Ss : Finset (Idx (hbM.view.loc (c : Thread nD τ)))) : sProp 𝕄 :=
  hbM.view.loc (c : Thread nD τ) ↦[hbM.view.set \ Ss]{tok kr} ft

/-- After the issuing loop every cell's copy is in flight, and what the copies deliver can be named for all cells at
    once. -/
theorem mid (fd0 : Buf (Elt F) (arg3.view.loc (c : Thread nD τ))) :
    inv1 c arg1 arg3 fx ft hx fd0 k0_t1_loop.trips ()
      ⊢ iprop(∃ (G : Cell → Buf (Elt F) (arg3.view.loc (c : Thread nD τ))) (SS : Cell → Finset (Idx (hbM.view.loc (c : Thread nD τ)))),
          ⌜∀ kr : Cell, SS kr ⊆ hbM.view.set ∧ rowHolds c arg1 arg3 fx ft hx kr (G kr)⌝
          ∗ (arg1.view.loc (c : Thread nD τ) ↦[arg1.view.set]{fullShare} fx)
          ∗ bigSep Finset.univ (fun kr : Cell => flight1 c arg3 ft kr (G kr) (SS kr))
          ∗ bigSep Finset.univ (fun kr : Cell => rest1 c ft kr (SS kr))) := by
  unfold inv1
  rw [Ring.rangeSet_univ, Ring.bigSep_rangeSet_empty (le_refl _),
    ← bigSep_univ_prod (fun kr : Cell => issued c arg1 arg3 fx ft hx kr.1 kr.2)]
  iintro ⟨HX, Hiss, -⟩
  ihave H := (bigSep_exists_pi (Finset.univ : Finset Cell)
    (fun (kr : Cell) (g : Buf (Elt F) (arg3.view.loc (c : Thread nD τ))) =>
      (iprop(∃ Ss : Finset (Idx (hbM.view.loc (c : Thread nD τ))),
        ⌜Ss ⊆ hbM.view.set ∧ rowHolds c arg1 arg3 fx ft hx kr g⌝ ∗ flight1 c arg3 ft kr g Ss ∗ rest1 c ft kr Ss) : sProp 𝕄))) $$ Hiss
  icases H with ⟨%G, H⟩
  ihave H := (bigSep_exists_pi (Finset.univ : Finset Cell)
    (fun (kr : Cell) (Ss : Finset (Idx (hbM.view.loc (c : Thread nD τ)))) =>
      (iprop(⌜Ss ⊆ hbM.view.set ∧ rowHolds c arg1 arg3 fx ft hx kr (G kr)⌝ ∗ flight1 c arg3 ft kr (G kr) Ss ∗ rest1 c ft kr Ss) : sProp 𝕄))) $$ H
  icases H with ⟨%SS, H⟩
  ihave H := (bigSep_pure_sep (Finset.univ : Finset Cell)
    (fun kr : Cell => SS kr ⊆ hbM.view.set ∧ rowHolds c arg1 arg3 fx ft hx kr (G kr))
    (fun kr : Cell => (iprop(flight1 c arg3 ft kr (G kr) (SS kr) ∗ rest1 c ft kr (SS kr)) : sProp 𝕄))) $$ H
  icases H with ⟨%hP, H⟩
  have e : bigSep (Finset.univ : Finset Cell) (fun kr : Cell => (iprop(flight1 c arg3 ft kr (G kr) (SS kr) ∗ rest1 c ft kr (SS kr)) : sProp 𝕄))
      = iprop(bigSep (Finset.univ : Finset Cell) (fun kr : Cell => flight1 c arg3 ft kr (G kr) (SS kr))
          ∗ bigSep (Finset.univ : Finset Cell) (fun kr : Cell => rest1 c ft kr (SS kr))) := bigSep_sep _ _ _
  ihave H := (Entails.of_eq e) $$ H
  icases H with ⟨HF, HR⟩
  iexists G, SS
  isplitr
  · ipureintro; exact fun kr => hP kr (Finset.mem_univ _)
  isplitl [HX]; · iexact HX
  isplitl [HF]; · iexact HF
  iexact HR

/-- After the waiting loop: the ids block, a record of waits, the whole output block at contents that agree with each
    cell's delivered row on that row, every semaphore at zero, and every cell's read share of the table whole again. -/
theorem fin (harg3 : arg3.IsWhole)
    (G : Cell → Buf (Elt F) (arg3.view.loc (c : Thread nD τ))) (SS : Cell → Finset (Idx (hbM.view.loc (c : Thread nD τ))))
    (hP : ∀ kr : Cell, SS kr ⊆ hbM.view.set) :
    iprop(inv2 c arg1 arg3 fx ft G SS k0_t2_loop.trips () ∗ bigSep Finset.univ (fun kr : Cell => rest1 c ft kr (SS kr)))
      ⊢ iprop((arg1.view.loc (c : Thread nD τ) ↦[arg1.view.set]{fullShare} fx) ∗ (∃ W', owes (c : Thread nD τ) 0 W')
          ∗ (∃ gf : Buf (Elt F) (arg3.view.loc (c : Thread nD τ)),
              ⌜∀ kr : Cell, ∀ i ∈ (row1 arg3 kr.1 kr.2).view.set, gf i = G kr i⌝
              ∗ arg3.view.loc (c : Thread nD τ) ↦[arg3.view.set]{fullShare} gf)
          ∗ bigSep Finset.univ (fun kr : Cell => semVal ((c : Thread nD τ), osem kr) 0)
          ∗ bigSep Finset.univ (fun kr : Cell => hbM.view.loc (c : Thread nD τ) ↦[hbM.view.set]{tok kr} ft)) := by
  unfold inv2
  rw [Ring.rangeSet_univ, Ring.bigSep_rangeSet_empty (le_refl _),
    ← bigSep_univ_prod (fun kr : Cell => landed c arg3 ft G SS kr.1 kr.2)]
  iintro ⟨⟨HX, HW, Hl, -⟩, HR⟩
  have e1 : bigSep (Finset.univ : Finset Cell) (fun kr : Cell => landed c arg3 ft G SS kr.1 kr.2)
      = iprop(bigSep (Finset.univ : Finset Cell) (fun kr : Cell => (arg3.view.loc (c : Thread nD τ) ↦[(row1 arg3 kr.1 kr.2).view.set]{fullShare} G kr : sProp 𝕄))
          ∗ bigSep (Finset.univ : Finset Cell) (fun kr : Cell => (iprop((hbM.view.loc (c : Thread nD τ) ↦[SS kr]{tok kr} ft)
              ∗ semVal ((c : Thread nD τ), SemLoc.dma (sem2 cc0_scratch0 kr.1 kr.2).sem) 0) : sProp 𝕄))) := bigSep_sep _ _ _
  have e2 : bigSep (Finset.univ : Finset Cell) (fun kr : Cell => (iprop((hbM.view.loc (c : Thread nD τ) ↦[SS kr]{tok kr} ft)
              ∗ semVal ((c : Thread nD τ), SemLoc.dma (sem2 cc0_scratch0 kr.1 kr.2).sem) 0) : sProp 𝕄))
      = iprop(bigSep (Finset.univ : Finset Cell) (fun kr : Cell => (hbM.view.loc (c : Thread nD τ) ↦[SS kr]{tok kr} ft : sProp 𝕄))
          ∗ bigSep (Finset.univ : Finset Cell) (fun kr : Cell => (semVal ((c : Thread nD τ), SemLoc.dma (sem2 cc0_scratch0 kr.1 kr.2).sem) 0 : sProp 𝕄))) := bigSep_sep _ _ _
  have e3 : iprop(bigSep (Finset.univ : Finset Cell) (fun kr : Cell => (hbM.view.loc (c : Thread nD τ) ↦[SS kr]{tok kr} ft : sProp 𝕄))
          ∗ bigSep (Finset.univ : Finset Cell) (fun kr : Cell => rest1 c ft kr (SS kr)))
      = bigSep (Finset.univ : Finset Cell) (fun kr : Cell => (iprop((hbM.view.loc (c : Thread nD τ) ↦[SS kr]{tok kr} ft) ∗ rest1 c ft kr (SS kr)) : sProp 𝕄)) :=
    (bigSep_sep _ _ _).symm
  have e4 : bigSep (Finset.univ : Finset Cell) (fun kr : Cell => (semVal ((c : Thread nD τ), SemLoc.dma (sem2 cc0_scratch0 kr.1 kr.2).sem) 0 : sProp 𝕄))
      = bigSep (Finset.univ : Finset Cell) (fun kr : Cell => semVal ((c : Thread nD τ), osem kr) 0) :=
    bigSep_congr fun kr _ => by rw [← sem12]
  ihave Hl := (Entails.of_eq e1) $$ Hl
  icases Hl with ⟨HA, HBC⟩
  ihave HBC := (Entails.of_eq e2) $$ HBC
  icases HBC with ⟨HB, HC⟩
  isplitl [HX]; · iexact HX
  isplitl [HW]; · iexact HW
  isplitl [HA]; · iapply (rows_join c arg3 harg3 G) $$ HA
  isplitl [HC]; · iapply (Entails.of_eq e4) $$ HC
  ihave H := (Entails.of_eq e3) $$ [HB HR]
  · isplitl [HB]; · iexact HB
    iexact HR
  have e5 : bigSep (Finset.univ : Finset Cell) (fun kr : Cell => (iprop((hbM.view.loc (c : Thread nD τ) ↦[SS kr]{tok kr} ft) ∗ rest1 c ft kr (SS kr)) : sProp 𝕄))
      ⊢ bigSep (Finset.univ : Finset Cell) (fun kr : Cell => (hbM.view.loc (c : Thread nD τ) ↦[hbM.view.set]{tok kr} ft : sProp 𝕄)) :=
    bigSep_mono fun kr _ => (pointsTo_split_subset (hP kr)).2
  iapply e5 $$ H

end Cells

/-! ## The whole body -/

/-- The block the cells leave, read whole: row j is the table's row named by id j. -/
theorem block_value (c : Dev nD) (arg1 : Memref sig .tc .smem S512 .i32) (arg3 : Memref sig .tc .vmem S512x64 .f32) (harg3 : arg3.IsWhole)
    (fx : Buf (Elt F) (arg1.view.loc (c : Thread nD τ))) (ft : Buf (Elt F) (hbM.view.loc (c : Thread nD τ)))
    (hx : ∀ n : Fin 512, (arg1.view.read (Elt F) fx (ix1 n) : BitVec 32).toNat < 2600000)
    (G : Cell → Buf (Elt F) (arg3.view.loc (c : Thread nD τ))) (gf : Buf (Elt F) (arg3.view.loc (c : Thread nD τ)))
    (hgf : ∀ kr : Cell, ∀ i ∈ (row1 arg3 kr.1 kr.2).view.set, gf i = G kr i)
    (hG : ∀ kr : Cell, rowHolds c arg1 arg3 fx ft hx kr (G kr)) :
    arg3.view.read (Elt F) gf = gblk (arg1.view.read (Elt F) fx) (hbM.view.read (Elt F) ft) := by
  funext y
  obtain ⟨p, q, rfl⟩ : ∃ (p : Fin 512) (q : Fin 64), y = ix2 p q := ⟨y 0, y 1, eq_ix2 y⟩
  obtain ⟨kr, hkr⟩ := cell_of_row p
  obtain rfl : p = ⟨8 * kr.1.val + kr.2.val, cell_lt kr⟩ := Fin.ext hkr.symm
  rw [read_row c arg3 harg3 gf (G kr) kr (hgf kr) q]
  refine (hG kr q).trans ?_
  unfold gblk
  refine congrArg (hbM.view.read (Elt F) ft) (congrArg (fun a => ix2 (n0 := 2600000) (n1 := 64) a q) (Fin.ext ?_))
  exact (Cert.Spec.rowFin_val_of_lt (hx _)).symm

/-- The body at one grid point. Holding the ids block (every id a row of the table), the output block at anything, its
    512 semaphores at zero, the table whole and the core's record of waits, it runs to the end holding the ids block as
    it was, the output block at the gathered rows, the semaphores at zero, the table whole, and a record of waits. -/
theorem kernelRun (c : Dev nD) (i : grid0.Coords) (arg1 : Memref sig .tc .smem S512 .i32) (harg1 : arg1.IsWhole)
    (arg3 : Memref sig .tc .vmem S512x64 .f32) (harg3 : arg3.IsWhole)
    (x0 : Vec F S512 .i32) (hx0 : ∀ n : Fin 512, (x0 (ix1 n) : BitVec 32).toNat < 2600000)
    (ft : Buf (Elt F) (hbM.view.loc (c : Thread nD τ))) (W : Waits sig Unit) (K : PUnit → sProp 𝕄) :
    (iprop(owns (c : Thread nD τ) arg1 fullShare x0 ∗ (∃ d, owns (c : Thread nD τ) arg3 fullShare d)
        ∗ (bigSep Finset.univ fun kr : Cell => semVal ((c : Thread nD τ), osem kr) 0)
        ∗ (hbM.view.loc (c : Thread nD τ) ↦{fullShare} ft) ∗ owes (c : Thread nD τ) 0 W
        ∗ (iprop(owns (c : Thread nD τ) arg1 fullShare x0 ∗ owns (c : Thread nD τ) arg3 fullShare (gblk x0 (hbM.view.read (Elt F) ft))
            ∗ (bigSep Finset.univ fun kr : Cell => semVal ((c : Thread nD τ), osem kr) 0)
            ∗ (hbM.view.loc (c : Thread nD τ) ↦{fullShare} ft) ∗ (∃ W', owes (c : Thread nD τ) 0 W')) -∗ K ⟨⟩)) : sProp 𝕄)
      ⊢ wp frame (wpE (defs₀ (F := F)) Variants.none c none) Set.univ
          (cc0__gather_kernel (F := F) i arg1 harg1 hbM (Memref.isWhole_whole _) arg3 harg3 cc0_scratch0) K := by
  simp only [cc0__gather_kernel_eq_skeleton]; unfold cc0__gather_kernel_skel
  unfold owns
  iintro ⟨⟨%fx, %hfx, HX⟩, ⟨%d, %fd0, -, HD⟩, Hsem, HT, HW, HK⟩
  have hx : ∀ n : Fin 512, (arg1.view.read (Elt F) fx (ix1 n) : BitVec 32).toNat < 2600000 := by rw [hfx]; exact hx0
  -- the block as its rows, the table as read shares: one of each per cell
  ihave HD := (Entails.of_eq (rows_split c arg3 harg3 fd0)) $$ HD
  ihave HT := (table_toks c ft).1 $$ HT
  icases HT with ⟨Hdrop, Htoks⟩
  have ea : bigSep (Finset.univ : Finset Cell) (fun kr : Cell => (iprop(semVal ((c : Thread nD τ), osem kr) 0
          ∗ (hbM.view.loc (c : Thread nD τ) ↦[hbM.view.set]{tok kr} ft)) : sProp 𝕄))
      = iprop(bigSep (Finset.univ : Finset Cell) (fun kr : Cell => (semVal ((c : Thread nD τ), osem kr) 0 : sProp 𝕄))
          ∗ bigSep (Finset.univ : Finset Cell) (fun kr : Cell => (hbM.view.loc (c : Thread nD τ) ↦[hbM.view.set]{tok kr} ft : sProp 𝕄))) := bigSep_sep _ _ _
  have eb : bigSep (Finset.univ : Finset Cell) (fun kr : Cell => todo c arg3 ft fd0 kr.1 kr.2)
      = iprop(bigSep (Finset.univ : Finset Cell) (fun kr : Cell => (arg3.view.loc (c : Thread nD τ) ↦[(row1 arg3 kr.1 kr.2).view.set]{fullShare} fd0 : sProp 𝕄))
          ∗ bigSep (Finset.univ : Finset Cell) (fun kr : Cell => (iprop(semVal ((c : Thread nD τ), osem kr) 0
              ∗ (hbM.view.loc (c : Thread nD τ) ↦[hbM.view.set]{tok kr} ft)) : sProp 𝕄))) := bigSep_sep _ _ _
  have ec : bigSep (Finset.univ : Finset Cell) (fun kr : Cell => todo c arg3 ft fd0 kr.1 kr.2)
      = bigSep Finset.univ (fun k : Fin k0_t1_loop.trips => bigSep Finset.univ (fun r : Fin 8 => todo c arg3 ft fd0 k r)) :=
    bigSep_univ_prod (fun kr : Cell => todo c arg3 ft fd0 kr.1 kr.2)
  ihave H1 := (Entails.of_eq ea.symm) $$ [Hsem Htoks]
  · isplitl [Hsem]; · iexact Hsem
    iexact Htoks
  ihave H2 := (Entails.of_eq eb.symm) $$ [HD H1]
  · isplitl [HD]; · iexact HD
    iexact H1
  ihave Htodo := (Entails.of_eq ec) $$ H2
  -- the issuing loop
  iapply (Scf.wp_for_bind frame (wpE (defs₀ (F := F)) Variants.none c none) Set.univ k0_t1_loop.lb k0_t1_loop.ub k0_t1_loop.st
    Facts₀.k0_t1_ok () (k0_t1_body (F := F) i arg1 harg1 hbM (Memref.isWhole_whole _) arg3 harg3 cc0_scratch0)
    (inv1 c arg1 arg3 fx ft hx fd0) (fun k acc => step1 c arg1 arg3 fx ft hx i harg1 harg3 fd0 k acc)) $$ [HX Htodo]
  · unfold inv1
    rw [Ring.bigSep_rangeSet_empty (le_refl _), Ring.rangeSet_univ]
    isplitl [HX]; · iexact HX
    isplitr; · iempintro
    iexact Htodo
  iintro %acc HI
  ihave HM := (mid c arg1 arg3 fx ft hx fd0) $$ HI
  icases HM with ⟨%G, %SS, %hP, HX, HF, HR⟩
  -- the flights, named as the waiting loop names their semaphores
  have e1 : bigSep (Finset.univ : Finset Cell) (fun kr : Cell => flight1 c arg3 ft kr (G kr) (SS kr))
      = bigSep Finset.univ (fun k : Fin k0_t2_loop.trips => bigSep Finset.univ (fun r : Fin 8 => flying c arg3 ft G SS k r)) := by
    rw [← bigSep_univ_prod (fun kr : Cell => flying c arg3 ft G SS kr.1 kr.2)]
    exact bigSep_congr fun kr _ => by unfold flight1 flying; rw [sem12]
  ihave HF := (Entails.of_eq e1) $$ HF
  -- the waiting loop
  iapply (Scf.wp_for_bind frame (wpE (defs₀ (F := F)) Variants.none c none) Set.univ k0_t2_loop.lb k0_t2_loop.ub k0_t2_loop.st
    Facts₀.k0_t2_ok () (k0_t2_body (F := F) i arg1 harg1 hbM (Memref.isWhole_whole _) arg3 harg3 cc0_scratch0)
    (inv2 c arg1 arg3 fx ft G SS) (fun k acc => step2 c arg1 arg3 fx ft hx i harg1 harg3 G SS k acc)) $$ [HX HW HF]
  · unfold inv2
    rw [Ring.bigSep_rangeSet_empty (le_refl _), Ring.rangeSet_univ]
    isplitl [HX]; · iexact HX
    isplitl [HW]; · iexists W; iexact HW
    isplitr; · iempintro
    iexact HF
  iintro %acc2 HI
  ihave HE := (fin c arg1 arg3 fx ft harg3 G SS (fun kr => (hP kr).1)) $$ [HI HR]
  · isplitl [HI]; · iexact HI
    iexact HR
  icases HE with ⟨HX, HW, ⟨%gf, %hgf, HD⟩, Hsem, Htoks⟩
  rw [wp_pure]
  imodintro
  iapply HK
  isplitl [HX]
  · iexists fx; isplitr; · ipureintro; exact hfx
    iexact HX
  isplitl [HD]
  · iexists gf; isplitr
    · ipureintro
      rw [← hfx]
      exact block_value c arg1 arg3 harg3 fx ft hx G gf hgf (fun kr => (hP kr).2)
    iexact HD
  isplitl [Hsem]; · iexact Hsem
  isplitl [Hdrop Htoks]
  · iapply (table_toks c ft).2
    isplitl [Hdrop]; · iexact Hdrop
    iexact Htoks
  iexact HW

end Cert.KernelIdeal.Body

end
-- ==== Proof.KHost.lean ====
/-
  The ids the kernel is handed. @main adds each slot's offset to the ids, flattens them, and clamps every word into
  [0, 2599999] before the region; so whatever the inputs, every word of every ids block is a row of the table, and
  where the unclamped word already is one, the clamp leaves it alone.
-/
import proofs.«412992_j76828374991717_2_alg».proof.Proof.KData
import Idealize.ShloMosaic.Lib.StableHlo.Run
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The clamp on one word -/

/-- A word clamped into [0, 2599999], read signed, lies there. -/
theorem clamp_bounds (x : BitVec 32) :
    0 ≤ (IntOp.minsi 2599999#32 (IntOp.maxsi 0#32 x)).toInt
      ∧ (IntOp.minsi 2599999#32 (IntOp.maxsi 0#32 x)).toInt < 2600000 := by
  have hc : (2599999#32).toInt = 2599999 := by decide
  have hz : (0#32).toInt = 0 := by decide
  unfold IntOp.minsi IntOp.maxsi
  by_cases h1 : x.slt 0#32 = true
  · rw [if_pos h1]
    have h2 : ¬ (2599999#32).slt 0#32 = true := by decide
    rw [if_neg h2, hz]; omega
  · rw [if_neg h1]
    have h1' : ¬ x.toInt < (0#32).toInt := fun h => h1 (BitVec.slt_iff_toInt_lt.mpr h)
    by_cases h2 : (2599999#32).slt x = true
    · rw [if_pos h2, hc]; omega
    · rw [if_neg h2]
      have h2' : ¬ (2599999#32).toInt < x.toInt := fun h => h2 (BitVec.slt_iff_toInt_lt.mpr h)
      omega

/-- A word already in [0, 2600000) is left alone by the clamp. -/
theorem clamp_id (x : BitVec 32) (h0 : 0 ≤ x.toInt) (h1 : x.toInt < 2600000) :
    IntOp.minsi 2599999#32 (IntOp.maxsi 0#32 x) = x := by
  have hc : (2599999#32).toInt = 2599999 := by decide
  have hz : (0#32).toInt = 0 := by decide
  unfold IntOp.minsi IntOp.maxsi
  have a1 : ¬ x.slt 0#32 = true := fun h => by have := BitVec.slt_iff_toInt_lt.mp h; omega
  rw [if_neg a1]
  have a2 : ¬ (2599999#32).slt x = true := fun h => by have := BitVec.slt_iff_toInt_lt.mp h; omega
  rw [if_neg a2]

/-! ## The ids array the region finds -/

/-- The array the ids window stages, as the host operations before the region leave it: the row words (each id
    plus its slot's offset), flattened to one axis, each clamped into [0, 2599999]. -/
theorem v7_eq (c : Dev nD) :
    (V m c main_v7 : S425984.Idx → BitVec 32)
      = minsi (broadcastInDim S425984 ![] Gen.bcast_S_S425984 (constantI S_ 32 2599999#32))
          (maxsi (broadcastInDim S425984 ![] Gen.bcast_S_S425984 (constantI S_ 32 0#32))
            (shapeCast S425984 (Cert.Spec.gids Gen.bcast_S_S26 Gen.bcast_S26_S1x26_1 Gen.bcast_S1x26_S16384x26_0_1
              (V m c main_arg0)) Gen.shapeCasts_S16384x26_S425984)) := by
  dsimp only [Gen.V, Gen.V0]
  simp only [Gen.hostOps0, Gen.hostOps0_1, List.flatten_cons, List.flatten_nil, List.append_nil, List.cons_append,
    List.nil_append]
  after_results
  rfl

/-- Where every lookup's row word is in range, word 26 b + s of the ids array is the row word of lookup (b, s): the
    clamp leaves it alone, and the flattening puts lookup (b, s) at position 26 b + s. -/
theorem v7_apply (c : Dev nD)
    (hr : Cert.Spec.InRange (Cert.Spec.gids Gen.bcast_S_S26 Gen.bcast_S26_S1x26_1 Gen.bcast_S1x26_S16384x26_0_1 (m ((c.tc : Thread nD τ).loc main_arg0))))
    (n : Fin 425984) (b : Fin 16384) (s : Fin 26) (hn : n.val = 26 * b.val + s.val) :
    (V m c main_v7 : S425984.Idx → BitVec 32) (ix1 (n := 425984) n)
      = Cert.Spec.gids Gen.bcast_S_S26 Gen.bcast_S26_S1x26_1 Gen.bcast_S1x26_S16384x26_0_1 (m ((c.tc : Thread nD τ).loc main_arg0))
          (ix2 (n0 := 16384) (n1 := 26) b s) := by
  rw [v7_eq, V_main_arg0]
  show IntOp.minsi 2599999#32 (IntOp.maxsi 0#32 (shapeCast S425984 _ Gen.shapeCasts_S16384x26_S425984
    (ix1 (n := 425984) n))) = _
  rw [shapeCast_apply _ _ (ix1 (n := 425984) n) (ix2 (n0 := 16384) (n1 := 26) b s)
    (by rw [Shape.rowMajor_val_two, Shape.rowMajor_val_one]
        show b.val * 26 + s.val = n.val
        omega)]
  exact clamp_id _ (hr _).1 (hr _).2

/-! ## A block's word in the array -/

/-- Point t stages block t of the ids array. -/
theorem idx0 : ∀ t : Fin cfg0.N, win0_0.index t (0 : Fin 1) = t.val :=
  (by decide +kernel : ∀ t : Fin grid0.N, win0_0.index t (0 : Fin 1) = t.val)

/-- Word y of the ids block at point t is word 512 t + y of the array. -/
theorem iblk0_apply (c : Dev nD) (t : Fin cfg0.N) (y : S512.Idx) (k : S425984.Idx)
    (hk : (k 0).val = 512 * t.val + (y 0).val) :
    (iblk m c 0 t : Vec F S512 .i32) y = (V m c main_v7 : S425984.Idx → BitVec 32) k := by
  unfold iblk
  rw [View.read_apply]
  show V m c main_v7 _ = V m c main_v7 k
  congr 1
  funext a
  apply Fin.ext
  match a with
  | ⟨0, _⟩ =>
    show win0_0.index t (0 : Fin 1) * 512 + 1 * (y 0).val = (k 0).val
    rw [idx0 t, hk]; omega

/-! ## The two facts about a block's words -/

/-- Every word of every ids block names a row of the table (the host clamp), for any inputs. -/
theorem ids_lt (c : Dev nD) (t : Fin cfg0.N) (j : Fin 512) :
    ((iblk m c 0 t : Vec F S512 .i32) (ix1 (n := 512) j) : BitVec 32).toNat < 2600000 := by
  have ht : t.val < 832 := lt_of_lt_of_eq t.isLt N_0
  have e := iblk0_apply m c t (ix1 (n := 512) j) (ix1 (n := 425984) ⟨512 * t.val + j.val, by omega⟩) rfl
  rw [e, v7_eq]
  exact (Cert.Spec.toNat_of_inRange (clamp_bounds _).1 (clamp_bounds _).2).1

/-- Where every lookup's row word is in range, word j of block t is the row word of lookup number 512 t + j (lookup n
    is batch n / 26, slot n % 26). -/
theorem ids_eq (c : Dev nD)
    (hr : Cert.Spec.InRange (Cert.Spec.gids Gen.bcast_S_S26 Gen.bcast_S26_S1x26_1 Gen.bcast_S1x26_S16384x26_0_1 (m ((c.tc : Thread nD τ).loc main_arg0))))
    (t : Fin cfg0.N) (j : Fin 512) (hn : (512 * t.val + j.val) / 26 < 16384) :
    ((iblk m c 0 t : Vec F S512 .i32) (ix1 (n := 512) j) : BitVec 32)
      = Cert.Spec.gids Gen.bcast_S_S26 Gen.bcast_S26_S1x26_1 Gen.bcast_S1x26_S16384x26_0_1 (m ((c.tc : Thread nD τ).loc main_arg0))
          (ix2 (n0 := 16384) (n1 := 26) ⟨(512 * t.val + j.val) / 26, hn⟩ ⟨(512 * t.val + j.val) % 26, Nat.mod_lt _ (by decide)⟩) := by
  have ht : t.val < 832 := lt_of_lt_of_eq t.isLt N_0
  exact (iblk0_apply m c t (ix1 (n := 512) j) (ix1 (n := 425984) ⟨512 * t.val + j.val, by omega⟩) rfl).trans
    (v7_apply m c hr ⟨512 * t.val + j.val, by omega⟩ ⟨(512 * t.val + j.val) / 26, hn⟩
      ⟨(512 * t.val + j.val) % 26, Nat.mod_lt _ (by decide)⟩
      (by show 512 * t.val + j.val = 26 * ((512 * t.val + j.val) / 26) + (512 * t.val + j.val) % 26; omega))

end Cert.KernelIdeal.Body

end
-- ==== Proof.KLaunch.lean ====
/-
  The launch of the gather's pipeline: its 512 own semaphores are scoped, distinct and no window's; @main around the
  region at the algebra with transfer counters; the body's invariant conjunct by conjunct; the frame run from the
  body obligation; and the frame claim's post from the run's.
-/
import proofs.«412992_j76828374991717_2_alg».proof.Proof.KData
import proofs.«412992_j76828374991717_2_alg».proof.Proof.Gen.KernelIdeal.Launch
import proofs.«412992_j76828374991717_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- Cell r of trip k has the pool's semaphore 4 + 8k + r: the array starts at cell 4 and cell r of trip k is its entry
    8k + r. -/
private theorem sem1_val : ∀ (k : Fin k0_t1_loop.trips) (r : Fin 8),
    (sem1 cc0_scratch0 k r).sem.val = 4 + 8 * k.val + r.val := by
  decide +kernel

/-- Every DMA semaphore of the TensorCore's pool is scoped. -/
private theorem dma_scoped : ∀ n : DmaSem sig, (SemLoc.dma n : SemLoc sig).isScoped .tc = true := by decide +kernel

/-- The windows' staging semaphores are the pool's first four. -/
private theorem win_sem_lt : ∀ (w : Fin 2) (s : Fin (spec0 w).nbuf), ((spec0 w).sem s).val < 4 := by decide

/-- The kernel's 512 semaphores are scoped, pairwise distinct, and none is a window's staging semaphore. -/
theorem ownSemFacts : Pipeline.OwnSemFacts spec0 osem := by
  refine ⟨fun kr => dma_scoped _, ?_, ?_⟩
  · -- 8k + r determines k and r, r being below 8
    rintro ⟨k, r⟩ ⟨k', r'⟩ h
    have hv : (sem1 cc0_scratch0 k r).sem.val = (sem1 cc0_scratch0 k' r').sem.val :=
      congrArg Fin.val (SemLoc.dma.inj h)
    rw [sem1_val, sem1_val] at hv
    have hr := r.isLt
    have hr' := r'.isLt
    have hk : k = k' := Fin.ext (by omega)
    have hrr : r = r' := Fin.ext (by omega)
    rw [hk, hrr]
  · -- a window's semaphore is below 4, the kernel's are from 4 on
    intro kr w s h
    have hv : (sem1 cc0_scratch0 kr.1 kr.2).sem.val = ((spec0 w).sem s).val := congrArg Fin.val (SemLoc.dma.inj h)
    rw [sem1_val] at hv
    have := win_sem_lt w s
    omega

/-- The table is unscoped and no window's array. -/
theorem H0_sub : H0 ⊆ Pipeline.restRefs sig spec0 := by
  intro b hb
  rw [H0, Finset.mem_singleton] at hb
  subst hb
  exact Pipeline.mem_restRefs_of main_arg1 (by decide) (by decide)

/-- @main around the region, at the algebra with transfer counters: the host lines before it, the region, the reshape
    after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) := by
  exact Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- The body's invariant, conjunct by conjunct: no scoped buffer besides the staging buffers, the generator register at
    some state, the 512 semaphores at zero, the table whole at its contents at the region's entry. -/
theorem PhiD_eq (c : Dev nD) :
    (Pipeline.ΦD osem spec0 H0 (V m) c : sProp 𝕄)
      = iprop((BI.emp : sProp 𝕄) ∗ (∃ r, prngReg c r)
          ∗ (bigSep Finset.univ fun kr : Fin k0_t1_loop.trips × Fin 8 => semVal ((c : Thread nD τ), osem kr) 0)
          ∗ (hbM.view.loc (c : Thread nD τ) ↦{fullShare} V m c main_arg1)) := by
  -- no scoped buffer besides the staging buffers; the moved operands are the table alone
  rw [Pipeline.ΦD_eq, scopedRest0_eq, H0, BI.bigSep_singleton]
  rfl

/-- The reshape after the region touches the output array and its own result, not the table. -/
private theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut Pipeline.Prefetch.none spec0 H0 op
    ((List.forall_iff_forall_mem.mp hostOps1_sub) op hop) (fun k => k.elim0) ?_
  intro b hb
  rw [H0, Finset.mem_singleton] at hb
  subst hb
  simp only [hostOps1, List.mem_cons, List.mem_nil_iff, or_false] at hop
  subst hop
  rw [StableHlo.reshape_bufs]
  simp only [Finset.mem_insert, Finset.mem_singleton, not_or]
  exact ⟨StableHlo.devRef_ne_of_ne (by decide), StableHlo.devRef_ne_of_ne (by decide)⟩

/-- The frame run: from the body obligation, every weakly fair execution of @main terminates with every array of the
    pipeline at what the proof data compute and every other unscoped buffer at the region-entry contents pushed
    through the reshape after the region. -/
theorem run_main (hbody : ∀ c, BodyObligation (dats (F := F) m 0 c) (defs₀ (F := F)) Variants.none () Set.univ) :
    θ_run defs (onTc (τ := τ) (main (F := F))) (s₀ m ρ)
      (Pipeline.FramePost cfgs (dats m) 0 (Pipeline.afterTail₀ cfgs (dats m) 0 (V0 m) [hostOps1])) := by
  exact Pipeline.θ_run_frame_dma_around cfgs (dats m) (0 : Fin 1) launch0 osem defs₀ Variants.none ownSemFacts H0 H0_sub m ρ main
    (hbody := fun c => (hbody c).loose) (hshare := fun c => (dats m 0 c).share_full fun _ => rfl)
    (howed := fun _ _ => rfl) (V₀ := V0 m) (opss := [hostOps1]) (hsub := tail_sub) (hfresh := sfx_fresh)
    (hkeep := sfx_keeps) (hmain := hmainD m Variants.none) (hA := A_eq m)
    (hin := fun _ => .rfl) (hout := fun _ => .rfl)

/-- The reshape after the region writes neither argument array, and neither is an array of the pipeline: each ends at
    its region-entry contents, which are its launch contents. -/
theorem tail_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.reshape_writes,
        Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem tail_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.Forall, StableHlo.reshape_writes,
        Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- The frame claim's post from the frame run's: the two argument arrays end as launched. -/
theorem frame_of_run
    (h : θ_run defs (onTc (τ := τ) (main (F := F))) (s₀ m ρ)
      (Pipeline.FramePost cfgs (dats m) 0 (Pipeline.afterTail₀ cfgs (dats m) 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
  exact (θ_run defs _ _).mono (fun _ h c =>
    ⟨((h c).2 main_arg0 (Pipeline.mem_restRefs_of main_arg0 (by decide) (by decide))).trans (tail_arg0 m c),
      ((h c).2 main_arg1 (Pipeline.mem_restRefs_of main_arg1 (by decide) (by decide))).trans (tail_arg1 m c)⟩) h

end Cert.KernelIdeal.Body

end
-- ==== Proof.KFrame.lean ====
/-
  The gather's frame. At every grid point the pipeline hands the body the ids window's block and the output window's
  buffer; the body's run (the two loops) returns the block untouched and the buffer at the gathered rows, its
  semaphores at zero and the table whole: the body obligation. The launch then gives the run of @main, and the run
  gives the frame claim: the two argument arrays end as launched.
-/
import proofs.«412992_j76828374991717_2_alg».proof.Proof.KBody
import proofs.«412992_j76828374991717_2_alg».proof.Proof.KHost
import proofs.«412992_j76828374991717_2_alg».proof.Proof.KLaunch

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The ids window's current buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the invariant hands it its semaphores at zero and the table, the ids window holds its block
    (every id a row of the table: the host clamp), and the run returns everything as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl, after0_0, after0_1]
  rw [show (dats m 0 c).Φ t.castSucc = Pipeline.ΦD osem spec0 H0 (V m) c from rfl, PhiD_eq]
  unfold Dat.owesAt Pipeline.owesWithin
  rw [show (dats m 0 c).owed t.castSucc = 0 from rfl, show (dats m 0 c).owed t.succ = 0 from rfl]
  iintro ⟨⟨-, Hg, Hsem, HT⟩, ⟨%W, -, HW⟩, ⟨%d0, H0⟩, ⟨%d1, H1⟩⟩
  iapply (kernelRun c (grid0.coords t) (ms0_0 t) (hs0_0 t) (ms0_1 t) (hs0_1 t) (iblk m c 0 t) (ids_lt m c t) (V m c main_arg1) W _)
  isplitl [H0]; · iexact H0
  isplitl [H1]; · iexists _; iexact H1
  isplitl [Hsem]; · iexact Hsem
  isplitl [HT]; · iexact HT
  isplitl [HW]; · iexact HW
  iintro ⟨H0, H1, Hsem, HT, ⟨%W', HW'⟩⟩
  isplitl [Hg Hsem HT]
  · isplitr; · iempintro
    isplitl [Hg]; · iexact Hg
    isplitl [Hsem]; · iexact Hsem
    iexact HT
  isplitl [HW']
  · iexists W'; isplitr; · ipureintro; exact fun _ _ => Or.inl trivial
    iexact HW'
  isplitl [H0]; · iexact H0
  simp only [hbM, Memref.view_whole, View.read_whole]
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- The run of @main: it terminates, nothing faults, and the final state is the frame run's post. -/
theorem run : θ_run defs (onTc (τ := τ) (main (F := F))) (s₀ m ρ)
    (Pipeline.FramePost cfgs (dats m) 0 (Pipeline.afterTail₀ cfgs (dats m) 0 (V0 m) [hostOps1])) :=
  run_main m ρ (body_obligation m)

/-- The frame: the two argument arrays end as launched, for any memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (run m ρ)

end Cert.KernelIdeal.Body

end
-- ==== Proof.KValue.lean ====
/-
  The kernel's result. The output array after the run is the gathered rows block by block (block t written back by
  point t holds rows 512 t … 512 t + 511 of the result, row j of it the table's row named by id j of ids block t); the
  reshape after the region lays lookup n = 26 b + s at [b, s, :]. Where every lookup names a row of the table this is the
  specification's function of the two arguments.
-/
import proofs.«412992_j76828374991717_2_alg».proof.Proof.KHost
import Idealize.ShloMosaic.Lib.StableHlo.Run
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The result array as one function of the ids array and the table -/

/-- Row n of the gathered array is the table's row named by word n of the ids array. -/
def rows (ids : Vec F S425984 .i32) (tab : Vec F S2600000x64 .f32) : Vec F S425984x64 .f32 :=
  fun i => tab (ix2 (n0 := 2600000) (n1 := 64) (Cert.Spec.rowFin (ids (ix1 (n := 425984) (i 0)))) (i 1))

/-- Point t writes back block t of the result's rows, all 64 columns. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The gathered block at an entry. -/
theorem gblk_apply (x0 : Vec F S512 .i32) (tab : Vec F S2600000x64 .f32) (y : S512x64.Idx) :
    gblk x0 tab y = tab (ix2 (n0 := 2600000) (n1 := 64) (Cert.Spec.rowFin (x0 (ix1 (n := 512) (y 0)))) (y 1)) := rfl

/-- What point t writes back is block t of `rows` of the ids array and the table as the region finds them: row y
    of the block is row 512 t + y of the array, and word y of the ids block is word 512 t + y of the ids array. -/
theorem flushed_eq (c : Dev nD) (t : Fin cfg0.N) :
    (dats m 0 c).flushed 1 t = ((cfg0.win 1).blk t).view.read (Elt F) (rows (V m c main_v7) (V m c main_arg1)) := by
  show (cfg0.win 1).cut (grid0.coords t) ((dats m 0 c).after 1 t) = _
  rw [after0_1]
  obtain ⟨e0, e1⟩ := idx1 t
  funext y
  have ht : t.val < 832 := lt_of_lt_of_eq t.isLt N_0
  have hy0 : (y 0).val < 512 := (y 0).isLt
  have hy1 : (y 1).val < 64 := (y 1).isLt
  show gblk (iblk m c 0 t) (V m c main_arg1) (ix2 (n0 := 512) (n1 := 64) ⟨(y 0).val, hy0⟩ ⟨(y 1).val, hy1⟩)
    = rows (V m c main_v7) (V m c main_arg1) (((cfg0.win 1).blk t).view.emb y)
  rw [gblk_apply]
  unfold rows
  have hrow : (((cfg0.win 1).blk t).view.emb y 0).val = 512 * t.val + (y 0).val := by
    show win0_1.index t (0 : Fin 2) * 512 + 1 * (y 0).val = _
    rw [e0]; omega
  have hcol : (((cfg0.win 1).blk t).view.emb y 1).val = (y 1).val := by
    show win0_1.index t (1 : Fin 2) * 64 + 1 * (y 1).val = _
    rw [e1]; omega
  rw [iblk0_apply m c t (ix1 (n := 512) ⟨(y 0).val, hy0⟩) (ix1 (n := 425984) (((cfg0.win 1).blk t).view.emb y 0)) hrow]
  exact congrArg (V m c main_arg1) (funext fun a => by
    match a with
    | ⟨0, _⟩ => rfl
    | ⟨1, _⟩ => exact Fin.ext hcol.symm)

/-- An index of the result array is in point t's block iff each coordinate is in the block's range on its axis. -/
theorem mem_blk1 (t : Fin cfg0.N) (i : S425984x64.Idx) :
    i ∈ ((cfg0.win 1).blk t).view.set ↔ ∀ a : Fin 2, win0_1.index t a * S512x64.size a ≤ (i a).val
      ∧ (i a).val < win0_1.index t a * S512x64.size a + S512x64.size a := by
  show i ∈ ((View.whole main_v8).slice (win0_1.rect t)).set ↔ _
  rw [View.set_slice_whole, Rect.mem_set_unit]
  exact Iff.rfl

/-- After the run the result array is `rows` of the ids array and the table: row n is in the block of point n / 512. -/
theorem final (c : Dev nD) : (dats m 0 c).arrAt 1 cfg0.N = rows (V m c main_v7) (V m c main_arg1) :=
  (dats m 0 c).arrAt_eq_of_cover 1 (rows (V m c main_v7) (V m c main_arg1)) (fun t _ => flushed_eq m c t) fun i => by
    have hi0 : (i 0).val < 425984 := (i 0).isLt
    have hi1 : (i 1).val < 64 := (i 1).isLt
    let t : Fin cfg0.N := ⟨(i 0).val / 512, lt_of_lt_of_eq (by omega : (i 0).val / 512 < 832) N_0.symm⟩
    obtain ⟨e0, e1⟩ := idx1 t
    refine ⟨t, flush0_1 t, ?_⟩
    rw [mem_blk1]
    intro a
    match a with
    | ⟨0, _⟩ =>
      show win0_1.index t (0 : Fin 2) * 512 ≤ (i 0).val ∧ (i 0).val < win0_1.index t (0 : Fin 2) * 512 + 512
      rw [e0]; show (i 0).val / 512 * 512 ≤ (i 0).val ∧ (i 0).val < (i 0).val / 512 * 512 + 512; omega
    | ⟨1, _⟩ =>
      show win0_1.index t (1 : Fin 2) * 64 ≤ (i 1).val ∧ (i 1).val < win0_1.index t (1 : Fin 2) * 64 + 64
      rw [e1]; omega

/-- The reshape after the region lays lookup 26 b + s at [b, s, :]; where every lookup names a row of the table, the
    ids word there is that lookup's row word, so the reshaped rows are the specification's function. -/
theorem rows_reshape (c : Dev nD)
    (hr : Cert.Spec.InRange (Cert.Spec.gids Gen.bcast_S_S26 Gen.bcast_S26_S1x26_1 Gen.bcast_S1x26_S16384x26_0_1 (m ((c.tc : Thread nD τ).loc main_arg0)))) :
    shapeCast S16384x26x64 (rows (V m c main_v7) (V m c main_arg1)) Gen.shapeCasts_S425984x64_S16384x26x64
      = Cert.Spec.G (Cert.Spec.gids Gen.bcast_S_S26 Gen.bcast_S26_S1x26_1 Gen.bcast_S1x26_S16384x26_0_1 (m ((c.tc : Thread nD τ).loc main_arg0)))
          (m ((c.tc : Thread nD τ).loc main_arg1)) := by
  funext i
  have hi0 : (i 0).val < 16384 := (i 0).isLt
  have hi1 : (i 1).val < 26 := (i 1).isLt
  have hi2 : (i 2).val < 64 := (i 2).isLt
  rw [shapeCast_apply _ _ i
    (ix2 (n0 := 425984) (n1 := 64) ⟨26 * (i 0).val + (i 1).val, by omega⟩ (i 2))
    (by rw [Shape.rowMajor_val_two, Shape.rowMajor_val_three]
        show (26 * (i 0).val + (i 1).val) * 64 + (i 2).val = ((i 0).val * 26 + (i 1).val) * 64 + (i 2).val
        omega)]
  unfold rows Cert.Spec.G
  rw [V_main_arg1]
  show m ((c.tc : Thread nD τ).loc main_arg1) (ix2 (n0 := 2600000) (n1 := 64)
      (Cert.Spec.rowFin ((V m c main_v7 : S425984.Idx → BitVec 32)
        (ix1 (n := 425984) ⟨26 * (i 0).val + (i 1).val, by omega⟩))) (i 2)) = _
  rw [v7_apply m c hr ⟨26 * (i 0).val + (i 1).val, by omega⟩ (i 0) (i 1) rfl]

/-! ## The statement -/

/-- The result buffer after the run, as the frame run's post states it, is the specification's function of the
    argument arrays, where every lookup names a row of the table. -/
theorem result_eq (c : Dev nD)
    (hr : Cert.Spec.InRange (Cert.Spec.gids Gen.bcast_S_S26 Gen.bcast_S26_S1x26_1 Gen.bcast_S1x26_S16384x26_0_1 (m ((c.tc : Thread nD τ).loc main_arg0)))) :
    Pipeline.afterTail₀ cfgs (dats m) 0 (V0 m) [hostOps1] c main_v9
      = Cert.Spec.G (Cert.Spec.gids Gen.bcast_S_S26 Gen.bcast_S26_S1x26_1 Gen.bcast_S1x26_S16384x26_0_1 (m ((c.tc : Thread nD τ).loc main_arg0)))
          (m ((c.tc : Thread nD τ).loc main_arg1)) := by
  have hA : Pipeline.withArrays spec0 c (V0 m c) (fun w => (dats m 0 c).arrAt w cfg0.N) (Proc.devRef .tc main_v8)
      = rows (V m c main_v7) (V m c main_arg1) :=
    (Pipeline.withArrays_arr spec0 launch0.win.arr_inj c _ _ 1).trans (final m c)
  unfold Pipeline.afterTail₀
  show StableHlo.after hostOps1 _ (Proc.devRef .tc main_v9) = _
  after_results
  funext i
  show shapeCast S16384x26x64 (Pipeline.withArrays spec0 c (V0 m c) (fun w => (dats m 0 c).arrAt w cfg0.N)
    (Proc.devRef .tc main_v8)) shapeCasts_S425984x64_S16384x26x64 i = _
  rw [hA]
  exact congrFun (rows_reshape m c hr) i

end Cert.KernelIdeal.Body

end
-- ==== Proof.KRun.lean ====
/-
  The idealized kernel's run with its result: where every lookup names a row of the table, the result buffer ends at
  the specification's function of the two arguments, and the arguments end as launched.
-/
import proofs.«412992_j76828374991717_2_alg».proof.Proof.KFrame
import proofs.«412992_j76828374991717_2_alg».proof.Proof.KValue

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The run, its result named. -/
theorem run_G
    (hr : ∀ c : Dev nD, Cert.Spec.InRange (Cert.Spec.gids Gen.bcast_S_S26 Gen.bcast_S26_S1x26_1 Gen.bcast_S1x26_S16384x26_0_1
      (m ((c.tc : Thread nD τ).loc main_arg0)))) :
    θ_run defs (onTc (τ := τ) (main (F := F))) ⟨m, fun _ => 0, ρ⟩ (fun r => ∀ c : Dev nD,
      r.2.mem ((c.tc : Thread nD τ).loc main_v9)
        = Cert.Spec.G (Cert.Spec.gids Gen.bcast_S_S26 Gen.bcast_S26_S1x26_1 Gen.bcast_S1x26_S16384x26_0_1 (m ((c.tc : Thread nD τ).loc main_arg0)))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v9 (Pipeline.mem_restRefs_of main_v9 (by decide) (by decide))).trans (result_eq m c (hr c)),
      ((h c).2 main_arg0 (Pipeline.mem_restRefs_of main_arg0 (by decide) (by decide))).trans (tail_arg0 m c),
      ((h c).2 main_arg1 (Pipeline.mem_restRefs_of main_arg1 (by decide) (by decide))).trans (tail_arg1 m c)⟩) (run m ρ)

end Cert.KernelIdeal.Body

end
-- ==== Proof.RefSide.lean ====
/-
  The reference's run and its result: under in-range lookups the take neither wraps nor fills, and the result
  is the table's row per lookup.

  The program is a straight line once its two functions are read at their call sites: thirty operations, the
  first seven forming the row words, the rest the take. Its run ends with the result buffer at the composed
  term `taken` of the two arguments, which are left as they were. Entry by entry that term is the
  specification's function: a row word in [0, 2600000) is not negative, so the wrap keeps it; it passes the
  range test, so the select takes the gathered entry and never the fill value; and the gather's clamp of a row
  number below the table's height is that row number.
-/
import proofs.«412992_j76828374991717_2_alg».proof.ReferenceIdeal
import proofs.«412992_j76828374991717_2_alg».proof.Proof.Gen.ReferenceIdeal
import proofs.«412992_j76828374991717_2_alg».proof.Proof.Spec
import Idealize.ShloMosaic.PureOps.Ideal
import Idealize.ShloMosaic.Lib.StableHlo.Run

noncomputable section

namespace Cert.RefSide

open Idealize.ShloMosaic Idealize.ShloMosaic.TcCoe Idealize.SL.Sem Idealize.ShloMosaic.ValueIdx
open Cert.ReferenceIdeal Cert.ReferenceIdeal.Gen

section Generic

variable {F : FTy → Type} [FloatOps F]

/-! ## The result as one term of the arguments -/

/-- The take's start indices: a negative row word wrapped by the table's height, with a unit axis appended. -/
def wrapped (g : IVec S16384x26 32) : IVec S16384x26x1 32 :=
  broadcastInDim S16384x26x1 ![0, 1] bcast_S16384x26_S16384x26x1_0_1
    (select (cmpi .slt g (broadcastInDim S16384x26 ![] bcast_S_S16384x26 (constantI S_ 32 0#32)))
      (addi g (broadcastInDim S16384x26 ![] bcast_S_S16384x26 (constantI S_ 32 2600000#32))) g)

/-- The take's range test per lookup: every component of the start index within [0, 2599999]. -/
def inside (w : IVec S16384x26x1 32) : IVec S16384x26 1 :=
  Host.reduce IntOp.andi
    (andi (cmpi .sge w (broadcastInDim S16384x26x1 ![] bcast_S_S16384x26x1 (constantI S_ 32 0#32)))
      (cmpi .sle w (broadcastInDim S16384x26x1 ![0, 1, 2] bcast_S1x1x1_S16384x26x1_0_1_2
        (broadcastInDim S1x1x1 ![2] bcast_S1_S1x1x1_2 (constantI S1 32 2599999#32)))))
    (constantI S_ 1 1#1) reducesTo_S16384x26x1_S16384x26_d2 h_S_

/-- The take: the gathered rows where the range test holds, the fill value elsewhere. -/
def taken (g : IVec S16384x26 32) (table : FVec F S2600000x64 .f32) : FVec F S16384x26x64 .f32 :=
  select (broadcastInDim S16384x26x64 ![0, 1] bcast_S16384x26_S16384x26x64_0_1 (inside (wrapped g)))
    (Host.gather gather_S2600000x64_S16384x26x1_S16384x26x64_2_0_n_n_0_2_164 table (wrapped g))
    (broadcastInDim S16384x26x64 ![] bcast_S_S16384x26x64 (constant S_ .f32 0x7FC00000#32))

/-! ## The run -/

section Run

open Idealize.ShloMosaic.StableHlo

/-- The program's thirty operations in order, each function's body read at its call: the seven that form the
    row words, then the take's twenty-three (the wrap's select is the inner function's one operation). -/
abbrev ops : List (HloOp τ sig (Elt F)) :=
  [ nullary main_v0 (iotaInDim S26 32 0),
    nullary main_c (constantI S_ 32 100000#32),
    unary main_c main_v1 (broadcastInDim S26 ![] bcast_S_S26 : (⟨S_, .i32⟩ : BufTy).Contents (Elt F) → (⟨S26, .i32⟩ : BufTy).Contents (Elt F)),
    binary main_v0 main_v1 main_v2 (muli : (⟨S26, .i32⟩ : BufTy).Contents (Elt F) → (⟨S26, .i32⟩ : BufTy).Contents (Elt F) → (⟨S26, .i32⟩ : BufTy).Contents (Elt F)),
    unary main_v2 main_v3 (broadcastInDim S1x26 ![1] bcast_S26_S1x26_1 : (⟨S26, .i32⟩ : BufTy).Contents (Elt F) → (⟨S1x26, .i32⟩ : BufTy).Contents (Elt F)),
    unary main_v3 main_v4 (broadcastInDim S16384x26 ![0, 1] bcast_S1x26_S16384x26_0_1 : (⟨S1x26, .i32⟩ : BufTy).Contents (Elt F) → (⟨S16384x26, .i32⟩ : BufTy).Contents (Elt F)),
    binary main_arg0 main_v4 main_v5 (addi : (⟨S16384x26, .i32⟩ : BufTy).Contents (Elt F) → (⟨S16384x26, .i32⟩ : BufTy).Contents (Elt F) → (⟨S16384x26, .i32⟩ : BufTy).Contents (Elt F)),
    TRef.nullary main_call0.c (constantI S_ 32 0#32),
    TRef.unary main_call0.c main_call0.v0 (broadcastInDim S16384x26 ![] bcast_S_S16384x26),
    TRef.binary (.of main_v5) main_call0.v0 main_call0.v1 (cmpi .slt),
    TRef.nullary main_call0.c_0 (constantI S_ 32 2600000#32),
    TRef.unary main_call0.c_0 main_call0.v2 (broadcastInDim S16384x26 ![] bcast_S_S16384x26),
    TRef.binary (.of main_v5) main_call0.v2 main_call0.v3 addi,
    TRef.ternary main_call0.v1 main_call0.v3 (.of main_v5) main_call0.call0.v0 select,
    TRef.unary main_call0.call0.v0 main_call0.v5 (broadcastInDim S16384x26x1 ![0, 1] bcast_S16384x26_S16384x26x1_0_1),
    TRef.nullary main_call0.c_1 (constantI S1 32 2599999#32),
    TRef.nullary main_call0.c_2 (constantI S_ 32 0#32),
    TRef.unary main_call0.c_2 main_call0.v6 (broadcastInDim S16384x26x1 ![] bcast_S_S16384x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x26x1 ![0, 1, 2] bcast_S1x1x1_S16384x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x26x1_S16384x26_d2 h_S_),
    TRef.binary (.of main_arg1) main_call0.v5 main_call0.v13 (fun x i => Host.gather gather_S2600000x64_S16384x26x1_S16384x26x64_2_0_n_n_0_2_164 x i),
    TRef.unary main_call0.v12 main_call0.v14 (broadcastInDim S16384x26x64 ![0, 1] bcast_S16384x26_S16384x26x64_0_1),
    TRef.nullary main_call0.cst (constant S_ .f32 0x7FC00000#32),
    TRef.unary main_call0.cst main_call0.v15 (broadcastInDim S16384x26x64 ![] bcast_S_S16384x26x64),
    TRef.ternary main_call0.v14 main_call0.v13 main_call0.v15 main_call0.v16 select ]

set_option maxRecDepth 1024 in
/-- The program is that straight line: both sides are one chain of steps once the functions' bodies are read at
    their calls and the sequencing is associated to the right. -/
theorem main_eq (c : Dev nD) : main (F := F) c = seq ops := by
  simp only [main, fn_take.body, fn_where.body, seq, bind_assoc, pure_bind]

/-- No buffer is scoped … -/
theorem scopedRefs_eq : (Finset.univ.filter fun b : Ref sig .tc => b.isScoped) = ∅ := by decide
/-- … and there is no semaphore. -/
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
set_option maxHeartbeats 1000000 in
/-- After the thirty operations the result buffer holds `taken` of the row words and the table: each operation's
    result read at its own buffer is its function of its operands' contents, and at any other buffer what was
    there. -/
theorem out_eq (V : Valuation τ sig (Elt F)) :
    after ops V (main_v6 : DevRef τ sig)
      = taken (Cert.Spec.gids bcast_S_S26 bcast_S26_S1x26_1 bcast_S1x26_S16384x26_0_1 (V (main_arg0 : DevRef τ sig)))
          (V (main_arg1 : DevRef τ sig)) := by
  after_results
  rfl

set_option maxRecDepth 8192 in
set_option maxHeartbeats 1000000 in
/-- No operation writes the first argument … -/
theorem arg0_eq (V : Valuation τ sig (Elt F)) :
    after ops V (main_arg0 : DevRef τ sig) = V (main_arg0 : DevRef τ sig) := by
  after_results

set_option maxRecDepth 8192 in
set_option maxHeartbeats 1000000 in
/-- … nor the second. -/
theorem arg1_eq (V : Valuation τ sig (Elt F)) :
    after ops V (main_arg1 : DevRef τ sig) = V (main_arg1 : DevRef τ sig) := by
  after_results

/-- From any memory with zero counters every weakly fair execution of the program ends, each buffer at the
    operations' fold over the launch contents. -/
theorem run_ops (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Run

/-! ## The value, entry by entry -/

section Value

/-- Reading an array with a unit axis appended: the entry at the other two coordinates. -/
theorem bcast_unit_apply {α : Type} (x : S16384x26.Idx → α) (k : S16384x26x1.Idx) :
    broadcastInDim S16384x26x1 ![0, 1] bcast_S16384x26_S16384x26x1_0_1 x k
      = x (ix2 (n0 := 16384) (n1 := 26) (k 0) (k 1)) := by
  unfold broadcastInDim
  refine congrArg x (funext fun a => ?_)
  match a with
  | ⟨0, _⟩ => rfl
  | ⟨1, _⟩ => rfl

/-- In range, the wrap leaves the row word as it is. -/
theorem wrapped_apply (g : IVec S16384x26 32) (hg : Cert.Spec.InRange g) (k : S16384x26x1.Idx) :
    wrapped g k = g (ix2 (n0 := 16384) (n1 := 26) (k 0) (k 1)) := by
  have h0 := (hg (ix2 (n0 := 16384) (n1 := 26) (k 0) (k 1))).1
  unfold wrapped
  rw [bcast_unit_apply]
  have hs : (g (ix2 (n0 := 16384) (n1 := 26) (k 0) (k 1))).slt 0#32 = false := by
    rw [← Bool.not_eq_true, BitVec.slt_iff_toInt_lt]
    simpa using h0
  show Scalar.select (IntOp.cmpi .slt (g (ix2 (n0 := 16384) (n1 := 26) (k 0) (k 1))) 0#32) _ _ = _
  simp only [IntOp.cmpi, hs]
  exact select_zero _ _

/-- In range, the range test holds at every entry of the start indices. -/
theorem test_apply (g : IVec S16384x26 32) (hg : Cert.Spec.InRange g) (k : S16384x26x1.Idx) :
    andi (cmpi .sge (wrapped g) (broadcastInDim S16384x26x1 ![] bcast_S_S16384x26x1 (constantI S_ 32 0#32)))
      (cmpi .sle (wrapped g) (broadcastInDim S16384x26x1 ![0, 1, 2] bcast_S1x1x1_S16384x26x1_0_1_2
        (broadcastInDim S1x1x1 ![2] bcast_S1_S1x1x1_2 (constantI S1 32 2599999#32)))) k = 1#1 := by
  obtain ⟨h0, h1⟩ := hg (ix2 (n0 := 16384) (n1 := 26) (k 0) (k 1))
  show IntOp.andi (IntOp.cmpi .sge (wrapped g k) 0#32) (IntOp.cmpi .sle (wrapped g k) 2599999#32) = 1#1
  rw [wrapped_apply g hg k]
  have ha : (0#32).sle (g (ix2 (n0 := 16384) (n1 := 26) (k 0) (k 1))) = true := by
    rw [BitVec.sle_iff_toInt_le]; simpa using h0
  have hb : (g (ix2 (n0 := 16384) (n1 := 26) (k 0) (k 1))).sle 2599999#32 = true := by
    rw [BitVec.sle_iff_toInt_le]
    have : (2599999#32).toInt = 2599999 := by decide
    omega
  simp only [IntOp.cmpi, ha, hb]
  decide

/-- A fold by conjunction from the bit 1 over bits that are all 1 is 1. -/
theorem foldl_andi_one {ι : Type} (x : ι → BitVec 1) (hx : ∀ n, x n = 1#1) (l : List ι) :
    l.foldl (fun r n => IntOp.andi r (x n)) 1#1 = 1#1 := by
  induction l with
  | nil => rfl
  | cons a l ih =>
    rw [List.foldl_cons, hx a]
    exact ih

/-- In range, every lookup passes the range test. -/
theorem inside_apply (g : IVec S16384x26 32) (hg : Cert.Spec.InRange g) (j : S16384x26.Idx) :
    inside (wrapped g) j = 1#1 := by
  unfold inside Host.reduce
  exact foldl_andi_one _ (fun n => test_apply g hg _) _

end Value

section Gather

/-- The gather read at an entry: the table's row at the start index, read signed and clamped to the table, at
    the entry's column. -/
theorem gather_apply {α : Type} (table : S2600000x64.Idx → α) (w : IVec S16384x26x1 32) (i : S16384x26x64.Idx) :
    Host.gather gather_S2600000x64_S16384x26x1_S16384x26x64_2_0_n_n_0_2_164 table w i
      = table (ix2 (n0 := 2600000) (n1 := 64)
          ⟨min (w (ix3 (n0 := 16384) (n1 := 26) (n2 := 1) (i 0) (i 1) 0)).toInt.toNat 2599999, by omega⟩ (i 2)) := by
  unfold Host.gather
  congr 1
  funext a
  refine Fin.ext ?_
  match a with
  | ⟨0, _⟩ =>
    show gather_S2600000x64_S16384x26x1_S16384x26x64_2_0_n_n_0_2_164.start i w 0
        + gather_S2600000x64_S16384x26x1_S16384x26x64_2_0_n_n_0_2_164.batchCoord i 0
        + gather_S2600000x64_S16384x26x1_S16384x26x64_2_0_n_n_0_2_164.offCoord i 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2600000x64_S16384x26x1_S16384x26x64_2_0_n_n_0_2_164.startIndexMap from
      List.mem_singleton.mpr rfl)]
    have hsi : gather_S2600000x64_S16384x26x1_S16384x26x64_2_0_n_n_0_2_164.siIdx i
        ⟨List.idxOf (0 : Fin 2) gather_S2600000x64_S16384x26x1_S16384x26x64_2_0_n_n_0_2_164.startIndexMap,
          List.idxOf_lt_length_iff.2 (List.mem_singleton.mpr rfl)⟩
        = ix3 (n0 := 16384) (n1 := 26) (n2 := 1) (i 0) (i 1) 0 := by
      funext b; refine Fin.ext ?_
      match b with
      | ⟨0, _⟩ => rfl
      | ⟨1, _⟩ => rfl
      | ⟨2, _⟩ => rfl
    rw [hsi]
    rfl
  | ⟨1, _⟩ =>
    show gather_S2600000x64_S16384x26x1_S16384x26x64_2_0_n_n_0_2_164.start i w 1
        + gather_S2600000x64_S16384x26x1_S16384x26x64_2_0_n_n_0_2_164.batchCoord i 1
        + gather_S2600000x64_S16384x26x1_S16384x26x64_2_0_n_n_0_2_164.offCoord i 1 = _
    rw [GatherDims.batchCoord_eq_zero _ _ _ List.not_mem_nil]
    unfold GatherDims.start
    rw [dif_neg (show (1 : Fin 2) ∉ gather_S2600000x64_S16384x26x1_S16384x26x64_2_0_n_n_0_2_164.startIndexMap from by decide)]
    simp only [Nat.add_zero, Nat.zero_add]
    unfold GatherDims.offCoord
    rw [dif_pos (show (1 : Fin 2) ∈ gather_S2600000x64_S16384x26x1_S16384x26x64_2_0_n_n_0_2_164.sKept from by decide)]
    rfl

end Gather

section Result

/-- In range the take is the specification's function: the range test holds everywhere, so the fill value is
    never selected, and the clamp of an in-range row number is the row number. -/
theorem taken_eq_G (g : IVec S16384x26 32) (table : FVec F S2600000x64 .f32) (hg : Cert.Spec.InRange g) :
    taken g table = Cert.Spec.G g table := by
  funext i
  have hin : broadcastInDim S16384x26x64 ![0, 1] bcast_S16384x26_S16384x26x64_0_1 (inside (wrapped g)) i = 1#1 := by
    unfold broadcastInDim
    exact inside_apply g hg _
  have hw : wrapped g (ix3 (n0 := 16384) (n1 := 26) (n2 := 1) (i 0) (i 1) 0)
      = g (ix2 (n0 := 16384) (n1 := 26) (i 0) (i 1)) := wrapped_apply g hg _
  obtain ⟨h0, h1⟩ := hg (ix2 (n0 := 16384) (n1 := 26) (i 0) (i 1))
  obtain ⟨hlt, hto⟩ := Cert.Spec.toNat_of_inRange h0 h1
  unfold taken
  rw [select_apply, hin, select_one, gather_apply]
  unfold Cert.Spec.G
  refine congrArg table (congrArg (fun r => ix2 (n0 := 2600000) (n1 := 64) r (i 2)) (Fin.ext ?_))
  show min (wrapped g (ix3 (n0 := 16384) (n1 := 26) (n2 := 1) (i 0) (i 1) 0)).toInt.toNat 2599999
    = (Cert.Spec.rowFin (g (ix2 (n0 := 16384) (n1 := 26) (i 0) (i 1)))).val
  rw [hw, Cert.Spec.rowFin_val_of_lt hlt, hto]
  omega

end Result

end Generic

/-! ## The statement -/

/-- The reference runs to the end with its result at the specification's function of its arguments, the
    arguments unchanged, whenever every lookup names a row of the table. -/
theorem run_G (m : (ℓ : Loc nD τ sig) → Buf (Elt Ideal) ℓ) (ρ : Dev nD → PrngReg)
    (hr : ∀ c : Dev nD, Cert.Spec.InRange (Cert.Spec.gids bcast_S_S26 bcast_S26_S1x26_1 bcast_S1x26_S16384x26_0_1
      (m ((c.tc : Thread nD τ).loc main_arg0)))) :
    θ_run (defs (F := Ideal)) (onTc (τ := τ) (main (F := Ideal))) ⟨m, fun _ => 0, ρ⟩ (fun r => ∀ c : Dev nD,
      r.2.mem ((c.tc : Thread nD τ).loc main_v6)
        = Cert.Spec.G (Cert.Spec.gids bcast_S_S26 bcast_S26_S1x26_1 bcast_S1x26_S16384x26_0_1 (m ((c.tc : Thread nD τ).loc main_arg0)))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c main_v6).trans (out_eq _)).trans (taken_eq_G _ _ (hr c)),
        (h c main_arg0).trans (arg0_eq _), (h c main_arg1).trans (arg1_eq _)⟩)
    (run_ops m ρ)

end Cert.RefSide

end
-- ==== Proof.PreSide.lean ====
/-
  The precondition read: where the printed predicate is all ones, every lookup names a row of the table.
-/
import proofs.«412992_j76828374991717_2_alg».proof.Pre_finite_inputs
import proofs.«412992_j76828374991717_2_alg».proof.Proof.Gen.Pre_finite_inputs
import proofs.«412992_j76828374991717_2_alg».proof.Proof.Spec
import Idealize.ShloMosaic.Lib.ReduceAll

noncomputable section

namespace Cert.PreSide

open Idealize.ShloMosaic Idealize.ShloMosaic.ValueIdx
open Cert.Pre_finite_inputs Cert.Pre_finite_inputs.Gen

variable {F : FTy → Type} [FloatOps F]

/-- The predicate's second conjunct, entry by entry: the row word of every lookup, read signed, lies in
    [0, 2600000). The first conjunct (finiteness of the table) is not used. -/
theorem inRange (ids : IVec S16384x26 32) (table : FVec F S2600000x64 .f32)
    (h : Cert.Pre_finite_inputs.fn (F := F) ids table = fun _ => 1#1) :
    Cert.Spec.InRange (Cert.Spec.gids bcast_S_S26 bcast_S26_S1x26_1 bcast_S1x26_S16384x26_0_1 ids) := by
  -- the predicate's one word is 1: both scalar conjuncts are 1; keep the second
  have h0 := congrFun h ValueIdx.ix0
  dsimp only [fn] at h0
  rw [andi] at h0
  obtain ⟨-, h15⟩ := IntOp.andi_eq_one.1 h0
  intro i
  -- a rank-0 shape has one index; an all-reduce by `and` that is 1 met a 1 at every entry
  haveI : Subsingleton S_.Idx := ⟨fun a b => funext fun d => d.elim0⟩
  have hi := Host.reduce_andi_all _ _ _ _ _ h15 i
  rw [andi] at hi
  obtain ⟨hge, hlt⟩ := IntOp.andi_eq_one.1 hi
  -- the two signed comparisons at entry i, against the splats 0 and 2600000
  rw [cmpi, IntOp.cmpi_sge] at hge
  rw [cmpi, IntOp.cmpi_slt] at hlt
  exact ⟨hge, hlt⟩

end Cert.PreSide

end
-- ==== Proof.lean ====
/-
  A sparse-embedding lookup: ids[b, s] + 100000 s names a row of the unified table, and the result holds that row at
  [b, s, :]. The kernel clamps each row number into the table and gathers the rows by 512 row copies per grid point,
  each on a semaphore of its own, all started before any is waited for; the reference is jnp.take, which wraps a
  negative row number and fills a row number past the table's end. Where every row number is a row of the table
  (the stated domain) the clamp, the wrap and the fill are all the identity, and both programs return the table's
  row per lookup: the same function of the two arguments, entry by entry.

  The frames: the kernel's at both instances from the body's run at every grid point (no precondition is used: the
  clamp makes every id a row of the table); the reference's from its run. Nothing was rewritten by the ideal pass,
  so preserves has nothing to state.
-/
import proofs.«412992_j76828374991717_2_alg».proof.Defs
import proofs.«412992_j76828374991717_2_alg».proof.Proof.Gen.Kernel
import proofs.«412992_j76828374991717_2_alg».proof.Proof.Gen.KernelIdeal
import proofs.«412992_j76828374991717_2_alg».proof.Proof.Gen.ReferenceIdeal
import proofs.«412992_j76828374991717_2_alg».proof.Proof.Gen.Pre_finite_inputs
import proofs.«412992_j76828374991717_2_alg».proof.Proof.BFrame
import proofs.«412992_j76828374991717_2_alg».proof.Proof.KRun
import proofs.«412992_j76828374991717_2_alg».proof.Proof.RefSide
import proofs.«412992_j76828374991717_2_alg».proof.Proof.PreSide

noncomputable section

namespace Cert.Proof

open Idealize.ShloMosaic Idealize.SL.Sem

/-- The word-level kernel runs to the end and leaves its arguments as launched. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame (F := Ideal) m ρ

/-- And the reference, where every lookup names a row of the table. -/
theorem frame_ri : Cert.frame_ReferenceIdeal := fun m ρ hpre =>
  (θ_run Cert.ReferenceIdeal.defs _ _).mono (fun _ h c => (h c).2)
    (Cert.RefSide.run_G m ρ (fun c => Cert.PreSide.inRange _ _ (hpre c)))

/-- The ideal pass rewrote nothing. -/
theorem preserves : Cert.preserves_Kernel_KernelIdeal := trivial

/-- From memories agreeing on the ids and the table, both programs end with the table's row per lookup. -/
theorem algebraic : Cert.algebraic_KernelIdeal_ReferenceIdeal := by
  intro m ρ m' ρ' hpre hagree
  have hr : ∀ c : Dev Cert.KernelIdeal.nD, Cert.Spec.InRange (Cert.Spec.gids Cert.KernelIdeal.Gen.bcast_S_S26
      Cert.KernelIdeal.Gen.bcast_S26_S1x26_1 Cert.KernelIdeal.Gen.bcast_S1x26_S16384x26_0_1
      (m ((c.tc : Thread Cert.KernelIdeal.nD Cert.KernelIdeal.τ).loc Cert.KernelIdeal.main_arg0))) :=
    fun c => Cert.PreSide.inRange _ _ (hpre c)
  refine ⟨fun c => Cert.Spec.G (Cert.Spec.gids Cert.KernelIdeal.Gen.bcast_S_S26
      Cert.KernelIdeal.Gen.bcast_S26_S1x26_1 Cert.KernelIdeal.Gen.bcast_S1x26_S16384x26_0_1
      (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Body.run_G (F := Ideal) m ρ hr, ?_⟩
  have hr' : ∀ c : Dev Cert.ReferenceIdeal.nD, Cert.Spec.InRange (Cert.Spec.gids Cert.ReferenceIdeal.Gen.bcast_S_S26
      Cert.ReferenceIdeal.Gen.bcast_S26_S1x26_1 Cert.ReferenceIdeal.Gen.bcast_S1x26_S16384x26_0_1
      (m' ((c.tc : Thread Cert.ReferenceIdeal.nD Cert.ReferenceIdeal.τ).loc Cert.ReferenceIdeal.main_arg0))) :=
    fun c => by rw [(hagree c).1]; exact hr c
  refine (θ_run Cert.ReferenceIdeal.defs _ _).mono (fun _ h c => ⟨(h c).1.trans ?_, (h c).2⟩)
    (Cert.RefSide.run_G m' ρ' hr')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
